-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 4096]⟩ ⟨2, ![16384, 4096]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16384, 512]⟩ ⟨2, ![16384, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  main_v3
-- ==== Pre_finite_inputs_ReferenceIdeal.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S2048x4096 : Shape := ⟨2, ![2048, 4096]⟩
abbrev S16384x512 : Shape := ⟨2, ![16384, 512]⟩
abbrev S2048x3584 : Shape := ⟨2, ![2048, 3584]⟩
abbrev S2048x512 : Shape := ⟨2, ![2048, 512]⟩
abbrev S8 : Shape := ⟨1, ![8]⟩
abbrev S7 : Shape := ⟨1, ![7]⟩
abbrev S_ : Shape := ⟨0, ![]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S2048x4096, .f32⟩
  | .hbm, ⟨1, _⟩ => ⟨S16384x512, .bf16⟩
  | .local _ .vmem, ⟨0, _⟩ => ⟨S2048x3584, .f32⟩
  | .local _ .vmem, ⟨1, _⟩ => ⟨S2048x3584, .bf16⟩
  | .local _ .vmem, ⟨2, _⟩ => ⟨S2048x512, .f32⟩
  | .local _ .vmem, ⟨3, _⟩ => ⟨S2048x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_off1 (d0 : Dev nD) (c1_i32_18 : BitVec 32) (c1_i32_17 : BitVec 32) (c1_i32_19 : BitVec 32) : Fin 2 → Nat :=
  let c0_i32_69 : BitVec 32 := 0#32
  let c2_i32_20 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let v37 : BitVec 32 := Scalar.xori v18 c1_i32_18
  let v39 : BitVec 32 := Scalar.muli c2_i32_20 v37
  let c0_i32_21 : BitVec 32 := 0#32
  let v40 : BitVec 1 := Scalar.cmpi .eq v37 c0_i32_21
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let v36 : BitVec 32 := Scalar.xori v16 c1_i32_17
  let c1_i32_22 : BitVec 32 := 1#32
  let v41 : BitVec 32 := Scalar.subi c1_i32_22 v36
  let v42 : BitVec 32 := Scalar.select v40 v36 v41
  let v43 : BitVec 32 := Scalar.addi v39 v42
  let c4_i32_23 : BitVec 32 := 4#32
  let c0_i32_11 : BitVec 32 := 0#32
  let v20 : BitVec 1 := Scalar.cmpi .sgt v2 c0_i32_11
  let v21 : BitVec 32 := Scalar.extui v20
  let c0_i32_12 : BitVec 32 := 0#32
  let v22 : BitVec 1 := Scalar.cmpi .slt v2 c0_i32_12
  let v23 : BitVec 32 := Scalar.extui v22
  let v24 : BitVec 32 := Scalar.subi v21 v23
  let c4_i32_10 : BitVec 32 := 4#32
  let c0_i32_13 : BitVec 32 := 0#32
  let v25 : BitVec 1 := Scalar.cmpi .sgt c4_i32_10 c0_i32_13
  let v26 : BitVec 32 := Scalar.extui v25
  let c0_i32_14 : BitVec 32 := 0#32
  let v27 : BitVec 1 := Scalar.cmpi .slt c4_i32_10 c0_i32_14
  let v28 : BitVec 32 := Scalar.extui v27
  let v29 : BitVec 32 := Scalar.subi v26 v28
  let v30 : BitVec 1 := Scalar.cmpi .ne v24 v29
  let v31 : BitVec 32 := Scalar.remsi v2 c4_i32_10
  let c0_i32_15 : BitVec 32 := 0#32
  let v32 : BitVec 1 := Scalar.cmpi .ne v31 c0_i32_15
  let v33 : BitVec 1 := Scalar.andi v30 v32
  let v19 : BitVec 32 := Scalar.divsi v2 c4_i32_10
  let c1_i32_16 : BitVec 32 := 1#32
  let v34 : BitVec 32 := Scalar.subi v19 c1_i32_16
  let v35 : BitVec 32 := Scalar.select v33 v34 v19
  let v38 : BitVec 32 := Scalar.xori v35 c1_i32_19
  let v44 : BitVec 32 := Scalar.muli c4_i32_23 v38
  let v45 : BitVec 32 := Scalar.addi v43 v44
  let c512_i32 : BitVec 32 := 512#32
  let v106 : BitVec 32 := Scalar.muli v45 c512_i32
  ![0, v106.toNat]
def k0_off1_at (r : Fin 7) : BitVec 32 × BitVec 32 × BitVec 32 :=
  if r.val < 3 then
    if r.val < 1 then
      (1#32, 1#32, 1#32)
    else
      if r.val < 2 then
        (0#32, 1#32, 0#32)
      else
        (1#32, 0#32, 1#32)
  else
    if r.val < 5 then
      if r.val < 4 then
        (1#32, 0#32, 0#32)
      else
        (0#32, 1#32, 1#32)
    else
      if r.val < 6 then
        (0#32, 0#32, 1#32)
      else
        (1#32, 1#32, 0#32)
def k0_off2 (d0 : Dev nD) : Fin 2 → Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_92 : BitVec 32 := 512#32
  let v141 : BitVec 32 := Scalar.muli v2 c512_i32_92
  ![0, v141.toNat]
def k0_dev1 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_94 : BitVec 32 := 1#32
  let v146 : BitVec 32 := Scalar.addi v2 c1_i32_94
  let c8_i32_95 : BitVec 32 := 8#32
  let v147 : BitVec 32 := Scalar.remsi v146 c8_i32_95
  let c1_i32_97 : BitVec 32 := 1#32
  let v148 : BitVec 32 := Scalar.muli v147 c1_i32_97
  let v149 : BitVec 32 := Scalar.addi c0_i32_98 v148
  v149.toNat
def k0_dev2 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_99 : BitVec 32 := 2#32
  let v150 : BitVec 32 := Scalar.addi v2 c2_i32_99
  let c8_i32_100 : BitVec 32 := 8#32
  let v151 : BitVec 32 := Scalar.remsi v150 c8_i32_100
  let c1_i32_102 : BitVec 32 := 1#32
  let v152 : BitVec 32 := Scalar.muli v151 c1_i32_102
  let v153 : BitVec 32 := Scalar.addi c0_i32_103 v152
  v153.toNat
def k0_dev3 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v154 : BitVec 32 := Scalar.addi v2 c3_i32_104
  let c8_i32_105 : BitVec 32 := 8#32
  let v155 : BitVec 32 := Scalar.remsi v154 c8_i32_105
  let c1_i32_107 : BitVec 32 := 1#32
  let v156 : BitVec 32 := Scalar.muli v155 c1_i32_107
  let v157 : BitVec 32 := Scalar.addi c0_i32_108 v156
  v157.toNat
def k0_dev4 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_109 : BitVec 32 := 4#32
  let v158 : BitVec 32 := Scalar.addi v2 c4_i32_109
  let c8_i32_110 : BitVec 32 := 8#32
  let v159 : BitVec 32 := Scalar.remsi v158 c8_i32_110
  let c1_i32_112 : BitVec 32 := 1#32
  let v160 : BitVec 32 := Scalar.muli v159 c1_i32_112
  let v161 : BitVec 32 := Scalar.addi c0_i32_113 v160
  v161.toNat
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_114 : BitVec 32 := 5#32
  let v162 : BitVec 32 := Scalar.addi v2 c5_i32_114
  let c8_i32_115 : BitVec 32 := 8#32
  let v163 : BitVec 32 := Scalar.remsi v162 c8_i32_115
  let c1_i32_117 : BitVec 32 := 1#32
  let v164 : BitVec 32 := Scalar.muli v163 c1_i32_117
  let v165 : BitVec 32 := Scalar.addi c0_i32_118 v164
  v165.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_119 : BitVec 32 := 6#32
  let v166 : BitVec 32 := Scalar.addi v2 c6_i32_119
  let c8_i32_120 : BitVec 32 := 8#32
  let v167 : BitVec 32 := Scalar.remsi v166 c8_i32_120
  let c1_i32_122 : BitVec 32 := 1#32
  let v168 : BitVec 32 := Scalar.muli v167 c1_i32_122
  let v169 : BitVec 32 := Scalar.addi c0_i32_123 v168
  v169.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_124 : BitVec 32 := 7#32
  let v170 : BitVec 32 := Scalar.addi v2 c7_i32_124
  let c8_i32_125 : BitVec 32 := 8#32
  let v171 : BitVec 32 := Scalar.remsi v170 c8_i32_125
  let c1_i32_127 : BitVec 32 := 1#32
  let v172 : BitVec 32 := Scalar.muli v171 c1_i32_127
  let v173 : BitVec 32 := Scalar.addi c0_i32_128 v172
  v173.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2048_i32_137 : BitVec 32 := 2048#32
  let v183 : BitVec 32 := Scalar.muli v2 c2048_i32_137
  let c0_i32_142 : BitVec 32 := 0#32
  ![v183.toNat, 0]
def k0_dev8 (d0 : Dev nD) : Nat :=
  let c0_i32_141 : BitVec 32 := 0#32
  let c2_i32_20 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c1_i32_18 : BitVec 32 := 1#32
  let v37 : BitVec 32 := Scalar.xori v18 c1_i32_18
  let v39 : BitVec 32 := Scalar.muli c2_i32_20 v37
  let c0_i32_21 : BitVec 32 := 0#32
  let v40 : BitVec 1 := Scalar.cmpi .eq v37 c0_i32_21
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c1_i32_17 : BitVec 32 := 1#32
  let v36 : BitVec 32 := Scalar.xori v16 c1_i32_17
  let c1_i32_22 : BitVec 32 := 1#32
  let v41 : BitVec 32 := Scalar.subi c1_i32_22 v36
  let v42 : BitVec 32 := Scalar.select v40 v36 v41
  let v43 : BitVec 32 := Scalar.addi v39 v42
  let c4_i32_23 : BitVec 32 := 4#32
  let c0_i32_11 : BitVec 32 := 0#32
  let v20 : BitVec 1 := Scalar.cmpi .sgt v2 c0_i32_11
  let v21 : BitVec 32 := Scalar.extui v20
  let c0_i32_12 : BitVec 32 := 0#32
  let v22 : BitVec 1 := Scalar.cmpi .slt v2 c0_i32_12
  let v23 : BitVec 32 := Scalar.extui v22
  let v24 : BitVec 32 := Scalar.subi v21 v23
  let c4_i32_10 : BitVec 32 := 4#32
  let c0_i32_13 : BitVec 32 := 0#32
  let v25 : BitVec 1 := Scalar.cmpi .sgt c4_i32_10 c0_i32_13
  let v26 : BitVec 32 := Scalar.extui v25
  let c0_i32_14 : BitVec 32 := 0#32
  let v27 : BitVec 1 := Scalar.cmpi .slt c4_i32_10 c0_i32_14
  let v28 : BitVec 32 := Scalar.extui v27
  let v29 : BitVec 32 := Scalar.subi v26 v28
  let v30 : BitVec 1 := Scalar.cmpi .ne v24 v29
  let v31 : BitVec 32 := Scalar.remsi v2 c4_i32_10
  let c0_i32_15 : BitVec 32 := 0#32
  let v32 : BitVec 1 := Scalar.cmpi .ne v31 c0_i32_15
  let v33 : BitVec 1 := Scalar.andi v30 v32
  let v19 : BitVec 32 := Scalar.divsi v2 c4_i32_10
  let c1_i32_16 : BitVec 32 := 1#32
  let v34 : BitVec 32 := Scalar.subi v19 c1_i32_16
  let v35 : BitVec 32 := Scalar.select v33 v34 v19
  let c1_i32_19 : BitVec 32 := 1#32
  let v38 : BitVec 32 := Scalar.xori v35 c1_i32_19
  let v44 : BitVec 32 := Scalar.muli c4_i32_23 v38
  let v45 : BitVec 32 := Scalar.addi v43 v44
  let c1_i32_140 : BitVec 32 := 1#32
  let v184 : BitVec 32 := Scalar.muli v45 c1_i32_140
  let v185 : BitVec 32 := Scalar.addi c0_i32_141 v184
  v185.toNat
def k0_dev9 (d0 : Dev nD) : Nat :=
  let c0_i32_156 : BitVec 32 := 0#32
  let c2_i32_27 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c0_i32_25 : BitVec 32 := 0#32
  let v47 : BitVec 32 := Scalar.xori v18 c0_i32_25
  let v49 : BitVec 32 := Scalar.muli c2_i32_27 v47
  let c0_i32_28 : BitVec 32 := 0#32
  let v50 : BitVec 1 := Scalar.cmpi .eq v47 c0_i32_28
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c1_i32_24 : BitVec 32 := 1#32
  let v46 : BitVec 32 := Scalar.xori v16 c1_i32_24
  let c1_i32_29 : BitVec 32 := 1#32
  let v51 : BitVec 32 := Scalar.subi c1_i32_29 v46
  let v52 : BitVec 32 := Scalar.select v50 v46 v51
  let v53 : BitVec 32 := Scalar.addi v49 v52
  let c4_i32_30 : BitVec 32 := 4#32
  let c0_i32_11 : BitVec 32 := 0#32
  let v20 : BitVec 1 := Scalar.cmpi .sgt v2 c0_i32_11
  let v21 : BitVec 32 := Scalar.extui v20
  let c0_i32_12 : BitVec 32 := 0#32
  let v22 : BitVec 1 := Scalar.cmpi .slt v2 c0_i32_12
  let v23 : BitVec 32 := Scalar.extui v22
  let v24 : BitVec 32 := Scalar.subi v21 v23
  let c4_i32_10 : BitVec 32 := 4#32
  let c0_i32_13 : BitVec 32 := 0#32
  let v25 : BitVec 1 := Scalar.cmpi .sgt c4_i32_10 c0_i32_13
  let v26 : BitVec 32 := Scalar.extui v25
  let c0_i32_14 : BitVec 32 := 0#32
  let v27 : BitVec 1 := Scalar.cmpi .slt c4_i32_10 c0_i32_14
  let v28 : BitVec 32 := Scalar.extui v27
  let v29 : BitVec 32 := Scalar.subi v26 v28
  let v30 : BitVec 1 := Scalar.cmpi .ne v24 v29
  let v31 : BitVec 32 := Scalar.remsi v2 c4_i32_10
  let c0_i32_15 : BitVec 32 := 0#32
  let v32 : BitVec 1 := Scalar.cmpi .ne v31 c0_i32_15
  let v33 : BitVec 1 := Scalar.andi v30 v32
  let v19 : BitVec 32 := Scalar.divsi v2 c4_i32_10
  let c1_i32_16 : BitVec 32 := 1#32
  let v34 : BitVec 32 := Scalar.subi v19 c1_i32_16
  let v35 : BitVec 32 := Scalar.select v33 v34 v19
  let c0_i32_26 : BitVec 32 := 0#32
  let v48 : BitVec 32 := Scalar.xori v35 c0_i32_26
  let v54 : BitVec 32 := Scalar.muli c4_i32_30 v48
  let v55 : BitVec 32 := Scalar.addi v53 v54
  let c1_i32_155 : BitVec 32 := 1#32
  let v202 : BitVec 32 := Scalar.muli v55 c1_i32_155
  let v203 : BitVec 32 := Scalar.addi c0_i32_156 v202
  v203.toNat
def k0_dev10 (d0 : Dev nD) : Nat :=
  let c0_i32_171 : BitVec 32 := 0#32
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c1_i32_32 : BitVec 32 := 1#32
  let v57 : BitVec 32 := Scalar.xori v18 c1_i32_32
  let v59 : BitVec 32 := Scalar.muli c2_i32_34 v57
  let c0_i32_35 : BitVec 32 := 0#32
  let v60 : BitVec 1 := Scalar.cmpi .eq v57 c0_i32_35
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c0_i32_31 : BitVec 32 := 0#32
  let v56 : BitVec 32 := Scalar.xori v16 c0_i32_31
  let c1_i32_36 : BitVec 32 := 1#32
  let v61 : BitVec 32 := Scalar.subi c1_i32_36 v56
  let v62 : BitVec 32 := Scalar.select v60 v56 v61
  let v63 : BitVec 32 := Scalar.addi v59 v62
  let c4_i32_37 : BitVec 32 := 4#32
  let c0_i32_11 : BitVec 32 := 0#32
  let v20 : BitVec 1 := Scalar.cmpi .sgt v2 c0_i32_11
  let v21 : BitVec 32 := Scalar.extui v20
  let c0_i32_12 : BitVec 32 := 0#32
  let v22 : BitVec 1 := Scalar.cmpi .slt v2 c0_i32_12
  let v23 : BitVec 32 := Scalar.extui v22
  let v24 : BitVec 32 := Scalar.subi v21 v23
  let c4_i32_10 : BitVec 32 := 4#32
  let c0_i32_13 : BitVec 32 := 0#32
  let v25 : BitVec 1 := Scalar.cmpi .sgt c4_i32_10 c0_i32_13
  let v26 : BitVec 32 := Scalar.extui v25
  let c0_i32_14 : BitVec 32 := 0#32
  let v27 : BitVec 1 := Scalar.cmpi .slt c4_i32_10 c0_i32_14
  let v28 : BitVec 32 := Scalar.extui v27
  let v29 : BitVec 32 := Scalar.subi v26 v28
  let v30 : BitVec 1 := Scalar.cmpi .ne v24 v29
  let v31 : BitVec 32 := Scalar.remsi v2 c4_i32_10
  let c0_i32_15 : BitVec 32 := 0#32
  let v32 : BitVec 1 := Scalar.cmpi .ne v31 c0_i32_15
  let v33 : BitVec 1 := Scalar.andi v30 v32
  let v19 : BitVec 32 := Scalar.divsi v2 c4_i32_10
  let c1_i32_16 : BitVec 32 := 1#32
  let v34 : BitVec 32 := Scalar.subi v19 c1_i32_16
  let v35 : BitVec 32 := Scalar.select v33 v34 v19
  let c1_i32_33 : BitVec 32 := 1#32
  let v58 : BitVec 32 := Scalar.xori v35 c1_i32_33
  let v64 : BitVec 32 := Scalar.muli c4_i32_37 v58
  let v65 : BitVec 32 := Scalar.addi v63 v64
  let c1_i32_170 : BitVec 32 := 1#32
  let v220 : BitVec 32 := Scalar.muli v65 c1_i32_170
  let v221 : BitVec 32 := Scalar.addi c0_i32_171 v220
  v221.toNat
def k0_dev11 (d0 : Dev nD) : Nat :=
  let c0_i32_186 : BitVec 32 := 0#32
  let c2_i32_41 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c1_i32_39 : BitVec 32 := 1#32
  let v67 : BitVec 32 := Scalar.xori v18 c1_i32_39
  let v69 : BitVec 32 := Scalar.muli c2_i32_41 v67
  let c0_i32_42 : BitVec 32 := 0#32
  let v70 : BitVec 1 := Scalar.cmpi .eq v67 c0_i32_42
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c0_i32_38 : BitVec 32 := 0#32
  let v66 : BitVec 32 := Scalar.xori v16 c0_i32_38
  let c1_i32_43 : BitVec 32 := 1#32
  let v71 : BitVec 32 := Scalar.subi c1_i32_43 v66
  let v72 : BitVec 32 := Scalar.select v70 v66 v71
  let v73 : BitVec 32 := Scalar.addi v69 v72
  let c4_i32_44 : BitVec 32 := 4#32
  let c0_i32_11 : BitVec 32 := 0#32
  let v20 : BitVec 1 := Scalar.cmpi .sgt v2 c0_i32_11
  let v21 : BitVec 32 := Scalar.extui v20
  let c0_i32_12 : BitVec 32 := 0#32
  let v22 : BitVec 1 := Scalar.cmpi .slt v2 c0_i32_12
  let v23 : BitVec 32 := Scalar.extui v22
  let v24 : BitVec 32 := Scalar.subi v21 v23
  let c4_i32_10 : BitVec 32 := 4#32
  let c0_i32_13 : BitVec 32 := 0#32
  let v25 : BitVec 1 := Scalar.cmpi .sgt c4_i32_10 c0_i32_13
  let v26 : BitVec 32 := Scalar.extui v25
  let c0_i32_14 : BitVec 32 := 0#32
  let v27 : BitVec 1 := Scalar.cmpi .slt c4_i32_10 c0_i32_14
  let v28 : BitVec 32 := Scalar.extui v27
  let v29 : BitVec 32 := Scalar.subi v26 v28
  let v30 : BitVec 1 := Scalar.cmpi .ne v24 v29
  let v31 : BitVec 32 := Scalar.remsi v2 c4_i32_10
  let c0_i32_15 : BitVec 32 := 0#32
  let v32 : BitVec 1 := Scalar.cmpi .ne v31 c0_i32_15
  let v33 : BitVec 1 := Scalar.andi v30 v32
  let v19 : BitVec 32 := Scalar.divsi v2 c4_i32_10
  let c1_i32_16 : BitVec 32 := 1#32
  let v34 : BitVec 32 := Scalar.subi v19 c1_i32_16
  let v35 : BitVec 32 := Scalar.select v33 v34 v19
  let c0_i32_40 : BitVec 32 := 0#32
  let v68 : BitVec 32 := Scalar.xori v35 c0_i32_40
  let v74 : BitVec 32 := Scalar.muli c4_i32_44 v68
  let v75 : BitVec 32 := Scalar.addi v73 v74
  let c1_i32_185 : BitVec 32 := 1#32
  let v238 : BitVec 32 := Scalar.muli v75 c1_i32_185
  let v239 : BitVec 32 := Scalar.addi c0_i32_186 v238
  v239.toNat
def k0_dev12 (d0 : Dev nD) : Nat :=
  let c0_i32_201 : BitVec 32 := 0#32
  let c2_i32_48 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c0_i32_46 : BitVec 32 := 0#32
  let v77 : BitVec 32 := Scalar.xori v18 c0_i32_46
  let v79 : BitVec 32 := Scalar.muli c2_i32_48 v77
  let c0_i32_49 : BitVec 32 := 0#32
  let v80 : BitVec 1 := Scalar.cmpi .eq v77 c0_i32_49
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c1_i32_45 : BitVec 32 := 1#32
  let v76 : BitVec 32 := Scalar.xori v16 c1_i32_45
  let c1_i32_50 : BitVec 32 := 1#32
  let v81 : BitVec 32 := Scalar.subi c1_i32_50 v76
  let v82 : BitVec 32 := Scalar.select v80 v76 v81
  let v83 : BitVec 32 := Scalar.addi v79 v82
  let c4_i32_51 : BitVec 32 := 4#32
  let c0_i32_11 : BitVec 32 := 0#32
  let v20 : BitVec 1 := Scalar.cmpi .sgt v2 c0_i32_11
  let v21 : BitVec 32 := Scalar.extui v20
  let c0_i32_12 : BitVec 32 := 0#32
  let v22 : BitVec 1 := Scalar.cmpi .slt v2 c0_i32_12
  let v23 : BitVec 32 := Scalar.extui v22
  let v24 : BitVec 32 := Scalar.subi v21 v23
  let c4_i32_10 : BitVec 32 := 4#32
  let c0_i32_13 : BitVec 32 := 0#32
  let v25 : BitVec 1 := Scalar.cmpi .sgt c4_i32_10 c0_i32_13
  let v26 : BitVec 32 := Scalar.extui v25
  let c0_i32_14 : BitVec 32 := 0#32
  let v27 : BitVec 1 := Scalar.cmpi .slt c4_i32_10 c0_i32_14
  let v28 : BitVec 32 := Scalar.extui v27
  let v29 : BitVec 32 := Scalar.subi v26 v28
  let v30 : BitVec 1 := Scalar.cmpi .ne v24 v29
  let v31 : BitVec 32 := Scalar.remsi v2 c4_i32_10
  let c0_i32_15 : BitVec 32 := 0#32
  let v32 : BitVec 1 := Scalar.cmpi .ne v31 c0_i32_15
  let v33 : BitVec 1 := Scalar.andi v30 v32
  let v19 : BitVec 32 := Scalar.divsi v2 c4_i32_10
  let c1_i32_16 : BitVec 32 := 1#32
  let v34 : BitVec 32 := Scalar.subi v19 c1_i32_16
  let v35 : BitVec 32 := Scalar.select v33 v34 v19
  let c1_i32_47 : BitVec 32 := 1#32
  let v78 : BitVec 32 := Scalar.xori v35 c1_i32_47
  let v84 : BitVec 32 := Scalar.muli c4_i32_51 v78
  let v85 : BitVec 32 := Scalar.addi v83 v84
  let c1_i32_200 : BitVec 32 := 1#32
  let v256 : BitVec 32 := Scalar.muli v85 c1_i32_200
  let v257 : BitVec 32 := Scalar.addi c0_i32_201 v256
  v257.toNat
def k0_dev13 (d0 : Dev nD) : Nat :=
  let c0_i32_216 : BitVec 32 := 0#32
  let c2_i32_55 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c0_i32_53 : BitVec 32 := 0#32
  let v87 : BitVec 32 := Scalar.xori v18 c0_i32_53
  let v89 : BitVec 32 := Scalar.muli c2_i32_55 v87
  let c0_i32_56 : BitVec 32 := 0#32
  let v90 : BitVec 1 := Scalar.cmpi .eq v87 c0_i32_56
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c0_i32_52 : BitVec 32 := 0#32
  let v86 : BitVec 32 := Scalar.xori v16 c0_i32_52
  let c1_i32_57 : BitVec 32 := 1#32
  let v91 : BitVec 32 := Scalar.subi c1_i32_57 v86
  let v92 : BitVec 32 := Scalar.select v90 v86 v91
  let v93 : BitVec 32 := Scalar.addi v89 v92
  let c4_i32_58 : BitVec 32 := 4#32
  let c0_i32_11 : BitVec 32 := 0#32
  let v20 : BitVec 1 := Scalar.cmpi .sgt v2 c0_i32_11
  let v21 : BitVec 32 := Scalar.extui v20
  let c0_i32_12 : BitVec 32 := 0#32
  let v22 : BitVec 1 := Scalar.cmpi .slt v2 c0_i32_12
  let v23 : BitVec 32 := Scalar.extui v22
  let v24 : BitVec 32 := Scalar.subi v21 v23
  let c4_i32_10 : BitVec 32 := 4#32
  let c0_i32_13 : BitVec 32 := 0#32
  let v25 : BitVec 1 := Scalar.cmpi .sgt c4_i32_10 c0_i32_13
  let v26 : BitVec 32 := Scalar.extui v25
  let c0_i32_14 : BitVec 32 := 0#32
  let v27 : BitVec 1 := Scalar.cmpi .slt c4_i32_10 c0_i32_14
  let v28 : BitVec 32 := Scalar.extui v27
  let v29 : BitVec 32 := Scalar.subi v26 v28
  let v30 : BitVec 1 := Scalar.cmpi .ne v24 v29
  let v31 : BitVec 32 := Scalar.remsi v2 c4_i32_10
  let c0_i32_15 : BitVec 32 := 0#32
  let v32 : BitVec 1 := Scalar.cmpi .ne v31 c0_i32_15
  let v33 : BitVec 1 := Scalar.andi v30 v32
  let v19 : BitVec 32 := Scalar.divsi v2 c4_i32_10
  let c1_i32_16 : BitVec 32 := 1#32
  let v34 : BitVec 32 := Scalar.subi v19 c1_i32_16
  let v35 : BitVec 32 := Scalar.select v33 v34 v19
  let c1_i32_54 : BitVec 32 := 1#32
  let v88 : BitVec 32 := Scalar.xori v35 c1_i32_54
  let v94 : BitVec 32 := Scalar.muli c4_i32_58 v88
  let v95 : BitVec 32 := Scalar.addi v93 v94
  let c1_i32_215 : BitVec 32 := 1#32
  let v274 : BitVec 32 := Scalar.muli v95 c1_i32_215
  let v275 : BitVec 32 := Scalar.addi c0_i32_216 v274
  v275.toNat
def k0_dev14 (d0 : Dev nD) : Nat :=
  let c0_i32_231 : BitVec 32 := 0#32
  let c2_i32_62 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_7 : BitVec 32 := 2#32
  let v17 : BitVec 1 := Scalar.cmpi .sge v12 c2_i32_7
  let c1_i32_8 : BitVec 32 := 1#32
  let c0_i32_9 : BitVec 32 := 0#32
  let v18 : BitVec 32 := Scalar.select v17 c1_i32_8 c0_i32_9
  let c1_i32_60 : BitVec 32 := 1#32
  let v97 : BitVec 32 := Scalar.xori v18 c1_i32_60
  let v99 : BitVec 32 := Scalar.muli c2_i32_62 v97
  let c0_i32_63 : BitVec 32 := 0#32
  let v100 : BitVec 1 := Scalar.cmpi .eq v97 c0_i32_63
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let c1_i32_5 : BitVec 32 := 1#32
  let c0_i32_6 : BitVec 32 := 0#32
  let v16 : BitVec 32 := Scalar.select v15 c1_i32_5 c0_i32_6
  let c1_i32_59 : BitVec 32 := 1#32
  let v96 : BitVec 32 := Scalar.xori v16 c1_i32_59
  let c1_i32_64 : BitVec 32 := 1#32
  let v101 : BitVec 32 := Scalar.subi c1_i32_64 v96
  let v102 : BitVec 32 := Scalar.select v100 v96 v101
  let v103 : BitVec 32 := Scalar.addi v99 v102
  let c4_i32_65 : BitVec 32 := 4#32
  let c0_i32_11 : BitVec 32 := 0#32
  let v20 : BitVec 1 := Scalar.cmpi .sgt v2 c0_i32_11
  let v21 : BitVec 32 := Scalar.extui v20
  let c0_i32_12 : BitVec 32 := 0#32
  let v22 : BitVec 1 := Scalar.cmpi .slt v2 c0_i32_12
  let v23 : BitVec 32 := Scalar.extui v22
  let v24 : BitVec 32 := Scalar.subi v21 v23
  let c4_i32_10 : BitVec 32 := 4#32
  let c0_i32_13 : BitVec 32 := 0#32
  let v25 : BitVec 1 := Scalar.cmpi .sgt c4_i32_10 c0_i32_13
  let v26 : BitVec 32 := Scalar.extui v25
  let c0_i32_14 : BitVec 32 := 0#32
  let v27 : BitVec 1 := Scalar.cmpi .slt c4_i32_10 c0_i32_14
  let v28 : BitVec 32 := Scalar.extui v27
  let v29 : BitVec 32 := Scalar.subi v26 v28
  let v30 : BitVec 1 := Scalar.cmpi .ne v24 v29
  let v31 : BitVec 32 := Scalar.remsi v2 c4_i32_10
  let c0_i32_15 : BitVec 32 := 0#32
  let v32 : BitVec 1 := Scalar.cmpi .ne v31 c0_i32_15
  let v33 : BitVec 1 := Scalar.andi v30 v32
  let v19 : BitVec 32 := Scalar.divsi v2 c4_i32_10
  let c1_i32_16 : BitVec 32 := 1#32
  let v34 : BitVec 32 := Scalar.subi v19 c1_i32_16
  let v35 : BitVec 32 := Scalar.select v33 v34 v19
  let c0_i32_61 : BitVec 32 := 0#32
  let v98 : BitVec 32 := Scalar.xori v35 c0_i32_61
  let v104 : BitVec 32 := Scalar.muli c4_i32_65 v98
  let v105 : BitVec 32 := Scalar.addi v103 v104
  let c1_i32_230 : BitVec 32 := 1#32
  let v292 : BitVec 32 := Scalar.muli v105 c1_i32_230
  let v293 : BitVec 32 := Scalar.addi c0_i32_231 v292
  v293.toNat

class Facts₀ : Prop where
  inb_S8_S1_0 : ∀ a, (![0] : Fin 1 → Nat) a + S1.size a ≤ S8.size a
  squeezes_S1_S_ : S1.Squeezes S_
  inb_S2048x3584_S2048x512_0_0 : ∀ a, (![0, 0] : Fin 2 → Nat) a + S2048x512.size a ≤ S2048x3584.size a
  inb_S8_S1_1 : ∀ a, (![1] : Fin 1 → Nat) a + S1.size a ≤ S8.size a
  inb_S2048x3584_S2048x512_0_512 : ∀ a, (![0, 512] : Fin 2 → Nat) a + S2048x512.size a ≤ S2048x3584.size a
  inb_S8_S1_2 : ∀ a, (![2] : Fin 1 → Nat) a + S1.size a ≤ S8.size a
  inb_S2048x3584_S2048x512_0_1024 : ∀ a, (![0, 1024] : Fin 2 → Nat) a + S2048x512.size a ≤ S2048x3584.size a
  inb_S8_S1_3 : ∀ a, (![3] : Fin 1 → Nat) a + S1.size a ≤ S8.size a
  inb_S2048x3584_S2048x512_0_1536 : ∀ a, (![0, 1536] : Fin 2 → Nat) a + S2048x512.size a ≤ S2048x3584.size a
  inb_S8_S1_4 : ∀ a, (![4] : Fin 1 → Nat) a + S1.size a ≤ S8.size a
  inb_S2048x3584_S2048x512_0_2048 : ∀ a, (![0, 2048] : Fin 2 → Nat) a + S2048x512.size a ≤ S2048x3584.size a
  inb_S8_S1_5 : ∀ a, (![5] : Fin 1 → Nat) a + S1.size a ≤ S8.size a
  inb_S2048x3584_S2048x512_0_2560 : ∀ a, (![0, 2560] : Fin 2 → Nat) a + S2048x512.size a ≤ S2048x3584.size a
  inb_S8_S1_6 : ∀ a, (![6] : Fin 1 → Nat) a + S1.size a ≤ S8.size a
  inb_S2048x3584_S2048x512_0_3072 : ∀ a, (![0, 3072] : Fin 2 → Nat) a + S2048x512.size a ≤ S2048x3584.size a
  inb_S8_S1_7 : ∀ a, (![7] : Fin 1 → Nat) a + S1.size a ≤ S8.size a
  hamt_1 : (1#32 : BitVec 32).msb = false
  hamt_7 : (7#32 : BitVec 32).msb = false
  h_S2048x512 : 0 < S2048x512.numel
  bitsLt_bf16_f32 : FTy.bits .bf16 < FTy.bits .f32
  shapeCasts_S2048x512_S2048x512 : S2048x512.ShapeCasts S2048x512
  packedbf16_S2048x3584_S2048x512_0_0 : (Rect.unit (s := S2048x3584) ![0, 0] S2048x512.size inb_S2048x3584_S2048x512_0_0).PackedRows (EltTy.packing .bf16)
  inb_S7_S1_0 : ∀ a, (![0] : Fin 1 → Nat) a + S1.size a ≤ S7.size a
  wordsbf16_S2048x3584_S2048x512_0_0 : (Rect.unit (s := S2048x3584) ![0, 0] S2048x512.size inb_S2048x3584_S2048x512_0_0).WholeWords (EltTy.packing .bf16)
  packedbf16_S2048x3584_S2048x512_0_512 : (Rect.unit (s := S2048x3584) ![0, 512] S2048x512.size inb_S2048x3584_S2048x512_0_512).PackedRows (EltTy.packing .bf16)
  inb_S7_S1_1 : ∀ a, (![1] : Fin 1 → Nat) a + S1.size a ≤ S7.size a
  wordsbf16_S2048x3584_S2048x512_0_512 : (Rect.unit (s := S2048x3584) ![0, 512] S2048x512.size inb_S2048x3584_S2048x512_0_512).WholeWords (EltTy.packing .bf16)
  packedbf16_S2048x3584_S2048x512_0_1024 : (Rect.unit (s := S2048x3584) ![0, 1024] S2048x512.size inb_S2048x3584_S2048x512_0_1024).PackedRows (EltTy.packing .bf16)
  inb_S7_S1_2 : ∀ a, (![2] : Fin 1 → Nat) a + S1.size a ≤ S7.size a
  wordsbf16_S2048x3584_S2048x512_0_1024 : (Rect.unit (s := S2048x3584) ![0, 1024] S2048x512.size inb_S2048x3584_S2048x512_0_1024).WholeWords (EltTy.packing .bf16)
  packedbf16_S2048x3584_S2048x512_0_1536 : (Rect.unit (s := S2048x3584) ![0, 1536] S2048x512.size inb_S2048x3584_S2048x512_0_1536).PackedRows (EltTy.packing .bf16)
  inb_S7_S1_3 : ∀ a, (![3] : Fin 1 → Nat) a + S1.size a ≤ S7.size a
  wordsbf16_S2048x3584_S2048x512_0_1536 : (Rect.unit (s := S2048x3584) ![0, 1536] S2048x512.size inb_S2048x3584_S2048x512_0_1536).WholeWords (EltTy.packing .bf16)
  packedbf16_S2048x3584_S2048x512_0_2048 : (Rect.unit (s := S2048x3584) ![0, 2048] S2048x512.size inb_S2048x3584_S2048x512_0_2048).PackedRows (EltTy.packing .bf16)
  inb_S7_S1_4 : ∀ a, (![4] : Fin 1 → Nat) a + S1.size a ≤ S7.size a
  wordsbf16_S2048x3584_S2048x512_0_2048 : (Rect.unit (s := S2048x3584) ![0, 2048] S2048x512.size inb_S2048x3584_S2048x512_0_2048).WholeWords (EltTy.packing .bf16)
  packedbf16_S2048x3584_S2048x512_0_2560 : (Rect.unit (s := S2048x3584) ![0, 2560] S2048x512.size inb_S2048x3584_S2048x512_0_2560).PackedRows (EltTy.packing .bf16)
  inb_S7_S1_5 : ∀ a, (![5] : Fin 1 → Nat) a + S1.size a ≤ S7.size a
  wordsbf16_S2048x3584_S2048x512_0_2560 : (Rect.unit (s := S2048x3584) ![0, 2560] S2048x512.size inb_S2048x3584_S2048x512_0_2560).WholeWords (EltTy.packing .bf16)
  packedbf16_S2048x3584_S2048x512_0_3072 : (Rect.unit (s := S2048x3584) ![0, 3072] S2048x512.size inb_S2048x3584_S2048x512_0_3072).PackedRows (EltTy.packing .bf16)
  inb_S7_S1_6 : ∀ a, (![6] : Fin 1 → Nat) a + S1.size a ≤ S7.size a
  wordsbf16_S2048x3584_S2048x512_0_3072 : (Rect.unit (s := S2048x3584) ![0, 3072] S2048x512.size inb_S2048x3584_S2048x512_0_3072).WholeWords (EltTy.packing .bf16)
  inb_S2048x512_S2048x512_0_0 : ∀ a, (![0, 0] : Fin 2 → Nat) a + S2048x512.size a ≤ S2048x512.size a
  packedbf16_S2048x512_S2048x512_0_0 : (Rect.unit (s := S2048x512) ![0, 0] S2048x512.size inb_S2048x512_S2048x512_0_0).PackedRows (EltTy.packing .bf16)
  hcc0_scratch4 : 0 + S8.numel ≤ 23
  hcc0_scratch5 : 8 + S7.numel ≤ 23
  hcc0_scratch6 : 15 + S7.numel ≤ 23
  hcc0_scratch7 : 22 + S_.numel ≤ 23
  k0_off1_inb : ∀ d0 : Dev nD, ∀ (r : Fin 7), ∀ a, (k0_off1 d0 (k0_off1_at r).1 (k0_off1_at r).2.1 (k0_off1_at r).2.2) a + S2048x512.size a ≤ S2048x4096.size a
  k0_off2_inb : ∀ d0 : Dev nD, ∀ a, (k0_off2 d0) a + S2048x512.size a ≤ S2048x4096.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off3_inb : ∀ d0 : Dev nD, ∀ a, (k0_off3 d0) a + S2048x512.size a ≤ S16384x512.size a
  k0_off3_wordsbf16 : ∀ d0 : Dev nD, (Rect.unit (s := S16384x512) (k0_off3 d0) S2048x512.size (k0_off3_inb d0)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD

variable [Facts₀]

abbrev cc0_scratch4 : DmaSems sig S8 := SemArray.consecutive 0 S8 hcc0_scratch4
abbrev cc0_scratch5 : DmaSems sig S7 := SemArray.consecutive 8 S7 hcc0_scratch5
abbrev cc0_scratch6 : DmaSems sig S7 := SemArray.consecutive 15 S7 hcc0_scratch6
abbrev cc0_scratch7 : DmaSems sig S_ := SemArray.consecutive 22 S_ hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x4096 : Shape := ⟨2, ![16384, 4096]⟩

abbrev nBuf : Space → Nat
  | .hbm => 2
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.KernelIdealA2A.Dev.lean ====
/-
  The mesh arithmetic of the eight-device exchange.

  Device `c` talks to each of the other seven devices in two enumerations: the entry
  handshake signals device `c + k + 1 (mod 8)` for `k = 0 … 6` (`bdev`), and slot `f` of the exchange proper
  sends to `peer c f`, the device whose three cube coordinates differ from `c`'s by the slot's mask.
  Each slot's map is an involution (so the device that receives on slot `f` from `c` is the one that sends
  to `c` on slot `f`), and both enumerations run over exactly the devices other than `c`.
  Everything here is decided over the 8 devices and 7 slots.
-/
import proofs.«900616_g7700000000000617_dist_a2a_v7x_i8_i_m2048_n512_bf16_1_alg».proof.Proof.Gen.KernelIdeal

namespace Cert.KernelIdeal.A2A

open Cert.KernelIdeal Cert.KernelIdeal.Gen
open Idealize.ShloMosaic

/-- The printed device chain of slot `f`'s transfer. -/
def pdev : Fin 7 → Dev nD → Nat
  | 0 => k0_dev8 | 1 => k0_dev9 | 2 => k0_dev10 | 3 => k0_dev11 | 4 => k0_dev12 | 5 => k0_dev13 | 6 => k0_dev14

theorem pdev_lt : ∀ (f : Fin 7) (c : Dev nD), pdev f c < nD := by decide +kernel

/-- The device slot `f` of device `c` sends to (and receives from). -/
def peer (c : Dev nD) (f : Fin 7) : Dev nD := ⟨pdev f c, pdev_lt f c⟩

theorem peer_peer : ∀ (c : Dev nD) (f : Fin 7), peer (peer c f) f = c := by decide +kernel
theorem peer_ne : ∀ (c : Dev nD) (f : Fin 7), peer c f ≠ c := by decide +kernel
theorem peer_injective (c : Dev nD) : Function.Injective (peer c) := by revert c; decide +kernel
theorem others_eq_peers : ∀ c : Dev nD, Finset.univ.erase c = Finset.univ.map ⟨peer c, peer_injective c⟩ := by decide +kernel

/-- The printed device chain of the `k`-th handshake signal. -/
def bdevN : Fin 7 → Dev nD → Nat
  | 0 => k0_dev1 | 1 => k0_dev2 | 2 => k0_dev3 | 3 => k0_dev4 | 4 => k0_dev5 | 5 => k0_dev6 | 6 => k0_dev7

theorem bdevN_lt : ∀ (k : Fin 7) (c : Dev nD), bdevN k c < nD := by decide +kernel

/-- The device the `k`-th handshake signal of device `c` goes to. -/
def bdev (c : Dev nD) (k : Fin 7) : Dev nD := ⟨bdevN k c, bdevN_lt k c⟩

theorem bdev_ne : ∀ (c : Dev nD) (k : Fin 7), bdev c k ≠ c := by decide +kernel
theorem bdev_injective (c : Dev nD) : Function.Injective (bdev c) := by revert c; decide +kernel
theorem others_eq_bdevs : ∀ c : Dev nD, Finset.univ.erase c = Finset.univ.map ⟨bdev c, bdev_injective c⟩ := by decide +kernel

/-- The device whose `k`-th handshake signal reaches `c`. -/
def bsrc (c : Dev nD) (k : Fin 7) : Dev nD := ⟨(c.val + (7 - k.val)) % 8, Nat.mod_lt _ (by decide)⟩
theorem bdev_bsrc : ∀ (c : Dev nD) (k : Fin 7), bdev (bsrc c k) k = c := by decide +kernel
theorem bsrc_bdev : ∀ (c : Dev nD) (k : Fin 7), bsrc (bdev c k) k = c := by decide +kernel

/-- The column offset slot `f`'s staging copy reads device `c`'s rows at: the columns of `peer c f`. -/
theorem off1_eq : ∀ (c : Dev nD) (f : Fin 7),
    k0_off1 c (k0_off1_at f).1 (k0_off1_at f).2.1 (k0_off1_at f).2.2 = ![0, 512 * (peer c f).val] := by decide +kernel

end Cert.KernelIdeal.A2A
-- ==== Proof.KernelIdealA2A.Defs.lean ====
/-
  The exchange's data: the memrefs each device touches, what each holds at each stage, and the schedule of
  every semaphore.

  Device `c` holds rows block `c` of the input, `X c` (2048 × 4096). Its result (16384 × 512) is, row block by
  row block, the column block `c` of every device's rows, rounded: row block `s` is `pay (xcol s c)`.
  Row block `c` it writes itself; row block `s ≠ c` is written by device `s`, on the slot `f` with
  `peer s f = c`, after `c` has handed `s` that block of its result buffer with its entry signal.

  Every semaphore of a device is a cell with one round: the barrier semaphore has one unit duty per other device
  (its signal, carrying the signaller's result rows for the owner), every DMA semaphore one duty (its one copy).
-/
import proofs.«900616_g7700000000000617_dist_a2a_v7x_i8_i_m2048_n512_bf16_1_alg».proof.Proof.KernelIdealA2A.Dev
import proofs.«900616_g7700000000000617_dist_a2a_v7x_i8_i_m2048_n512_bf16_1_alg».proof.Proof.Gen.KernelIdeal.Skeleton
import proofs.«900616_g7700000000000617_dist_a2a_v7x_i8_i_m2048_n512_bf16_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs -/

abbrev xM : Memref sig .tc .hbm S2048x4096 .f32 := Memref.whole main_arg0
abbrev oM : Memref sig .tc .hbm S16384x512 .bf16 := Memref.whole main_v1
abbrev fM : Memref sig .tc .vmem S2048x3584 .f32 := Memref.whole cc0_scratch0
abbrev bM : Memref sig .tc .vmem S2048x3584 .bf16 := Memref.whole cc0_scratch1
abbrev ofM : Memref sig .tc .vmem S2048x512 .f32 := Memref.whole cc0_scratch2
abbrev obM : Memref sig .tc .vmem S2048x512 .bf16 := Memref.whole cc0_scratch3

/-- Slot `f`'s columns of the two staging buffers: `[512 f, 512 f + 512)`. -/
def colOff (f : Fin 7) : Fin 2 → Nat := ![0, 512 * f.val]
theorem colInb (f : Fin 7) : ∀ a, colOff f a + S2048x512.size a ≤ S2048x3584.size a := by revert f; decide
abbrev colR (f : Fin 7) : Rect S2048x3584 := Rect.unit (s := S2048x3584) (colOff f) S2048x512.size (colInb f)
def fS (f : Fin 7) : Memref sig .tc .vmem S2048x512 .f32 := fM.slice (colR f) (fun _ => rfl)
def bS (f : Fin 7) : Memref sig .tc .vmem S2048x512 .bf16 := bM.slice (colR f) (fun _ => rfl)

/-- The columns of the input rows that slot `f` of device `c` stages: those of `peer c f`. -/
def xS (c : Dev nD) (f : Fin 7) : Memref sig .tc .hbm S2048x512 .f32 :=
  xM.slice (Rect.unit (s := S2048x4096) (k0_off1 c (k0_off1_at f).1 (k0_off1_at f).2.1 (k0_off1_at f).2.2) S2048x512.size (k0_off1_inb c f)) (fun _ => rfl)
/-- Device `c`'s own columns of its input rows. -/
def xO (c : Dev nD) : Memref sig .tc .hbm S2048x512 .f32 :=
  xM.slice (Rect.unit (s := S2048x4096) (k0_off2 c) S2048x512.size (k0_off2_inb c)) (fun _ => rfl)
/-- Rows block `s` of a result buffer: where device `s`'s contribution lands, on whichever device. -/
def oS (s : Dev nD) : Memref sig .tc .hbm S2048x512 .bf16 :=
  oM.slice (Rect.unit (s := S16384x512) (k0_off3 s) S2048x512.size (k0_off3_inb s)) (fun _ => rfl)

/-! ## The semaphores -/

abbrev barS : Sem sig := (SemArray.scalar (sig.barrier 0 rfl) : Sems sig S_).sem
def stageS (f : Fin 8) : DmaSem sig := ⟨f.val, by have := f.isLt; show f.val < 23; omega⟩
def sendS (f : Fin 7) : DmaSem sig := ⟨8 + f.val, by have := f.isLt; show 8 + f.val < 23; omega⟩
def recvS (f : Fin 7) : DmaSem sig := ⟨15 + f.val, by have := f.isLt; show 15 + f.val < 23; omega⟩
def outS : DmaSem sig := ⟨22, by decide⟩

abbrev cell (c : Dev nD) (sm : SemLoc sig) : GSem nD τ sig := ((c : Thread nD τ), sm)
abbrev barCell (c : Dev nD) : GSem nD τ sig := cell c (.reg barS)
abbrev stageCell (c : Dev nD) (f : Fin 8) : GSem nD τ sig := cell c (.dma (stageS f))
abbrev sendCell (c : Dev nD) (f : Fin 7) : GSem nD τ sig := cell c (.dma (sendS f))
abbrev recvCell (c : Dev nD) (f : Fin 7) : GSem nD τ sig := cell c (.dma (recvS f))
abbrev outCell (c : Dev nD) : GSem nD τ sig := cell c (.dma outS)

/-- What a copy of one 2048 × 512 block credits: of f32 words into a staging buffer, of bf16 words into a result buffer. -/
abbrev N32 : ℕ := (fS 0).view.dmaCredit
abbrev N16 : ℕ := (oS 0).view.dmaCredit
theorem N32_pos : 0 < N32 := View.dmaCredit_pos _ (by decide)
theorem N16_pos : 0 < N16 := View.dmaCredit_pos _ (by decide)

/-! ## Contents -/

/-- Device `c`'s rows of the input, as launched. -/
abbrev X (c : Dev nD) : Buf (Elt F) ((c : Thread nD τ).loc main_arg0) := m ((c : Thread nD τ).loc main_arg0)

/-- The columns of device `c'` of an input block. -/
def xcolM (c' : Dev nD) : Memref sig .tc .hbm S2048x512 .f32 :=
  xM.slice (Rect.unit (s := S2048x4096) ![0, 512 * c'.val] S2048x512.size (by revert c'; decide)) (fun _ => rfl)
/-- Columns block `c'` of device `s`'s rows. -/
def xcol (s c' : Dev nD) : Vec F S2048x512 .f32 := (xcolM c').view.read (Elt F) (X m s)

/-- The body's arithmetic on one block: rounded to bf16. -/
abbrev pay (v : Vec F S2048x512 .f32) : FVec F S2048x512 .bf16 := k0_pay1 v

/-- Device `c`'s result as it ends: rows block `s` holds columns block `c` of device `s`'s rows, rounded. -/
def outFn (c : Dev nD) : Buf (Elt F) ((c : Thread nD τ).loc main_v1) :=
  (List.finRange 8).foldl (fun g (s : Fin 8) => (oS s).view.write (Elt F) g (pay (xcol m s c)) Finset.univ) (m ((c : Thread nD τ).loc main_v1))

/-- The input rows and the final result restated at the type of each view they are held through (one buffer each;
    the views' buffer types agree by computation only). -/
def Xs (c : Dev nD) (f : Fin 7) : Buf (Elt F) ((xS c f).view.loc (c : Thread nD τ)) := X m c
def Xo (c : Dev nD) : Buf (Elt F) ((xO c).view.loc (c : Thread nD τ)) := X m c
def outAt (c s : Dev nD) : Buf (Elt F) ((oS s).view.loc (c : Thread nD τ)) := outFn m c

/-- The read token of the input rows that copy `i` of a device reads through. -/
abbrev tok (i : Fin 8) : PosShare TreeShare := Transfers.shareTok fullShare 8 i

/-! ## Payloads -/

/-- Device `p`'s entry signal to `c` hands over rows block `c` of `p`'s result buffer, at whatever it holds: where `c` will write. -/
def barPay (c p : Dev nD) : sProp 𝕄 :=
  iprop(∃ g : Buf (Elt F) ((oS c).view.loc (p : Thread nD τ)), (oS c).view.loc (p : Thread nD τ) ↦[(oS c).view.set]{fullShare} g)

/-- Slot `f`'s staging copy landed: the staging columns hold the peer's columns of the rows; the read token back. -/
def stagePay (c : Dev nD) (f : Fin 7) : sProp 𝕄 :=
  iprop((∃ g : Buf (Elt F) ((fS f).view.loc (c : Thread nD τ)), ⌜(fS f).view.read (Elt F) g = xcol m c (peer c f)⌝ ∗ ((fS f).view.loc (c : Thread nD τ) ↦[(fS f).view.set]{fullShare} g))
    ∗ ((xS c f).view.loc (c : Thread nD τ) ↦[(xS c f).view.set]{tok f.castSucc} Xs m c f))
/-- The own columns staged. -/
def ownStagePay (c : Dev nD) : sProp 𝕄 :=
  iprop((∃ g : Buf (Elt F) (ofM.view.loc (c : Thread nD τ)), ⌜ofM.view.read (Elt F) g = xcol m c c⌝ ∗ (ofM.view.loc (c : Thread nD τ) ↦[ofM.view.set]{fullShare} g))
    ∗ ((xO c).view.loc (c : Thread nD τ) ↦[(xO c).view.set]{tok (Fin.last 7)} Xo m c))
/-- Slot `f`'s transfer read out of its source: the rounded columns' buffer back. -/
def sendPay (c : Dev nD) (f : Fin 7) : sProp 𝕄 :=
  iprop(∃ g : Buf (Elt F) ((bS f).view.loc (c : Thread nD τ)), (bS f).view.loc (c : Thread nD τ) ↦[(bS f).view.set]{fullShare} g)
/-- Slot `f`'s transfer landed on `c`: rows block `peer c f` of `c`'s result at its final contents. -/
def recvPay (c : Dev nD) (f : Fin 7) : sProp 𝕄 :=
  (oS (peer c f)).view.loc (c : Thread nD τ) ↦[(oS (peer c f)).view.set]{fullShare} outAt m c (peer c f)
/-- The own copy landed: rows block `c` at its final contents, and the rounded own columns' buffer back. -/
def outPay (c : Dev nD) : sProp 𝕄 :=
  iprop(((oS c).view.loc (c : Thread nD τ) ↦[(oS c).view.set]{fullShare} outAt m c c)
    ∗ ∃ g : Buf (Elt F) (obM.view.loc (c : Thread nD τ)), obM.view.loc (c : Thread nD τ) ↦[obM.view.set]{fullShare} g)

def dmaPay (c : Dev nD) (j : DmaSem sig) : sProp 𝕄 :=
  if h : j.val < 7 then stagePay m c ⟨j.val, h⟩
  else if j.val = 7 then ownStagePay m c
  else if h : j.val - 8 < 7 ∧ j.val < 15 then sendPay c ⟨j.val - 8, h.1⟩
  else if h : j.val - 15 < 7 ∧ j.val < 22 then recvPay m c ⟨j.val - 15, h.1⟩
  else outPay m c

/-! ## The schedule -/

/-- One round, round 0. A barrier cell: one unit duty per OTHER device, named by it. A DMA cell: one duty, named 0. -/
def Rd : Rounds.Schedule (GSem nD τ sig) (Dev nD) 𝕄 where
  duties g r := if r = 0 ∧ g.1.2 = .tc then (match g.2 with | .reg _ => Finset.univ.erase g.1.1 | .dma _ => {0}) else ∅
  unitless _ := False
  amount g _ _ := match g.2 with | .reg _ => 1 | .dma j => if j.val < 8 then N32 else N16
  payload g _ d := match g.2 with | .reg _ => barPay g.1.1 d | .dma j => dmaPay m g.1.1 j
  amount_pos g _ _ _ := by
    rcases g with ⟨t, sm⟩
    cases sm with
    | reg _ => exact Nat.one_pos
    | dma j => dsimp only; split; exact N32_pos; exact N16_pos

instance Rd_payload_storable (g : GSem nD τ sig) (r : ℕ) (d : Dev nD) :
    BI.Storable (upEmb : UEmb _ 𝕄) ((Rd (F := F) m).payload g r d) := by
  rcases g with ⟨t, sm⟩
  cases sm with
  | reg _ => show BI.Storable upEmb (barPay t.1 d); unfold barPay; infer_instance
  | dma j =>
    show BI.Storable upEmb (dmaPay m t.1 j)
    unfold dmaPay stagePay ownStagePay sendPay recvPay outPay
    (repeat' split) <;> infer_instance

end Cert.KernelIdeal.A2A

end
-- ==== Proof.KernelIdealA2A.Tables.lean ====
/-
  The schedule's tables, cell by cell; what each device owes at launch and the levels that order the waits;
  the ghost state a device starts from and the pipeline's proof data.
-/
import proofs.«900616_g7700000000000617_dist_a2a_v7x_i8_i_m2048_n512_bf16_1_alg».proof.Proof.KernelIdealA2A.Defs

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Tables -/

section Tables
variable (c : Dev nD)

theorem duties_bar : (Rd (F := F) m).duties (barCell c) 0 = Finset.univ.erase c := by
  dsimp only [Rd]; rw [if_pos ⟨rfl, rfl⟩]
theorem duties_dma (j : DmaSem sig) : (Rd (F := F) m).duties (cell c (.dma j)) 0 = {0} := by
  dsimp only [Rd]; rw [if_pos ⟨rfl, rfl⟩]
theorem duties_later (g : GSem nD τ sig) : ∀ r, 1 ≤ r → (Rd (F := F) m).duties g r = ∅ :=
  fun r hr => by dsimp only [Rd]; rw [if_neg fun h => by omega]

theorem amount_bar (d : Dev nD) : (Rd (F := F) m).amount (barCell c) 0 d = 1 := rfl
theorem amount_stage (f : Fin 8) (d : Dev nD) : (Rd (F := F) m).amount (stageCell c f) 0 d = N32 := by
  dsimp only [Rd]; exact if_pos f.isLt
theorem amount_send (f : Fin 7) (d : Dev nD) : (Rd (F := F) m).amount (sendCell c f) 0 d = N16 := by
  dsimp only [Rd]; exact if_neg (by show ¬ (8 + f.val < 8); omega)
theorem amount_recv (f : Fin 7) (d : Dev nD) : (Rd (F := F) m).amount (recvCell c f) 0 d = N16 := by
  dsimp only [Rd]; exact if_neg (by show ¬ (15 + f.val < 8); omega)
theorem amount_out (d : Dev nD) : (Rd (F := F) m).amount (outCell c) 0 d = N16 := by
  dsimp only [Rd]; exact if_neg (by decide)

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
theorem expect_dma (j : DmaSem sig) : (Rd (F := F) m).expect (cell c (.dma j)) 0 = (Rd (F := F) m).amount (cell c (.dma j)) 0 0 := by
  unfold Schedule.expect Schedule.amountOf; rw [duties_dma, Finset.sum_singleton]

end Tables

/-! ## Payload tables -/

section Payloads
variable (c : Dev nD)

theorem payload_bar (p : Dev nD) : (Rd (F := F) m).payload (barCell c) 0 p = barPay c p := rfl

theorem payload_stage (f : Fin 7) (d : Dev nD) : (Rd (F := F) m).payload (stageCell c f.castSucc) 0 d = stagePay m c f := by
  show dmaPay m c (stageS f.castSucc) = _
  unfold dmaPay
  rw [dif_pos (show (stageS f.castSucc).val < 7 from f.isLt)]
  rfl

theorem payload_ownstage (d : Dev nD) : (Rd (F := F) m).payload (stageCell c (Fin.last 7)) 0 d = ownStagePay m c := by
  show dmaPay m c (stageS (Fin.last 7)) = _
  unfold dmaPay
  rw [dif_neg (show ¬ (stageS (Fin.last 7)).val < 7 by decide), if_pos (show (stageS (Fin.last 7)).val = 7 by decide)]

theorem payload_send (f : Fin 7) (d : Dev nD) : (Rd (F := F) m).payload (sendCell c f) 0 d = sendPay c f := by
  show dmaPay m c (sendS f) = _
  unfold dmaPay
  have h1 : ¬ (sendS f).val < 7 := by show ¬ (8 + f.val < 7); omega
  have h2 : ¬ (sendS f).val = 7 := by show ¬ (8 + f.val = 7); omega
  have h3 : (sendS f).val - 8 < 7 ∧ (sendS f).val < 15 := by show 8 + f.val - 8 < 7 ∧ 8 + f.val < 15; have := f.isLt; omega
  rw [dif_neg h1, if_neg h2, dif_pos h3]
  exact congrArg (sendPay c) (Fin.ext (by show 8 + f.val - 8 = f.val; omega))

theorem payload_recv (f : Fin 7) (d : Dev nD) : (Rd (F := F) m).payload (recvCell c f) 0 d = recvPay m c f := by
  show dmaPay m c (recvS f) = _
  unfold dmaPay
  have h1 : ¬ (recvS f).val < 7 := by show ¬ (15 + f.val < 7); omega
  have h2 : ¬ (recvS f).val = 7 := by show ¬ (15 + f.val = 7); omega
  have h3 : ¬ ((recvS f).val - 8 < 7 ∧ (recvS f).val < 15) := by show ¬ (15 + f.val - 8 < 7 ∧ 15 + f.val < 15); omega
  have h4 : (recvS f).val - 15 < 7 ∧ (recvS f).val < 22 := by show 15 + f.val - 15 < 7 ∧ 15 + f.val < 22; have := f.isLt; omega
  rw [dif_neg h1, if_neg h2, dif_neg h3, dif_pos h4]
  exact congrArg (recvPay m c) (Fin.ext (by show 15 + f.val - 15 = f.val; omega))

theorem payload_out (d : Dev nD) : (Rd (F := F) m).payload (outCell c) 0 d = outPay m c := by
  show dmaPay m c outS = _
  unfold dmaPay
  rw [dif_neg (show ¬ (outS : DmaSem sig).val < 7 by decide), if_neg (show ¬ (outS : DmaSem sig).val = 7 by decide),
    dif_neg (show ¬ ((outS : DmaSem sig).val - 8 < 7 ∧ (outS : DmaSem sig).val < 15) by decide),
    dif_neg (show ¬ ((outS : DmaSem sig).val - 15 < 7 ∧ (outS : DmaSem sig).val < 22) by decide)]

/-- The rest of a DMA cell's round, nothing taken: its one duty's payload. -/
theorem rest_dma (j : DmaSem sig) :
    bigSep ((Rd (F := F) m).duties (cell c (.dma j)) 0 \ ∅) (fun d => (Rd (F := F) m).payload (cell c (.dma j)) 0 d)
      = (Rd (F := F) m).payload (cell c (.dma j)) 0 0 := by
  rw [Finset.sdiff_empty, duties_dma, bigSep_singleton]

/-- The rest of the barrier cell's round, nothing taken: every other device's rows block `c`, listed by slot. -/
theorem rest_bar :
    bigSep ((Rd (F := F) m).duties (barCell c) 0 \ ∅) (fun d => (Rd (F := F) m).payload (barCell c) 0 d)
      = bigSep Finset.univ (fun f : Fin 7 => (barPay c (peer c f) : sProp 𝕄)) := by
  rw [Finset.sdiff_empty, duties_bar, others_eq_peers, bigSep_map]
  rfl

end Payloads

/-! ## What each device owes at launch; the levels -/

/-- The slot paid `n`-th from last. -/
def slotN (n : ℕ) : Fin 7 := ⟨(6 - n) % 7, Nat.mod_lt _ (by decide)⟩

/-- The receive credit device `c` still owes when `n` of its seven transfers are to come: summed so that
    each transfer peels the last summand. -/
def OR (c : Dev nD) : ℕ → CellTallies nD τ sig Unit
  | 0 => 0
  | n + 1 => OR c n + tallyAt (recvCell (peer c (slotN n)) (slotN n)) () N16
/-- The same with `n` entry signals to come. -/
def OB (c : Dev nD) : ℕ → CellTallies nD τ sig Unit
  | 0 => OR c 7
  | n + 1 => OB c n + tallyAt (barCell (bdev c (slotN n))) () 1
def O₀ (c : Dev nD) : CellTallies nD τ sig Unit := OB c 7

def L (g : GSem nD τ sig) : Finset Unit := if g.1.2 = .tc then {()} else ∅
/-- barrier cells at 1, receive cells at 2, every other cell (staging, send, own copy) at 0. -/
def lv (g : GSem nD τ sig) (_ : Unit) : ℕ := match g.2 with | .reg _ => 1 | .dma j => if 15 ≤ j.val ∧ j.val < 22 then 2 else 0

theorem L_of_ne (g : GSem nD τ sig) (h : g.1.2 ≠ .tc) : L g = ∅ := if_neg h
theorem L_tc (c : Dev nD) (sm : SemLoc sig) : L ((c : Thread nD τ), sm) = {()} := if_pos rfl

/-- A cell owed receive credit is a TensorCore's receive cell. -/
abbrev IsRecv (g : GSem nD τ sig) : Prop := g.1.2 = .tc ∧ ∃ f : Fin 7, g.2 = .dma (recvS f)
abbrev IsBarOrRecv (g : GSem nD τ sig) : Prop := g.1.2 = .tc ∧ (g.2 = .reg barS ∨ ∃ f : Fin 7, g.2 = .dma (recvS f))

theorem OR_pos {c : Dev nD} {n : ℕ} {g : GSem nD τ sig} {u : Unit} (h : 0 < OR c n g u) : IsRecv g := by
  induction n with
  | zero => exact absurd h (Nat.lt_irrefl 0)
  | succ n ih =>
    rw [OR, Pi.add_apply, Finsupp.add_apply, tallyAt_apply] at h
    by_cases hg : g = recvCell (peer c (slotN n)) (slotN n) ∧ u = ()
    · rw [hg.1]; exact ⟨rfl, _, rfl⟩
    · rw [if_neg hg, Nat.add_zero] at h; exact ih h

theorem OB_pos {c : Dev nD} {n : ℕ} {g : GSem nD τ sig} {u : Unit} (h : 0 < OB c n g u) : IsBarOrRecv g := by
  induction n with
  | zero => obtain ⟨h1, f, h2⟩ := OR_pos (c := c) (n := 7) h; exact ⟨h1, .inr ⟨f, h2⟩⟩
  | succ n ih =>
    rw [OB, Pi.add_apply, Finsupp.add_apply, tallyAt_apply] at h
    by_cases hg : g = barCell (bdev c (slotN n)) ∧ u = ()
    · rw [hg.1]; exact ⟨rfl, .inl rfl⟩
    · rw [if_neg hg, Nat.add_zero] at h; exact ih h

theorem lv_bar (t : Thread nD τ) (u : Unit) : lv (t, .reg barS) u = 1 := rfl
theorem lv_recv (t : Thread nD τ) (f : Fin 7) (u : Unit) : lv (t, .dma (recvS f)) u = 2 := by
  dsimp only [lv]; exact if_pos (by show 15 ≤ 15 + f.val ∧ 15 + f.val < 22; have := f.isLt; omega)

/-- A wait on a staging, send or own-copy cell is below everything a device can owe. -/
theorem mayWait_low (c : Dev nD) (q : DmaSem sig) (hq : ¬ (15 ≤ q.val ∧ q.val < 22)) (O : CellTallies nD τ sig Unit)
    (hO : ∀ g u, 0 < O g u → IsBarOrRecv g) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; dsimp only [lv]; rw [if_neg hq])
    (fun g u hg => by
      obtain ⟨t, sm⟩ := g
      obtain ⟨-, h | ⟨f, h⟩⟩ := hO _ u hg
      · dsimp only at h; subst h; rw [lv_bar]; decide
      · dsimp only at h; subst h; rw [lv_recv]; decide)

/-- The barrier wait is below the receive credit. -/
theorem mayWait_bar (c : Dev nD) (O : CellTallies nD τ sig Unit) (hO : ∀ g u, 0 < O g u → IsRecv g) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => by
      obtain ⟨t, sm⟩ := g
      obtain ⟨-, f, h⟩ := hO _ u hg
      dsimp only at h; subst h; rw [lv_recv]; decide)

/-! ## The ghost state and the proof data -/

/-- Every cell's invariant, under the names the launch allocated them at, and that every cell is at round 0. -/
def records (K : Dev nD × SemLoc sig → ℕ) : sProp 𝕄 :=
  iprop((bigSep Finset.univ fun ck : Dev nD × SemLoc sig => cellInv ER (Rd m) (K ck) (cell ck.1 ck.2))
    ∗ bigSep Finset.univ fun ck : Dev nD × SemLoc sig => reached ER (cell ck.1 ck.2) 0)

instance records_persistent (K : Dev nD × SemLoc sig → ℕ) : BI.Persistent (records m K) := by unfold records; infer_instance

/-- The tokens of the duties device `c` pays on its own cells: its eight staging copies, the departures of its seven
    transfers, its own copy. -/
def ownToks (c : Dev nD) : sProp 𝕄 :=
  iprop((bigSep Finset.univ fun f : Fin 8 => dutyTok ER (stageCell c f) 0 0) ∗ (bigSep Finset.univ fun f : Fin 7 => dutyTok ER (sendCell c f) 0 0)
    ∗ dutyTok ER (outCell c) 0 0)
/-- The tokens of every duty device `c` pays: its duty on each other device's barrier cell, the arrival of each of
    its transfers, and the duties on its own cells. -/
def payToks (c : Dev nD) : sProp 𝕄 :=
  iprop((bigSep Finset.univ fun k : Fin 7 => dutyTok ER (barCell (bdev c k)) 0 c)
    ∗ (bigSep Finset.univ fun f : Fin 7 => dutyTok ER (recvCell (peer c f) f) 0 0) ∗ ownToks c)
/-- What stays with device `c`: its position in each of its cells, and its tokens. -/
def linear (c : Dev nD) : sProp 𝕄 :=
  iprop((bigSep Finset.univ fun sm : SemLoc sig => atPos ER (cell c sm) 0 ∅ 0) ∗ payToks c)
def ghost (K : Dev nD × SemLoc sig → ℕ) (c : Dev nD) : sProp 𝕄 := iprop(records m K ∗ linear c)

/-- What device `c`'s body starts from besides its buffers: the ghost state at some names, the credit its barrier
    cell and its seven receive cells are owed, and the level facts. -/
def start (c : Dev nD) : sProp 𝕄 :=
  iprop((∃ K, ghost m K c) ∗ cred (tallyAt (barCell c) () 7) ∗ (bigSep Finset.univ fun f : Fin 7 => cred (tallyAt (recvCell c f) () N16)) ∗ levAts L lv)

/-- The four scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 :=
  iprop(start m c ∗ (((c : Thread nD τ).loc main_arg0) ↦{fullShare} X m c) ∗ (((c : Thread nD τ).loc main_v1) ↦{fullShare} m ((c : Thread nD τ).loc main_v1)) ∗ scr c)
/-- After the body: the input rows as launched, the result at its final contents, the scratch buffers back, every DMA
    semaphore of the device at zero, closed (the barrier semaphore is the runtime's: nothing to hand back). -/
def Φ₁ (c : Dev nD) : sProp 𝕄 :=
  iprop((((c : Thread nD τ).loc main_arg0) ↦{fullShare} X m c) ∗ (((c : Thread nD τ).loc main_v1) ↦{fullShare} outFn m c) ∗ scr c
    ∗ bigSep Finset.univ fun j : DmaSem sig => semVal (cell c (.dma j)) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.A2A

end
-- ==== Proof.KernelIdealA2A.Geom.lean ====
/-
  How each buffer of a device is held by parts, and what the parts hold.

  The input rows are read by eight copies in flight at once, each through its own read share of the whole
  buffer, out of which the copy's column block is carved. The result buffer is held by its eight row blocks,
  the two staging buffers by their seven column blocks: the blocks are pairwise disjoint (separated on one
  axis) and cover the buffer, so a points-to of the buffer is the separating conjunction of the blocks'.
  The final result is a fold of eight writes, one per row block; on a row block only that block's write counts.
-/
import proofs.«900616_g7700000000000617_dist_a2a_v7x_i8_i_m2048_n512_bf16_1_alg».proof.Proof.KernelIdealA2A.Tables
import Idealize.ShloMosaic.Rules.PointsTo
import Idealize.ShloMosaic.Lib.Transfers
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Reading through slices of one memref at equal offsets -/

/-- Slices of one memref at equal offsets read the same. -/
theorem slice_read_congr {sg : RefSig} {κ : Kind} {sp : Space} {S : Shape} {e : EltTy} {Val : EltTy → Type}
    (M : Memref sg κ sp S e) {off off' size : Fin S.rank → Nat} (h : off = off')
    (p : ∀ a, off a + size a ≤ S.size a) (p' : ∀ a, off' a + size a ≤ S.size a) (hs hs')
    (g : M.view.ty.Contents Val) :
    (M.slice (Rect.unit off size p) hs).view.read Val g = (M.slice (Rect.unit off' size p') hs').view.read Val g := by
  subst h; rfl

/-- Slot `f` of device `c` stages the columns of `peer c f`. -/
theorem xS_read (c : Dev nD) (f : Fin 7) : (xS c f).view.read (Elt F) (Xs m c f) = xcol m c (peer c f) :=
  slice_read_congr xM (off1_eq c f) _ _ (fun _ => rfl) (fun _ => rfl) (X m c)

/-- The own copy stages the device's own columns. -/
theorem xO_read (c : Dev nD) : (xO c).view.read (Elt F) (Xo m c) = xcol m c c :=
  slice_read_congr xM (Gen.k0_off2_eq c) _ _ (fun _ => rfl) (fun _ => rfl) (X m c)

/-! ## A fold of writes through pairwise disjoint rectangles of one view -/

section Fold
variable {sg : RefSig} {κ : Kind} {sp : Space} {S : Shape} {e : EltTy} {Val : EltTy → Type}
variable (V : View sg κ sp S e) {T : Type} (r : T → Rect S) (w : (t : T) → (r t).shape.Idx → Val e)

/-- An element under none of the rectangles written keeps its value. -/
theorem foldl_write_of_not_mem (l : List T) (g : V.ty.Contents Val) {i : V.ty.Idx}
    (h : ∀ t ∈ l, i ∉ (V.slice (r t)).set) :
    l.foldl (fun (g : V.ty.Contents Val) (t : T) => ((V.slice (r t)).write Val g (w t) Finset.univ : V.ty.Contents Val)) g i = g i := by
  induction l generalizing g with
  | nil => rfl
  | cons t l ih =>
    rw [List.foldl_cons, ih _ (fun t' ht' => h t' (List.mem_cons_of_mem _ ht'))]
    exact View.write_of_not_mem _ _ _ (by rw [View.setOn_univ]; exact h t List.mem_cons_self)

/-- An element under rectangle `s`, written once, holds `s`'s payload there: the later writes are elsewhere. -/
theorem foldl_write_emb (hd : ∀ t t', t ≠ t' → Disjoint (V.slice (r t)).set (V.slice (r t')).set)
    (l : List T) (hl : l.Nodup) (g : V.ty.Contents Val) (s : T) (hs : s ∈ l) (y : (r s).shape.Idx) :
    l.foldl (fun (g : V.ty.Contents Val) (t : T) => ((V.slice (r t)).write Val g (w t) Finset.univ : V.ty.Contents Val)) g
        ((V.slice (r s)).emb y)
      = _root_.cast (congrArg Val (V.slice (r s)).elt_eq.symm) (w s y) := by
  induction l generalizing g with
  | nil => exact absurd hs List.not_mem_nil
  | cons t l ih =>
    rw [List.foldl_cons]
    by_cases hts : t = s
    · subst hts
      have hnot : t ∉ l := (List.nodup_cons.mp hl).1
      have hoff : ∀ t' ∈ l, (V.slice (r t)).emb y ∉ (V.slice (r t')).set := fun t' ht' hmem =>
        Finset.disjoint_left.mp (hd t t' fun e => hnot (e ▸ ht')) ((V.slice (r t)).emb_mem_set y) hmem
      rw [foldl_write_of_not_mem V r w l _ hoff]
      exact View.write_emb_of_mem _ _ (Finset.mem_univ y)
    · exact ih (List.nodup_cons.mp hl).2 _ ((List.mem_cons.mp hs).resolve_left fun e => hts e.symm)

end Fold

/-! ## A buffer held by a pairwise disjoint family of parts that covers it -/

section Family
variable {ℓ : Loc nD τ sig} {T : Type} [Fintype T] [DecidableEq T] (K : T → Finset (Idx ℓ))

/-- At one contents, the whole buffer is the separating conjunction of the parts. -/
theorem pointsTo_family_eq (hd : ∀ t t', t ≠ t' → Disjoint (K t) (K t')) (hc : Finset.univ.biUnion K = Finset.univ)
    (q : PosShare TreeShare) (g : Buf (Elt F) ℓ) :
    ((ℓ ↦{q} g) : sProp 𝕄) = bigSep Finset.univ fun t => ℓ ↦[K t]{q} g := by
  rw [← pointsTo_biUnion Finset.univ K (fun t _ t' _ h => hd t t' h), hc]

/-- The whole buffer gives every part, at some contents. -/
theorem pointsTo_split_family (hd : ∀ t t', t ≠ t' → Disjoint (K t) (K t')) (hc : Finset.univ.biUnion K = Finset.univ)
    (q : PosShare TreeShare) (g : Buf (Elt F) ℓ) :
    ((ℓ ↦{q} g) : sProp 𝕄) ⊢ bigSep Finset.univ fun t => iprop(∃ g' : Buf (Elt F) ℓ, ℓ ↦[K t]{q} g') := by
  rw [pointsTo_family_eq K hd hc q g]
  exact bigSep_mono fun t _ => exists_intro (Φ := fun g' : Buf (Elt F) ℓ => (ℓ ↦[K t]{q} g' : sProp 𝕄)) g

/-- The parts, each at some contents, give the whole buffer at some contents. -/
theorem pointsTo_join_family (hd : ∀ t t', t ≠ t' → Disjoint (K t) (K t')) (hc : Finset.univ.biUnion K = Finset.univ)
    (q : PosShare TreeShare) :
    (bigSep Finset.univ fun t => iprop(∃ g' : Buf (Elt F) ℓ, ℓ ↦[K t]{q} g') : sProp 𝕄)
      ⊢ iprop(∃ g : Buf (Elt F) ℓ, ℓ ↦{q} g) := by
  refine (bigSep_exists_pi Finset.univ (fun t (g' : Buf (Elt F) ℓ) => (ℓ ↦[K t]{q} g' : sProp 𝕄))).trans ?_
  refine exists_elim fun y => ?_
  refine (pointsTo_biUnion_join Finset.univ K y (Classical.choice inferInstance) fun t _ t' _ h => hd t t' h).trans ?_
  rw [hc]
  iintro ⟨%g, %hg, H⟩
  iexists g
  iexact H

end Family

/-! ## The result buffer by its eight row blocks -/

/-- Rows block `s` of the result. -/
abbrev oR (s : Dev nD) : Rect S16384x512 := Rect.unit (s := S16384x512) (k0_off3 s) S2048x512.size (k0_off3_inb s)

theorem oS_set (s : Dev nD) : (oS s).view.set = (oR s).set := View.set_slice_whole main_v1 (oR s)

theorem oS_disjoint (s s' : Dev nD) (h : s ≠ s') : Disjoint (oS s).view.set (oS s').view.set := by
  rw [oS_set, oS_set]
  refine Rect.unit_disjoint 0 ?_
  rw [Gen.k0_off3_eq, Gen.k0_off3_eq]
  have : s.val ≠ s'.val := fun e => h (Fin.ext e)
  show 2048 * s.val + 2048 ≤ 2048 * s'.val ∨ 2048 * s'.val + 2048 ≤ 2048 * s.val
  omega

/-- A landed block is the final result on its rows, whatever the buffer held before. -/
theorem out_landed (c s : Dev nD) (fd : Buf (Elt F) ((oS s).view.loc (c : Thread nD τ))) :
    (((oS s).view.loc (c : Thread nD τ) ↦[(oS s).view.set]{fullShare} (oS s).view.write (Elt F) fd (pay (xcol m s c)) Finset.univ) : sProp 𝕄)
      ⊢ ((oS s).view.loc (c : Thread nD τ) ↦[(oS s).view.set]{fullShare} outAt m c s) := by
  refine Entails.of_eq (pointsTo_congr fun i hi => ?_)
  obtain ⟨y, rfl⟩ := View.exists_emb_of_mem_set (oS s).view hi
  rw [View.write_emb_of_mem _ _ (Finset.mem_univ y)]
  exact (foldl_write_emb (Val := Elt F) oM.view oR (fun s => pay (xcol m s c)) oS_disjoint (List.finRange 8) (List.nodup_finRange 8)
    (m ((c : Thread nD τ).loc main_v1)) s (List.mem_finRange s) y).symm

theorem oR_cover (i : S16384x512.Idx) : ∃ s : Dev nD, i ∈ (oR s).set := by
  have h0 : (i 0 : ℕ) < 16384 := (i 0).isLt
  have h1 : (i 1 : ℕ) < 512 := (i 1).isLt
  refine ⟨⟨(i 0 : ℕ) / 2048, by show (i 0 : ℕ) / 2048 < 8; omega⟩, ?_⟩
  rw [Rect.mem_set_unit, Gen.k0_off3_eq]
  refine Fin.forall_fin_two.mpr ⟨?_, ?_⟩
  · show 2048 * ((i 0 : ℕ) / 2048) ≤ i 0 ∧ (i 0 : ℕ) < 2048 * ((i 0 : ℕ) / 2048) + 2048
    omega
  · show 0 ≤ (i 1 : ℕ) ∧ (i 1 : ℕ) < 0 + 512
    omega

/-- The elements of rows block `s`, among those of device `c`'s result buffer. -/
abbrev oK (c s : Dev nD) : Finset (Idx ((c : Thread nD τ).loc main_v1)) := (oS s).view.set

theorem oS_cover (c : Dev nD) : (Finset.univ : Finset (Dev nD)).biUnion (oK c) = Finset.univ := by
  ext i
  simp only [Finset.mem_biUnion, Finset.mem_univ, true_and, iff_true]
  obtain ⟨s, hs⟩ := oR_cover i
  exact ⟨s, by show i ∈ (oS s).view.set; rw [oS_set]; exact hs⟩

/-- The result buffer gives its eight row blocks. -/
theorem out_split (c : Dev nD) (g : Buf (Elt F) ((c : Thread nD τ).loc main_v1)) :
    ((((c : Thread nD τ).loc main_v1) ↦{fullShare} g) : sProp 𝕄)
      ⊢ bigSep Finset.univ fun s : Dev nD => iprop(∃ g' : Buf (Elt F) ((oS s).view.loc (c : Thread nD τ)), (oS s).view.loc (c : Thread nD τ) ↦[(oS s).view.set]{fullShare} g') :=
  pointsTo_split_family (ℓ := (c : Thread nD τ).loc main_v1) (oK c) oS_disjoint (oS_cover c) fullShare g

/-- The eight row blocks at the final result give the result buffer at it. -/
theorem out_join (c : Dev nD) :
    (bigSep Finset.univ fun s : Dev nD => ((oS s).view.loc (c : Thread nD τ) ↦[(oS s).view.set]{fullShare} outAt m c s : sProp 𝕄))
      ⊢ ((((c : Thread nD τ).loc main_v1) ↦{fullShare} outFn m c) : sProp 𝕄) :=
  Entails.of_eq (pointsTo_family_eq (ℓ := (c : Thread nD τ).loc main_v1) (oK c) oS_disjoint (oS_cover c) fullShare (outFn m c)).symm

/-! ## The staging buffers by their seven column blocks -/

theorem colR_disjoint (f f' : Fin 7) (h : f ≠ f') : Disjoint (colR f).set (colR f').set := by
  refine Rect.unit_disjoint 1 ?_
  have : f.val ≠ f'.val := fun e => h (Fin.ext e)
  show 512 * f.val + 512 ≤ 512 * f'.val ∨ 512 * f'.val + 512 ≤ 512 * f.val
  omega

theorem colR_cover (i : S2048x3584.Idx) : ∃ f : Fin 7, i ∈ (colR f).set := by
  have h0 : (i 0 : ℕ) < 2048 := (i 0).isLt
  have h1 : (i 1 : ℕ) < 3584 := (i 1).isLt
  refine ⟨⟨(i 1 : ℕ) / 512, by omega⟩, ?_⟩
  rw [Rect.mem_set_unit]
  refine Fin.forall_fin_two.mpr ⟨?_, ?_⟩
  · show 0 ≤ (i 0 : ℕ) ∧ (i 0 : ℕ) < 0 + 2048
    omega
  · show 512 * ((i 1 : ℕ) / 512) ≤ i 1 ∧ (i 1 : ℕ) < 512 * ((i 1 : ℕ) / 512) + 512
    omega

theorem fS_set (f : Fin 7) : (fS f).view.set = (colR f).set := View.set_slice_whole cc0_scratch0 (colR f)
theorem bS_set (f : Fin 7) : (bS f).view.set = (colR f).set := View.set_slice_whole cc0_scratch1 (colR f)

theorem fS_disjoint (f f' : Fin 7) (h : f ≠ f') : Disjoint (fS f).view.set (fS f').view.set := by
  rw [fS_set, fS_set]; exact colR_disjoint f f' h
theorem bS_disjoint (f f' : Fin 7) (h : f ≠ f') : Disjoint (bS f).view.set (bS f').view.set := by
  rw [bS_set, bS_set]; exact colR_disjoint f f' h

/-- The elements of column block `f`, among those of device `c`'s staging buffers. -/
abbrev fK (c : Dev nD) (f : Fin 7) : Finset (Idx ((c : Thread nD τ).loc cc0_scratch0)) := (fS f).view.set
abbrev bK (c : Dev nD) (f : Fin 7) : Finset (Idx ((c : Thread nD τ).loc cc0_scratch1)) := (bS f).view.set

theorem fS_cover (c : Dev nD) : (Finset.univ : Finset (Fin 7)).biUnion (fK c) = Finset.univ := by
  ext i
  simp only [Finset.mem_biUnion, Finset.mem_univ, true_and, iff_true]
  obtain ⟨f, hf⟩ := colR_cover i
  exact ⟨f, by show i ∈ (fS f).view.set; rw [fS_set]; exact hf⟩
theorem bS_cover (c : Dev nD) : (Finset.univ : Finset (Fin 7)).biUnion (bK c) = Finset.univ := by
  ext i
  simp only [Finset.mem_biUnion, Finset.mem_univ, true_and, iff_true]
  obtain ⟨f, hf⟩ := colR_cover i
  exact ⟨f, by show i ∈ (bS f).view.set; rw [bS_set]; exact hf⟩

/-- The f32 staging buffer gives its seven column blocks. -/
theorem f_split (c : Dev nD) (g : Buf (Elt F) ((c : Thread nD τ).loc cc0_scratch0)) :
    ((((c : Thread nD τ).loc cc0_scratch0) ↦{fullShare} g) : sProp 𝕄)
      ⊢ bigSep Finset.univ fun f : Fin 7 => iprop(∃ g' : Buf (Elt F) ((fS f).view.loc (c : Thread nD τ)), (fS f).view.loc (c : Thread nD τ) ↦[(fS f).view.set]{fullShare} g') :=
  pointsTo_split_family (ℓ := (c : Thread nD τ).loc cc0_scratch0) (fK c) fS_disjoint (fS_cover c) fullShare g

/-- The seven column blocks give the f32 staging buffer back. -/
theorem f_join (c : Dev nD) :
    (bigSep Finset.univ fun f : Fin 7 => iprop(∃ g' : Buf (Elt F) ((fS f).view.loc (c : Thread nD τ)), (fS f).view.loc (c : Thread nD τ) ↦[(fS f).view.set]{fullShare} g') : sProp 𝕄)
      ⊢ iprop(∃ g : Buf (Elt F) ((c : Thread nD τ).loc cc0_scratch0), ((c : Thread nD τ).loc cc0_scratch0) ↦{fullShare} g) :=
  pointsTo_join_family (ℓ := (c : Thread nD τ).loc cc0_scratch0) (fK c) fS_disjoint (fS_cover c) fullShare

/-- The bf16 staging buffer gives its seven column blocks. -/
theorem b_split (c : Dev nD) (g : Buf (Elt F) ((c : Thread nD τ).loc cc0_scratch1)) :
    ((((c : Thread nD τ).loc cc0_scratch1) ↦{fullShare} g) : sProp 𝕄)
      ⊢ bigSep Finset.univ fun f : Fin 7 => iprop(∃ g' : Buf (Elt F) ((bS f).view.loc (c : Thread nD τ)), (bS f).view.loc (c : Thread nD τ) ↦[(bS f).view.set]{fullShare} g') :=
  pointsTo_split_family (ℓ := (c : Thread nD τ).loc cc0_scratch1) (bK c) bS_disjoint (bS_cover c) fullShare g

/-- The seven column blocks give the bf16 staging buffer back. -/
theorem b_join (c : Dev nD) :
    (bigSep Finset.univ fun f : Fin 7 => iprop(∃ g' : Buf (Elt F) ((bS f).view.loc (c : Thread nD τ)), (bS f).view.loc (c : Thread nD τ) ↦[(bS f).view.set]{fullShare} g') : sProp 𝕄)
      ⊢ iprop(∃ g : Buf (Elt F) ((c : Thread nD τ).loc cc0_scratch1), ((c : Thread nD τ).loc cc0_scratch1) ↦{fullShare} g) :=
  pointsTo_join_family (ℓ := (c : Thread nD τ).loc cc0_scratch1) (bK c) bS_disjoint (bS_cover c) fullShare

/-! ## The input rows: eight read shares, each with its copy's column block carved out -/

/-- Slot `f`'s read share on the columns its copy reads, and on the rest of the rows. -/
def xTok (c : Dev nD) (f : Fin 7) : sProp 𝕄 := (xS c f).view.loc (c : Thread nD τ) ↦[(xS c f).view.set]{tok f.castSucc} Xs m c f
def xOff (c : Dev nD) (f : Fin 7) : sProp 𝕄 := (xS c f).view.loc (c : Thread nD τ) ↦[Finset.univ \ (xS c f).view.set]{tok f.castSucc} Xs m c f
/-- The own copy's read share on the device's own columns, and on the rest of the rows. -/
def xTokO (c : Dev nD) : sProp 𝕄 := (xO c).view.loc (c : Thread nD τ) ↦[(xO c).view.set]{tok (Fin.last 7)} Xo m c
def xOffO (c : Dev nD) : sProp 𝕄 := (xO c).view.loc (c : Thread nD τ) ↦[Finset.univ \ (xO c).view.set]{tok (Fin.last 7)} Xo m c
/-- What remains of the rows' full share after the eight read shares. -/
def xRest (c : Dev nD) : sProp 𝕄 := ((c : Thread nD τ).loc main_arg0) ↦[Finset.univ]{Transfers.shareDrop fullShare 8} X m c

/-- A conjunction over `n + 1` indices is the last one's and the conjunction over the first `n`. -/
theorem bigSep_univ_last {n : ℕ} (Φ : Fin (n + 1) → sProp 𝕄) :
    bigSep Finset.univ Φ = iprop(Φ (Fin.last n) ∗ bigSep Finset.univ fun i : Fin n => Φ i.castSucc) := by
  have e : (Finset.univ : Finset (Fin (n + 1))).erase (Fin.last n) = Finset.univ.map Fin.castSuccEmb := by
    ext i
    simp only [Finset.mem_erase, Finset.mem_univ, and_true, Finset.mem_map, true_and, Fin.coe_castSuccEmb, Fin.exists_castSucc_eq]
  rw [bigSep_univ_split (Fin.last n), e, bigSep_map]
  rfl

section Tokens
variable (c : Dev nD)

/-- One read share of the rows, cut at its copy's columns. -/
theorem xTok_cut (f : Fin 7) :
    ((((c : Thread nD τ).loc main_arg0) ↦[Finset.univ]{tok f.castSucc} X m c) : sProp 𝕄) ⊣⊢ iprop(xTok m c f ∗ xOff m c f) :=
  pointsTo_split_subset (Finset.subset_univ _)
theorem xTokO_cut :
    ((((c : Thread nD τ).loc main_arg0) ↦[Finset.univ]{tok (Fin.last 7)} X m c) : sProp 𝕄) ⊣⊢ iprop(xTokO m c ∗ xOffO m c) :=
  pointsTo_split_subset (Finset.subset_univ _)
theorem xRest_def :
    ((((c : Thread nD τ).loc main_arg0) ↦[Finset.univ]{Transfers.shareDrop fullShare 8} X m c) : sProp 𝕄) = xRest m c := rfl

end Tokens

/-- The rows at their full share give the remainder and the eight read shares, each cut at its copy's columns. -/
theorem x_split (c : Dev nD) :
    ((((c : Thread nD τ).loc main_arg0) ↦{fullShare} X m c) : sProp 𝕄)
      ⊢ iprop(xRest m c ∗ (bigSep Finset.univ fun f : Fin 7 => iprop(xTok m c f ∗ xOff m c f)) ∗ xTokO m c ∗ xOffO m c) := by
  refine (Transfers.pointsTo_toks_split (ℓ := (c : Thread nD τ).loc main_arg0) (S := Finset.univ) (f := X m c) fullShare 8).trans ?_
  rw [bigSep_univ_last (n := 7), xRest_def]
  have hb : (bigSep Finset.univ fun f : Fin 7 => (((c : Thread nD τ).loc main_arg0) ↦[Finset.univ]{tok f.castSucc} X m c : sProp 𝕄))
      ⊢ bigSep Finset.univ fun f : Fin 7 => iprop(xTok m c f ∗ xOff m c f) :=
    bigSep_mono fun f _ => (xTok_cut m c f).1
  have hl := (xTokO_cut m c).1
  iintro ⟨Hr, Hl, Hs⟩
  isplitl [Hr]
  · iexact Hr
  isplitl [Hs]
  · iapply hb; iexact Hs
  · iapply hl; iexact Hl

/-- and back. -/
theorem x_join (c : Dev nD) :
    iprop(xRest m c ∗ (bigSep Finset.univ fun f : Fin 7 => iprop(xTok m c f ∗ xOff m c f)) ∗ xTokO m c ∗ xOffO m c)
      ⊢ ((((c : Thread nD τ).loc main_arg0) ↦{fullShare} X m c) : sProp 𝕄) := by
  refine BIBase.Entails.trans ?_ (Transfers.pointsTo_toks_join (ℓ := (c : Thread nD τ).loc main_arg0) (S := Finset.univ) (f := X m c) fullShare 8)
  rw [bigSep_univ_last (n := 7), xRest_def]
  have hb : (bigSep Finset.univ fun f : Fin 7 => iprop(xTok m c f ∗ xOff m c f))
      ⊢ bigSep Finset.univ fun f : Fin 7 => (((c : Thread nD τ).loc main_arg0) ↦[Finset.univ]{tok f.castSucc} X m c : sProp 𝕄) :=
    bigSep_mono fun f _ => (xTok_cut m c f).2
  have hl := (xTokO_cut m c).2
  iintro ⟨Hr, Hs, Hl⟩
  isplitl [Hr]
  · iexact Hr
  isplitl [Hl]
  · iapply hl; iexact Hl
  · iapply hb; iexact Hs

/-- info: 'Cert.KernelIdeal.A2A.out_join' depends on axioms: [propext, Classical.choice, Quot.sound] -/
#guard_msgs in #print axioms out_join

end Cert.KernelIdeal.A2A

end
-- ==== Proof.KernelIdealA2A.Steps.lean ====
/-
  The pieces the body's run is made of: how the products a device holds expand, the parts each buffer is held by,
  and one lemma per kind of operation of the body — a staging copy, an entry signal, the barrier wait, a wait on a DMA
  cell, a transfer to a peer, the own copy — each applying the semaphore discipline's rule for it at this schedule.
-/
import proofs.«900616_g7700000000000617_dist_a2a_v7x_i8_i_m2048_n512_bf16_1_alg».proof.Proof.KernelIdealA2A.Tables
import proofs.«900616_g7700000000000617_dist_a2a_v7x_i8_i_m2048_n512_bf16_1_alg».proof.Proof.Gen.KernelIdeal.Points

noncomputable section

namespace Cert.KernelIdeal.A2A.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Expanding the finite products a device holds -/

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A product over the devices: device `c`'s factor, and the others' listed by slot; -/
theorem bigSep_dev_peers (Φ : Dev nD → sProp 𝕄) (c : Dev nD) :
    bigSep Finset.univ Φ = iprop(Φ c ∗ bigSep Finset.univ fun f : Fin 7 => Φ (peer c f)) := by
  rw [← Finset.insert_erase (Finset.mem_univ c), bigSep_insert (Finset.notMem_erase c _), others_eq_peers, bigSep_map]
  rfl
/-- or listed in the order of the entry signals. -/
theorem bigSep_dev_bdevs (Φ : Dev nD → sProp 𝕄) (c : Dev nD) :
    bigSep Finset.univ Φ = iprop(Φ c ∗ bigSep Finset.univ fun k : Fin 7 => Φ (bdev c k)) := by
  rw [← Finset.insert_erase (Finset.mem_univ c), bigSep_insert (Finset.notMem_erase c _), others_eq_bdevs, bigSep_map]
  rfl

/-! ## The parts each buffer is held by (the facts about them are supplied where the body is used) -/

abbrev xTok (c : Dev nD) (f : Fin 7) : sProp 𝕄 := (xS c f).view.loc (c : Thread nD τ) ↦[(xS c f).view.set]{tok f.castSucc} Xs m c f
abbrev xOff (c : Dev nD) (f : Fin 7) : sProp 𝕄 := (xS c f).view.loc (c : Thread nD τ) ↦[Finset.univ \ (xS c f).view.set]{tok f.castSucc} Xs m c f
abbrev xTokO (c : Dev nD) : sProp 𝕄 := (xO c).view.loc (c : Thread nD τ) ↦[(xO c).view.set]{tok (Fin.last 7)} Xo m c
abbrev xOffO (c : Dev nD) : sProp 𝕄 := (xO c).view.loc (c : Thread nD τ) ↦[Finset.univ \ (xO c).view.set]{tok (Fin.last 7)} Xo m c
abbrev xRest (c : Dev nD) : sProp 𝕄 := ((c : Thread nD τ).loc main_arg0) ↦[Finset.univ]{Transfers.shareDrop fullShare 8} X m c
abbrev fPart (c : Dev nD) (f : Fin 7) : sProp 𝕄 := iprop(∃ g' : Buf (Elt F) ((fS f).view.loc (c : Thread nD τ)), (fS f).view.loc (c : Thread nD τ) ↦[(fS f).view.set]{fullShare} g')
abbrev bPart (c : Dev nD) (f : Fin 7) : sProp 𝕄 := iprop(∃ g' : Buf (Elt F) ((bS f).view.loc (c : Thread nD τ)), (bS f).view.loc (c : Thread nD τ) ↦[(bS f).view.set]{fullShare} g')
abbrev oPart (c s : Dev nD) : sProp 𝕄 := iprop(∃ g' : Buf (Elt F) ((oS s).view.loc (c : Thread nD τ)), (oS s).view.loc (c : Thread nD τ) ↦[(oS s).view.set]{fullShare} g')

/-- How a device's buffers split into the parts the copies move and join again, and what the staged columns are. -/
structure GeomFacts : Prop where
  x_split : ∀ c : Dev nD, ((((c : Thread nD τ).loc main_arg0) ↦{fullShare} X m c) : sProp 𝕄)
    ⊢ iprop(xRest m c ∗ (bigSep Finset.univ fun f : Fin 7 => iprop(xTok m c f ∗ xOff m c f)) ∗ xTokO m c ∗ xOffO m c)
  x_join : ∀ c : Dev nD, iprop(xRest m c ∗ (bigSep Finset.univ fun f : Fin 7 => iprop(xTok m c f ∗ xOff m c f)) ∗ xTokO m c ∗ xOffO m c)
    ⊢ ((((c : Thread nD τ).loc main_arg0) ↦{fullShare} X m c) : sProp 𝕄)
  out_split : ∀ (c : Dev nD) (g : Buf (Elt F) ((c : Thread nD τ).loc main_v1)), ((((c : Thread nD τ).loc main_v1) ↦{fullShare} g) : sProp 𝕄)
    ⊢ bigSep Finset.univ fun s : Dev nD => oPart (F := F) c s
  out_landed : ∀ (c s : Dev nD) (fd : Buf (Elt F) ((oS s).view.loc (c : Thread nD τ))),
    (((oS s).view.loc (c : Thread nD τ) ↦[(oS s).view.set]{fullShare} (oS s).view.write (Elt F) fd (pay (xcol m s c)) Finset.univ) : sProp 𝕄)
      ⊢ ((oS s).view.loc (c : Thread nD τ) ↦[(oS s).view.set]{fullShare} outAt m c s)
  out_join : ∀ c : Dev nD, (bigSep Finset.univ fun s : Dev nD => ((oS s).view.loc (c : Thread nD τ) ↦[(oS s).view.set]{fullShare} outAt m c s : sProp 𝕄))
    ⊢ ((((c : Thread nD τ).loc main_v1) ↦{fullShare} outFn m c) : sProp 𝕄)
  f_split : ∀ (c : Dev nD) (g : Buf (Elt F) ((c : Thread nD τ).loc cc0_scratch0)), ((((c : Thread nD τ).loc cc0_scratch0) ↦{fullShare} g) : sProp 𝕄)
    ⊢ bigSep Finset.univ fun f : Fin 7 => fPart (F := F) c f
  f_join : ∀ c : Dev nD, (bigSep Finset.univ fun f : Fin 7 => fPart (F := F) c f)
    ⊢ iprop(∃ g : Buf (Elt F) ((c : Thread nD τ).loc cc0_scratch0), ((c : Thread nD τ).loc cc0_scratch0) ↦{fullShare} g)
  b_split : ∀ (c : Dev nD) (g : Buf (Elt F) ((c : Thread nD τ).loc cc0_scratch1)), ((((c : Thread nD τ).loc cc0_scratch1) ↦{fullShare} g) : sProp 𝕄)
    ⊢ bigSep Finset.univ fun f : Fin 7 => bPart (F := F) c f
  b_join : ∀ c : Dev nD, (bigSep Finset.univ fun f : Fin 7 => bPart (F := F) c f)
    ⊢ iprop(∃ g : Buf (Elt F) ((c : Thread nD τ).loc cc0_scratch1), ((c : Thread nD τ).loc cc0_scratch1) ↦{fullShare} g)
  xS_read : ∀ (c : Dev nD) (f : Fin 7), (xS c f).view.read (Elt F) (Xs m c f) = xcol m c (peer c f)
  xO_read : ∀ c : Dev nD, (xO c).view.read (Elt F) (Xo m c) = xcol m c c

/-- The splits, each product written out. -/
theorem x_split7 (hG : GeomFacts m) (c : Dev nD) : ((((c : Thread nD τ).loc main_arg0) ↦{fullShare} X m c) : sProp 𝕄)
    ⊢ iprop(xRest m c ∗ ((xTok m c 0 ∗ xOff m c 0) ∗ (xTok m c 1 ∗ xOff m c 1) ∗ (xTok m c 2 ∗ xOff m c 2) ∗ (xTok m c 3 ∗ xOff m c 3)
        ∗ (xTok m c 4 ∗ xOff m c 4) ∗ (xTok m c 5 ∗ xOff m c 5) ∗ (xTok m c 6 ∗ xOff m c 6)) ∗ xTokO m c ∗ xOffO m c) :=
  (hG.x_split c).trans (Entails.of_eq (by rw [bigSep_fin7]))
theorem x_join7 (hG : GeomFacts m) (c : Dev nD) :
    iprop(xRest m c ∗ ((xTok m c 0 ∗ xOff m c 0) ∗ (xTok m c 1 ∗ xOff m c 1) ∗ (xTok m c 2 ∗ xOff m c 2) ∗ (xTok m c 3 ∗ xOff m c 3)
        ∗ (xTok m c 4 ∗ xOff m c 4) ∗ (xTok m c 5 ∗ xOff m c 5) ∗ (xTok m c 6 ∗ xOff m c 6)) ∗ xTokO m c ∗ xOffO m c)
      ⊢ ((((c : Thread nD τ).loc main_arg0) ↦{fullShare} X m c) : sProp 𝕄) :=
  (Entails.of_eq (by rw [bigSep_fin7])).trans (hG.x_join c)
theorem f_split7 (hG : GeomFacts m) (c : Dev nD) (g : Buf (Elt F) ((c : Thread nD τ).loc cc0_scratch0)) :
    ((((c : Thread nD τ).loc cc0_scratch0) ↦{fullShare} g) : sProp 𝕄)
      ⊢ iprop(fPart (F := F) c 0 ∗ fPart (F := F) c 1 ∗ fPart (F := F) c 2 ∗ fPart (F := F) c 3 ∗ fPart (F := F) c 4 ∗ fPart (F := F) c 5 ∗ fPart (F := F) c 6) :=
  (hG.f_split c g).trans (Entails.of_eq (bigSep_fin7 _))
theorem f_join7 (hG : GeomFacts m) (c : Dev nD) :
    iprop(fPart (F := F) c 0 ∗ fPart (F := F) c 1 ∗ fPart (F := F) c 2 ∗ fPart (F := F) c 3 ∗ fPart (F := F) c 4 ∗ fPart (F := F) c 5 ∗ fPart (F := F) c 6)
      ⊢ iprop(∃ g : Buf (Elt F) ((c : Thread nD τ).loc cc0_scratch0), ((c : Thread nD τ).loc cc0_scratch0) ↦{fullShare} g) :=
  (Entails.of_eq (bigSep_fin7 _).symm).trans (hG.f_join c)
theorem b_split7 (hG : GeomFacts m) (c : Dev nD) (g : Buf (Elt F) ((c : Thread nD τ).loc cc0_scratch1)) :
    ((((c : Thread nD τ).loc cc0_scratch1) ↦{fullShare} g) : sProp 𝕄)
      ⊢ iprop(bPart (F := F) c 0 ∗ bPart (F := F) c 1 ∗ bPart (F := F) c 2 ∗ bPart (F := F) c 3 ∗ bPart (F := F) c 4 ∗ bPart (F := F) c 5 ∗ bPart (F := F) c 6) :=
  (hG.b_split c g).trans (Entails.of_eq (bigSep_fin7 _))
theorem b_join7 (hG : GeomFacts m) (c : Dev nD) :
    iprop(bPart (F := F) c 0 ∗ bPart (F := F) c 1 ∗ bPart (F := F) c 2 ∗ bPart (F := F) c 3 ∗ bPart (F := F) c 4 ∗ bPart (F := F) c 5 ∗ bPart (F := F) c 6)
      ⊢ iprop(∃ g : Buf (Elt F) ((c : Thread nD τ).loc cc0_scratch1), ((c : Thread nD τ).loc cc0_scratch1) ↦{fullShare} g) :=
  (Entails.of_eq (bigSep_fin7 _).symm).trans (hG.b_join c)
/-- The result buffer: the device's own rows block, and the seven it hands to the other devices, in the order of its entry signals. -/
theorem out_split8 (hG : GeomFacts m) (c : Dev nD) (g : Buf (Elt F) ((c : Thread nD τ).loc main_v1)) :
    ((((c : Thread nD τ).loc main_v1) ↦{fullShare} g) : sProp 𝕄)
      ⊢ iprop(oPart (F := F) c c ∗ oPart (F := F) c (bdev c 0) ∗ oPart (F := F) c (bdev c 1) ∗ oPart (F := F) c (bdev c 2) ∗ oPart (F := F) c (bdev c 3)
          ∗ oPart (F := F) c (bdev c 4) ∗ oPart (F := F) c (bdev c 5) ∗ oPart (F := F) c (bdev c 6)) :=
  (hG.out_split c g).trans (Entails.of_eq (by rw [bigSep_dev_bdevs _ c, bigSep_fin7]))
/-- and back: the own block and the seven the other devices wrote, listed by slot, at their final contents. -/
theorem out_join8 (hG : GeomFacts m) (c : Dev nD) :
    iprop(((oS c).view.loc (c : Thread nD τ) ↦[(oS c).view.set]{fullShare} outAt m c c)
        ∗ recvPay m c 0 ∗ recvPay m c 1 ∗ recvPay m c 2 ∗ recvPay m c 3 ∗ recvPay m c 4 ∗ recvPay m c 5 ∗ recvPay m c 6)
      ⊢ ((((c : Thread nD τ).loc main_v1) ↦{fullShare} outFn m c) : sProp 𝕄) :=
  (Entails.of_eq (by rw [bigSep_dev_peers _ c, bigSep_fin7]; rfl)).trans (hG.out_join c)

/-! ## The steps, one lemma per kind of operation -/

section Steps
variable (K : Dev nD × SemLoc sig → ℕ) (c : Dev nD)

/-- One cell's invariant out of the shared records. -/
theorem inv_at (ck : Dev nD × SemLoc sig) : records m K ⊢ (cellInv ER (Rd m) (K ck) (cell ck.1 ck.2) : sProp 𝕄) :=
  sep_elim_left.trans (bigSep_elim (Φ := fun ck : Dev nD × SemLoc sig => (cellInv ER (Rd m) (K ck) (cell ck.1 ck.2) : sProp 𝕄)) (Finset.mem_univ ck))
theorem reached_at (ck : Dev nD × SemLoc sig) : records m K ⊢ (reached ER (cell ck.1 ck.2) 0 : sProp 𝕄) :=
  sep_elim_right.trans (bigSep_elim (Φ := fun ck : Dev nD × SemLoc sig => (reached ER (cell ck.1 ck.2) 0 : sProp 𝕄)) (Finset.mem_univ ck))

/-- Slot `f`'s staging copy, issued: the slot's read token and staging columns go in, the copy's credit comes back. -/
theorem wp_stage {α : Type} {Q : α → sProp (MT nD τ sig Unit (Elt F) ℕ UU ℕ)} (hG : GeomFacts m) (f : Fin 7)
    {hsrc : (xS c f).view.WordExact} {hdst : (fS f).view.WordExact} {hsem : DmaTarget.Typed (nD := nD) (τ := τ) (p := Proc.tc) .hbm (.dma (stageS f.castSucc)) (DmaTarget.here (fS f))}
    {k : PUnit → Prog (TpuEff nD τ sig (Elt F) Λ₀ .tc) α} :
    iprop(records m K ∗ xTok m c f ∗ fPart (F := F) c f ∗ dutyTok ER (stageCell c f.castSucc) 0 0)
      ⊢ iprop((cred (tallyAt (stageCell c f.castSucc) () N32) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xS c f) (.here (fS f)) (.dma (stageS f.castSucc)) hsrc hdst hsem) k) Q) := by
  iintro ⟨#HI, Hx, ⟨%g, Hf⟩, Ht⟩
  iapply (Rounds.wp_copy_pointsTo 𝒱₀ ER (Rd m) (c : Thread nD τ) none (src := xS c f) (dst := fS f) (sem := .dma (stageS f.castSucc)) (q := tok f.castSucc) (fs := Xs m c f)
      (κ := K (c, .dma (stageS f.castSucc))) (r := 0) (d := 0) (fd := g)
      (by rw [duties_dma]; exact Finset.mem_singleton_self _) () N32 rfl (amount_stage m c f.castSucc 0)
      (by
        rw [payload_stage]; unfold stagePay
        iintro ⟨Hd, Hs⟩
        isplitl [Hd]
        · iexists _; isplitr
          · ipureintro; exact (View.read_write_univ g _).trans (hG.xS_read c f)
          · iexact Hd
        · iexact Hs))
  isplitr; · iapply (inv_at m K (c, .dma (stageS f.castSucc))); iexact HI
  isplitl [Hx]; · iexact Hx
  isplitl [Hf]; · iexact Hf
  isplitl [Ht]; · iexact Ht
  iapply (reached_at m K (c, .dma (stageS f.castSucc))); iexact HI

/-- The own columns' staging copy, issued. -/
theorem wp_stage_own {α : Type} {Q : α → sProp (MT nD τ sig Unit (Elt F) ℕ UU ℕ)} (hG : GeomFacts m)
    {hsrc : (xO c).view.WordExact} {hdst : ofM.view.WordExact} {hsem : DmaTarget.Typed (nD := nD) (τ := τ) (p := Proc.tc) .hbm (.dma (stageS (Fin.last 7))) (DmaTarget.here ofM)}
    {k : PUnit → Prog (TpuEff nD τ sig (Elt F) Λ₀ .tc) α} (g : Buf (Elt F) ((c : Thread nD τ).loc cc0_scratch2)) :
    iprop(records m K ∗ xTokO m c ∗ (((c : Thread nD τ).loc cc0_scratch2) ↦{fullShare} g) ∗ dutyTok ER (stageCell c (Fin.last 7)) 0 0)
      ⊢ iprop((cred (tallyAt (stageCell c (Fin.last 7)) () N32) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xO c) (.here ofM) (.dma (stageS (Fin.last 7))) hsrc hdst hsem) k) Q) := by
  iintro ⟨#HI, Hx, Hf, Ht⟩
  iapply (Rounds.wp_copy_pointsTo 𝒱₀ ER (Rd m) (c : Thread nD τ) none
      (src := xO c) (dst := ofM) (sem := .dma (stageS (Fin.last 7))) (q := tok (Fin.last 7)) (fs := Xo m c)
      (κ := K (c, .dma (stageS (Fin.last 7)))) (r := 0) (d := 0) (fd := g)
      (by rw [duties_dma]; exact Finset.mem_singleton_self _) () N32 rfl (amount_stage m c (Fin.last 7) 0)
      (by
        rw [payload_ownstage]; unfold ownStagePay
        iintro ⟨Hd, Hs⟩
        isplitl [Hd]
        · iexists _; isplitr
          · ipureintro; exact (View.read_write_univ g _).trans (hG.xO_read c)
          · iexact Hd
        · iexact Hs))
  isplitr; · iapply (inv_at m K (c, .dma (stageS (Fin.last 7)))); iexact HI
  isplitl [Hx]; · iexact Hx
  isplitl [Hf]; · rw [show (ofM : Memref sig .tc .vmem S2048x512 .f32).view.set = Finset.univ from View.set_whole _]; iexact Hf
  isplitl [Ht]; · iexact Ht
  iapply (reached_at m K (c, .dma (stageS (Fin.last 7)))); iexact HI

/-- The `j`-th entry signal: device `c` hands `bdev c j` the rows block of its own result that `bdev c j` will write. -/
theorem wp_sig {α : Type} {Q : α → sProp (MT nD τ sig Unit (Elt F) ℕ UU ℕ)} (j : Fin 7) (O : CellTallies nD τ sig Unit) (W : Waits sig Unit) {k : PUnit → Prog (TpuEff nD τ sig (Elt F) Λ₀ .tc) α} :
    iprop(records m K ∗ owes (c : Thread nD τ) (O + tallyAt (barCell (bdev c j)) () 1) W ∗ dutyTok ER (barCell (bdev c j)) 0 c ∗ oPart (F := F) c (bdev c j))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((bdev c j : Dev nD) : Thread nD τ) barS 1) k) Q) := by
  iintro ⟨#HI, HO, Ht, Hp⟩
  iapply (Rounds.wp_signal 𝒱₀ ER (Rd m) (c : Thread nD τ) none (dst := ((bdev c j : Dev nD) : Thread nD τ)) (sem := barS) (κ := K (bdev c j, .reg barS)) (r := 0) (d := c)
      (by rw [duties_bar]; exact Finset.mem_erase.mpr ⟨(bdev_ne c j).symm, Finset.mem_univ _⟩) (amount_bar m (bdev c j) c) () O rfl)
  isplitr; · iapply (inv_at m K (bdev c j, .reg barS)); iexact HI
  isplitl [HO]; · iexact HO
  isplitl [Ht]; · iexact Ht
  isplitl [Hp]; · rw [payload_bar]; unfold barPay; iexact Hp
  iapply (reached_at m K (bdev c j, .reg barS)); iexact HI

/-- The wait for all seven entry signals, still owing only receive credit: every other device's rows block `c` comes with it. -/
theorem wp_bar_wait {α : Type} {Q : α → sProp (MT nD τ sig Unit (Elt F) ℕ UU ℕ)} (O : CellTallies nD τ sig Unit) (W : Waits sig Unit) (hO : ∀ g u, 0 < O g u → IsRecv g) {k : PUnit → Prog (TpuEff nD τ sig (Elt F) Λ₀ .tc) α} :
    iprop(records m K ∗ levAts L lv ∗ cred (tallyAt (barCell c) () 7) ∗ owes (c : Thread nD τ) O W ∗ atPos ER (barCell c) 0 ∅ 0)
      ⊢ iprop(((owes (c : Thread nD τ) O (insert (SemLoc.reg barS, ()) W) ∗ atPos ER (barCell c) (0 + 1) ∅ 0
              ∗ (barPay c (peer c 0) ∗ barPay c (peer c 1) ∗ barPay c (peer c 2) ∗ barPay c (peer c 3) ∗ barPay c (peer c 4) ∗ barPay c (peer c 5) ∗ barPay (F := F) c (peer c 6)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  iintro ⟨#HI, #Hlev, Hc, HO, Hat⟩ Hk
  iapply (Rounds.wp_wait_rest_token 𝒱₀ ER (Rd m) (c : Thread nD τ) none (κ := K (c, .reg barS))
      (wpE_semWait_eq 𝒱₀ (c : Thread nD τ) none Set.univ) (Set.mem_univ _) () (O := O) (W := W) (R := 0) (m := 0) (T := ∅)
      (by rw [expect_bar])) $$ [Hc HO Hat]
  · isplitr; · iapply (inv_at m K (c, .reg barS)); iexact HI
    isplitl [Hc]; · iexact Hc
    isplitl [HO]; · iexact HO
    isplitr; · iapply (mayWait_bar c O hO); iexact Hlev
    iexact Hat
  iintro ⟨HO, Hat, -, Hpay⟩
  iapply Hk
  isplitl [HO]; · iexact HO
  isplitl [Hat]; · iexact Hat
  iapply (Entails.of_eq ((rest_bar m c).trans (bigSep_fin7 _))) $$ Hpay

/-- The wait on one of the device's DMA cells for its one copy: the copy's payload comes with it. -/
theorem wp_wait_cell {α : Type} {Q : α → sProp (MT nD τ sig Unit (Elt F) ℕ UU ℕ)} (j : DmaSem sig) (O : CellTallies nD τ sig Unit) (W : Waits sig Unit)
    (hmw : (levAts L lv : sProp (MT nD τ sig Unit (Elt F) ℕ UU ℕ)) ⊢ MayWait (c : Thread nD τ) (.dma j) () O)
    {sp sp' : Space} {s s' : Shape} {e e' : EltTy} {src : Memref sig .tc sp' s' e'} {dst : Memref sig .tc sp s e} {hsrc : src.view.WordExact} {hdst : dst.view.WordExact}
    (hN : dst.view.dmaCredit = (Rd (F := F) m).amount (cell c (.dma j)) 0 0) {k : PUnit → Prog (TpuEff nD τ sig (Elt F) Λ₀ .tc) α} :
    iprop(records m K ∗ levAts L lv ∗ cred (tallyAt (cell c (.dma j)) () dst.view.dmaCredit) ∗ owes (c : Thread nD τ) O W ∗ atPos ER (cell c (.dma j)) 0 ∅ 0)
      ⊢ iprop(((owes (c : Thread nD τ) O (insert (SemLoc.dma j, ()) W) ∗ atPos ER (cell c (.dma j)) (0 + 1) ∅ 0 ∗ (Rd (F := F) m).payload (cell c (.dma j)) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 j src dst hsrc hdst) k) Q) := by
  iintro ⟨#HI, #Hlev, Hc, HO, Hat⟩ Hk
  iapply (Rounds.wp_wait_rest_token 𝒱₀ ER (Rd m) (c : Thread nD τ) none (κ := K (c, .dma j))
      (wpE_waitDma2_eq 𝒱₀ (c : Thread nD τ) none Set.univ) (Set.mem_univ _) () (O := O) (W := W) (R := 0) (m := 0) (T := ∅)
      (by rw [Nat.zero_add, expect_dma, hN])) $$ [Hc HO Hat]
  · isplitr; · iapply (inv_at m K (c, .dma j)); iexact HI
    isplitl [Hc]; · iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iapply (Entails.of_eq (rest_dma m c j)) $$ Hpay

/-- Slot `f`'s transfer, issued: the rounded columns' buffer and the peer's rows block `c` go in; the departure's credit comes back and the arrival is paid off what the device owes. What lands is the peer's final contents on that block. -/
theorem wp_send_slot {α : Type} {Q : α → sProp (MT nD τ sig Unit (Elt F) ℕ UU ℕ)} (hG : GeomFacts m) (f : Fin 7) (O : CellTallies nD τ sig Unit) (W : Waits sig Unit)
    (gs : Buf (Elt F) ((bS f).view.loc (c : Thread nD τ))) (hgs : (bS f).view.read (Elt F) gs = pay (xcol m c (peer c f)))
    {hsc : (oS c : Memref sig ((peer c f : Dev nD) : Thread nD τ).2.kind .hbm S2048x512 .bf16).view.ref.isScScratch = false}
    {hsrc : (bS f).view.WordExact} {hdst : (oS c).view.WordExact}
    {hsem : DmaTarget.Typed (nD := nD) (τ := τ) (p := Proc.tc) .vmem (.dma (recvS f)) (DmaTarget.remote ((peer c f : Dev nD) : Thread nD τ) (oS c) (.dma (sendS f)) hsc)}
    {k : PUnit → Prog (TpuEff nD τ sig (Elt F) Λ₀ .tc) α} :
    iprop(records m K ∗ ((bS f).view.loc (c : Thread nD τ) ↦[(bS f).view.set]{fullShare} gs) ∗ barPay (F := F) c (peer c f)
        ∗ owes (c : Thread nD τ) (O + tallyAt (recvCell (peer c f) f) () N16) W ∗ dutyTok ER (sendCell c f) 0 0 ∗ dutyTok ER (recvCell (peer c f) f) 0 0)
      ⊢ iprop(((cred (tallyAt (sendCell c f) () N16) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (bS f) (.remote ((peer c f : Dev nD) : Thread nD τ) (oS c) (.dma (sendS f)) hsc) (.dma (recvS f)) hsrc hdst hsem) k) Q) := by
  unfold barPay
  iintro ⟨#HI, Hs, ⟨%fd, Hd⟩, HO, Ht1, Ht2⟩
  iapply (Rounds.wp_send_pointsTo 𝒱₀ ER (Rd m) (c : Thread nD τ) none (c' := ((peer c f : Dev nD) : Thread nD τ)) (src := bS f) (dst := oS c)
      (sS := .dma (sendS f)) (sem := .dma (recvS f)) (q := fullShare) (fs := gs) (fd := fd)
      (κ₁ := K (c, .dma (sendS f))) (κ₂ := K (peer c f, .dma (recvS f))) (r₁ := 0) (r₂ := 0) (d₁ := 0) (d₂ := 0)
      (by rw [duties_dma]; exact Finset.mem_singleton_self _) (by rw [duties_dma]; exact Finset.mem_singleton_self _)
      () () N16 rfl (amount_send m c f 0) (amount_recv m (peer c f) f 0) O rfl (W := W)
      (by rw [payload_send]; unfold sendPay; iintro H; iexists gs; iexact H)
      (by
        rw [payload_recv, hgs]; unfold recvPay
        have hpp := peer_peer c f
        revert hpp
        generalize peer (peer c f) f = s
        intro hs; subst hs
        exact hG.out_landed (peer s f) s fd))
  isplitr; · iapply (inv_at m K (c, .dma (sendS f))); iexact HI
  isplitr; · iapply (inv_at m K (peer c f, .dma (recvS f))); iexact HI
  isplitl [Hs]; · iexact Hs
  isplitl [Hd]; · iexact Hd
  isplitl [HO]; · iexact HO
  isplitl [Ht1]; · iexact Ht1
  isplitr; · iapply (reached_at m K (c, .dma (sendS f))); iexact HI
  isplitl [Ht2]; · iexact Ht2
  iapply (reached_at m K (peer c f, .dma (recvS f))); iexact HI

/-- The own copy, issued: the rounded own columns' buffer and the device's own rows block go in. -/
theorem wp_own_copy {α : Type} {Q : α → sProp (MT nD τ sig Unit (Elt F) ℕ UU ℕ)} (hG : GeomFacts m) (gs : Buf (Elt F) ((c : Thread nD τ).loc cc0_scratch3)) (hgs : obM.view.read (Elt F) gs = pay (xcol m c c))
    {hsrc : obM.view.WordExact} {hdst : (oS c).view.WordExact} {hsem : DmaTarget.Typed (nD := nD) (τ := τ) (p := Proc.tc) .vmem (.dma outS) (DmaTarget.here (oS c))}
    {k : PUnit → Prog (TpuEff nD τ sig (Elt F) Λ₀ .tc) α} :
    iprop(records m K ∗ (((c : Thread nD τ).loc cc0_scratch3) ↦{fullShare} gs) ∗ oPart (F := F) c c ∗ dutyTok ER (outCell c) 0 0)
      ⊢ iprop((cred (tallyAt (outCell c) () N16) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma obM (.here (oS c)) (.dma outS) hsrc hdst hsem) k) Q) := by
  iintro ⟨#HI, Hs, ⟨%fd, Hd⟩, Ht⟩
  iapply (Rounds.wp_copy_pointsTo 𝒱₀ ER (Rd m) (c : Thread nD τ) none
      (src := obM) (dst := oS c) (sem := .dma outS) (q := fullShare) (fs := gs)
      (κ := K (c, .dma outS)) (r := 0) (d := 0) (fd := fd)
      (by rw [duties_dma]; exact Finset.mem_singleton_self _) () N16 rfl (amount_out m c 0)
      (by
        rw [payload_out, hgs]; unfold outPay
        iintro ⟨Hd, Hs⟩
        isplitl [Hd]
        · iapply (hG.out_landed c c fd); iexact Hd
        · iexists gs; iexact Hs))
  isplitr; · iapply (inv_at m K (c, .dma outS)); iexact HI
  isplitl [Hs]; · rw [show (obM : Memref sig .tc .vmem S2048x512 .bf16).view.set = Finset.univ from View.set_whole _]; iexact Hs
  isplitl [Hd]; · iexact Hd
  isplitl [Ht]; · iexact Ht
  iapply (reached_at m K (c, .dma outS)); iexact HI

/-! ### Loads and stores, each in the form the device holds the buffer's part -/

abbrev r0 : Rect S2048x512 := Rect.unit (s := S2048x512) ![0, 0] S2048x512.size inb_S2048x512_S2048x512_0_0

/-- Slot `f`'s staged columns, loaded. -/
theorem wp_load_f {α : Type} {Q : α → sProp (MT nD τ sig Unit (Elt F) ℕ UU ℕ)} (f : Fin 7) (g : Buf (Elt F) ((fS f).view.loc (c : Thread nD τ)))
    {hl : fM.view.LoadsAt (colR f)} {k : ((colR f).shape.Idx → Elt F .f32) → Prog (TpuEff nD τ sig (Elt F) Λ₀ .tc) α} :
    ((fS f).view.loc (c : Thread nD τ) ↦[(fS f).view.set]{fullShare} g)
      ⊢ iprop((((fS f).view.loc (c : Thread nD τ) ↦[(fS f).view.set]{fullShare} g) -∗ wp frame (wpE (defs₀ (F := F)) 𝒱₀ (c : Thread nD τ) none) Set.univ (k ((fS f).view.read (Elt F) g)) Q)
          -∗ wp frame (wpE (defs₀ (F := F)) 𝒱₀ (c : Thread nD τ) none) Set.univ (.op (.load fM (colR f) hl) k) Q) :=
  wp_load_rect 𝒱₀ (c : Thread nD τ) none Set.univ (m := fM) (r := colR f) (S := (fS f).view.set) (q := fullShare) (f := g) subset_rfl

/-- Slot `f`'s columns of the rounded buffer, loaded (the value is not used). -/
theorem wp_load_b {α : Type} {Q : α → sProp (MT nD τ sig Unit (Elt F) ℕ UU ℕ)} (f : Fin 7) (g : Buf (Elt F) ((bS f).view.loc (c : Thread nD τ)))
    {hl : bM.view.LoadsAt (colR f)} {k : ((colR f).shape.Idx → Elt F .bf16) → Prog (TpuEff nD τ sig (Elt F) Λ₀ .tc) α} :
    ((bS f).view.loc (c : Thread nD τ) ↦[(bS f).view.set]{fullShare} g)
      ⊢ iprop((((bS f).view.loc (c : Thread nD τ) ↦[(bS f).view.set]{fullShare} g) -∗ wp frame (wpE (defs₀ (F := F)) 𝒱₀ (c : Thread nD τ) none) Set.univ (k ((bS f).view.read (Elt F) g)) Q)
          -∗ wp frame (wpE (defs₀ (F := F)) 𝒱₀ (c : Thread nD τ) none) Set.univ (.op (.load bM (colR f) hl) k) Q) :=
  wp_load_rect 𝒱₀ (c : Thread nD τ) none Set.univ (m := bM) (r := colR f) (S := (bS f).view.set) (q := fullShare) (f := g) subset_rfl

/-- and stored over. -/
theorem wp_store_b {α : Type} {Q : α → sProp (MT nD τ sig Unit (Elt F) ℕ UU ℕ)} (f : Fin 7) (g : Buf (Elt F) ((bS f).view.loc (c : Thread nD τ))) (w : (colR f).shape.Idx → Elt F .bf16)
    {hx : (bM.access (colR f)).Stores Finset.univ} {hm : (Finset.univ : Finset (colR f).shape.Idx) = Finset.univ ∨ ∀ a, (colR f).stride a = 1} {k : PUnit → Prog (TpuEff nD τ sig (Elt F) Λ₀ .tc) α} :
    ((bS f).view.loc (c : Thread nD τ) ↦[(bS f).view.set]{fullShare} g)
      ⊢ iprop((((bS f).view.loc (c : Thread nD τ) ↦[(bS f).view.set]{fullShare} (bS f).view.write (Elt F) g w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store bM (colR f) w Finset.univ hx hm) k) Q) :=
  wp_store 𝒱₀ (c : Thread nD τ) none Set.univ (m := bM) (r := colR f) (Mk := Finset.univ) (S := (bS f).view.set) (f := g) subset_rfl

/-- The own staged columns, loaded. -/
theorem wp_load_of {α : Type} {Q : α → sProp (MT nD τ sig Unit (Elt F) ℕ UU ℕ)} (g : Buf (Elt F) (ofM.view.loc (c : Thread nD τ)))
    {hl : ofM.view.LoadsAt r0} {k : (r0.shape.Idx → Elt F .f32) → Prog (TpuEff nD τ sig (Elt F) Λ₀ .tc) α} :
    (ofM.view.loc (c : Thread nD τ) ↦[ofM.view.set]{fullShare} g)
      ⊢ iprop(((ofM.view.loc (c : Thread nD τ) ↦[ofM.view.set]{fullShare} g) -∗ wp frame (wpE (defs₀ (F := F)) 𝒱₀ (c : Thread nD τ) none) Set.univ (k ((ofM.access r0).read (Elt F) g)) Q)
          -∗ wp frame (wpE (defs₀ (F := F)) 𝒱₀ (c : Thread nD τ) none) Set.univ (.op (.load ofM r0 hl) k) Q) :=
  wp_load_rect 𝒱₀ (c : Thread nD τ) none Set.univ (m := ofM) (r := r0) (S := ofM.view.set) (q := fullShare) (f := g) (View.set_slice_subset _ _)

/-- The own rounded buffer, loaded (the value is not used), -/
theorem wp_load_ob {α : Type} {Q : α → sProp (MT nD τ sig Unit (Elt F) ℕ UU ℕ)} (g : Buf (Elt F) ((c : Thread nD τ).loc cc0_scratch3))
    {hl : obM.view.LoadsAt r0} {k : (r0.shape.Idx → Elt F .bf16) → Prog (TpuEff nD τ sig (Elt F) Λ₀ .tc) α} :
    ((((c : Thread nD τ).loc cc0_scratch3) ↦{fullShare} g) : sProp (MT nD τ sig Unit (Elt F) ℕ UU ℕ))
      ⊢ iprop(((((c : Thread nD τ).loc cc0_scratch3) ↦{fullShare} g) -∗ wp frame (wpE (defs₀ (F := F)) 𝒱₀ (c : Thread nD τ) none) Set.univ (k ((obM.access r0).read (Elt F) g)) Q)
          -∗ wp frame (wpE (defs₀ (F := F)) 𝒱₀ (c : Thread nD τ) none) Set.univ (.op (.load obM r0 hl) k) Q) :=
  wp_load_rect 𝒱₀ (c : Thread nD τ) none Set.univ (m := obM) (r := r0) (S := Finset.univ) (q := fullShare) (f := g) (Finset.subset_univ _)

/-- and stored over. -/
theorem wp_store_ob {α : Type} {Q : α → sProp (MT nD τ sig Unit (Elt F) ℕ UU ℕ)} (g : Buf (Elt F) ((c : Thread nD τ).loc cc0_scratch3)) (w : r0.shape.Idx → Elt F .bf16)
    {hx : (obM.access r0).Stores Finset.univ} {hm : (Finset.univ : Finset r0.shape.Idx) = Finset.univ ∨ ∀ a, r0.stride a = 1} {k : PUnit → Prog (TpuEff nD τ sig (Elt F) Λ₀ .tc) α} :
    ((((c : Thread nD τ).loc cc0_scratch3) ↦{fullShare} g) : sProp (MT nD τ sig Unit (Elt F) ℕ UU ℕ))
      ⊢ iprop(((((c : Thread nD τ).loc cc0_scratch3) ↦{fullShare} (obM.access r0).write (Elt F) g w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store obM r0 w Finset.univ hx hm) k) Q) :=
  wp_store 𝒱₀ (c : Thread nD τ) none Set.univ (m := obM) (r := r0) (Mk := Finset.univ) (S := Finset.univ) (f := g) (Finset.subset_univ _)

end Steps

end Cert.KernelIdeal.A2A.Run

end
-- ==== Proof.KernelIdealA2A.GeomFacts.lean ====
/-
  The facts about how a device's buffers split and join, and what the staged columns are, gathered for the body's run.
-/
import proofs.«900616_g7700000000000617_dist_a2a_v7x_i8_i_m2048_n512_bf16_1_alg».proof.Proof.KernelIdealA2A.Geom
import proofs.«900616_g7700000000000617_dist_a2a_v7x_i8_i_m2048_n512_bf16_1_alg».proof.Proof.KernelIdealA2A.Steps

noncomputable section

namespace Cert.KernelIdeal.A2A.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem geomFacts : GeomFacts m where
  x_split := fun c => Cert.KernelIdeal.A2A.x_split m c
  x_join := fun c => Cert.KernelIdeal.A2A.x_join m c
  out_split := fun c g => Cert.KernelIdeal.A2A.out_split c g
  out_landed := fun c s fd => Cert.KernelIdeal.A2A.out_landed m c s fd
  out_join := fun c => Cert.KernelIdeal.A2A.out_join m c
  f_split := fun c g => Cert.KernelIdeal.A2A.f_split c g
  f_join := fun c => Cert.KernelIdeal.A2A.f_join c
  b_split := fun c g => Cert.KernelIdeal.A2A.b_split c g
  b_join := fun c => Cert.KernelIdeal.A2A.b_join c
  xS_read := fun c f => Cert.KernelIdeal.A2A.xS_read m c f
  xO_read := fun c => Cert.KernelIdeal.A2A.xO_read m c

end Cert.KernelIdeal.A2A.Run

end
-- ==== Proof.KernelIdealA2A.Close.lean ====
/-
  Handing the DMA semaphores back.

  After the body's waits a device has taken the one duty of round 0 of each of its 23 DMA cells and consumed its units:
  it stands at round 1 of each, nothing taken, nothing consumed, and no round from 1 on has a duty. The owner of such a
  cell closes it: the cell's invariant, opened, reads the counter at zero against that position, and the counter is the
  device's own again. Every cell's invariant is in the persistent records, so the 23 cells close one beside another.
-/
import proofs.«900616_g7700000000000617_dist_a2a_v7x_i8_i_m2048_n512_bf16_1_alg».proof.Proof.KernelIdealA2A.Tables

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- The records hold every cell's invariant, under its name. -/
theorem records_cellInv (K : Dev nD × SemLoc sig → ℕ) (c : Dev nD) (sm : SemLoc sig) :
    records m K ⊢ (cellInv ER (Rd m) (K (c, sm)) (cell c sm) : sProp 𝕄) := by
  unfold records
  exact BI.Entails.trans (BI.Entails.trans BI.sep_and BI.and_elimL)
    (bigSep_elim (Φ := fun ck : Dev nD × SemLoc sig => (cellInv ER (Rd m) (K ck) (cell ck.1 ck.2) : sProp 𝕄))
      (Finset.mem_univ ((c, sm) : Dev nD × SemLoc sig)))

/-- One DMA cell of device `c`, at round 1 with nothing taken or consumed, closes: its counter is at zero. No duty of
    the schedule is without units, and no round from 1 on has a duty. -/
theorem cell_close_dma (K : Dev nD × SemLoc sig → ℕ) (c : Dev nD) (j : DmaSem sig) :
    iprop(records m K ∗ atPos ER (cell c (.dma j)) 1 ∅ 0)
      ⊢ (|={Set.univ}=> semVal (cell c (.dma j)) 0 : sProp 𝕄) :=
  (sep_mono_left (records_cellInv m K c (.dma j))).trans
    (Rounds.cell_close ER (Rd m) (Set.mem_univ (K (c, SemLoc.dma j))) (fun h => h) (R := 1)
      (duties_later m (cell c (.dma j))))

/-- All 23 DMA cells of device `c` close at once. -/
theorem cells_close (K : Dev nD × SemLoc sig → ℕ) (c : Dev nD) :
    iprop(records m K ∗ bigSep Finset.univ fun j : DmaSem sig => atPos ER (cell c (.dma j)) 1 ∅ 0)
      ⊢ (|={Set.univ}=> bigSep Finset.univ fun j : DmaSem sig => semVal (cell c (.dma j)) 0 : sProp 𝕄) :=
  (bigSep_with_persistent (R := records m K) fun j _ => cell_close_dma m K c j).trans (bigSep_fupd _ _)

/-- info: 'Cert.KernelIdeal.A2A.cells_close' depends on axioms: [propext, Classical.choice, Quot.sound] -/
#guard_msgs in #print axioms cells_close

end Cert.KernelIdeal.A2A

end
-- ==== Proof.KernelIdealA2A.Body.lean ====
/-
  One device's body, stepped operation by operation from the start state to the state after it: the eight staging
  copies issued, the seven entry signals (each handing a peer its rows block of this device's result), the wait for
  the seven signals in, then slot by slot the staged columns rounded and sent into the peer's result, the own
  columns rounded and copied, and the waits: departures, the own copy, arrivals. What comes back joins into the
  input rows unchanged and the result at its final contents.
-/
import proofs.«900616_g7700000000000617_dist_a2a_v7x_i8_i_m2048_n512_bf16_1_alg».proof.Proof.KernelIdealA2A.Steps
import proofs.«900616_g7700000000000617_dist_a2a_v7x_i8_i_m2048_n512_bf16_1_alg».proof.Proof.KernelIdealA2A.Close
import proofs.«900616_g7700000000000617_dist_a2a_v7x_i8_i_m2048_n512_bf16_1_alg».proof.Proof.Gen.KernelIdeal.Points

noncomputable section

namespace Cert.KernelIdeal.A2A.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

theorem bigSep_semLoc (Φ : SemLoc sig → sProp 𝕄) :
    bigSep Finset.univ Φ = iprop(Φ (.reg barS) ∗ bigSep Finset.univ fun j : DmaSem sig => Φ (.dma j)) := by
  have h : (Finset.univ : Finset (SemLoc sig)) = insert (.reg barS) (Finset.univ.map ⟨SemLoc.dma, fun a b h => by cases h; rfl⟩) := by decide
  rw [h, bigSep_insert (by decide), bigSep_map]
  rfl

theorem bigSep_fin23 (Φ : DmaSem sig → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11
      ∗ Φ 12 ∗ Φ 13 ∗ Φ 14 ∗ Φ 15 ∗ Φ 16 ∗ Φ 17 ∗ Φ 18 ∗ Φ 19 ∗ Φ 20 ∗ Φ 21 ∗ Φ 22) :=
  bigSep_univ_eq_bigSepL [0, 1, 2, 3, 4, 5, 6, 7, 8, 9, 10, 11, 12, 13, 14, 15, 16, 17, 18, 19, 20, 21, 22] (by decide) (by decide) Φ

theorem OR_pos' {c : Dev nD} {n : ℕ} (g : GSem nD τ sig) (u : Unit) (h : 0 < OR c n g u) : IsBarOrRecv g :=
  ⟨(OR_pos h).1, .inr (OR_pos h).2⟩

theorem hz : (![0, 0] : Fin 2 → Nat) = fun _ => 0 := funext fun a => by fin_cases a <;> rfl

theorem mayWait_zero (c : Dev nD) (sm : SemLoc sig) : (levAts L lv : sProp 𝕄) ⊢ MayWait (c : Thread nD τ) sm () 0 := by
  rw [MayWait_zero]; iintro -; iempintro

/-- What the own columns' buffer holds once rounded: the rounded own columns. -/
theorem own_rounded (c : Dev nD) (go : Buf (Elt F) (ofM.view.loc (c : Thread nD τ))) (f3 : Buf (Elt F) ((c : Thread nD τ).loc cc0_scratch3))
    (hgo : ofM.view.read (Elt F) go = xcol m c c) :
    obM.view.read (Elt F) ((obM.access r0).write (Elt F) f3 (k0_pay8 ((ofM.access r0).read (Elt F) go)) Finset.univ) = pay (xcol m c c) := by
  have hr : (ofM.access r0).read (Elt F) go = xcol m c c :=
    (Memref.read_access_unit_zero (Elt F) cc0_scratch2 hz _ go).trans hgo
  have hw : (obM.access r0).write (Elt F) f3 (k0_pay8 ((ofM.access r0).read (Elt F) go)) Finset.univ = k0_pay8 ((ofM.access r0).read (Elt F) go) :=
    Memref.write_access_unit_zero_univ (Elt F) cc0_scratch3 hz _ f3 _
  rw [hw, hr]
  rfl

/-- What a device owes, at some recorded waits within the bound, as the pipeline holds it. -/
theorem owes_within (c : Dev nD) (O : CellTallies nD τ sig Unit) (W : Waits sig Unit) (B : Set (SemLoc sig × Unit)) (hB : (↑W : Set (SemLoc sig × Unit)) ⊆ B) :
    (owes (c : Thread nD τ) O W : sProp 𝕄) ⊢ Pipeline.owesWithin c O B := by
  unfold Pipeline.owesWithin
  iintro H
  iexists W
  isplitr; · ipureintro; exact hB
  iexact H

def bodyPre (K : Dev nD × SemLoc sig → ℕ) (c : Dev nD) : sProp 𝕄 :=
  iprop(ghost m K c ∗ cred (tallyAt (barCell c) () 7) ∗ (bigSep Finset.univ fun f : Fin 7 => cred (tallyAt (recvCell c f) () N16)) ∗ levAts L lv
    ∗ (((c : Thread nD τ).loc main_arg0) ↦{fullShare} X m c) ∗ (((c : Thread nD τ).loc main_v1) ↦{fullShare} m ((c : Thread nD τ).loc main_v1)) ∗ scr c
    ∗ (dats m 0 c).owesAt () t0_0.castSucc)

def bodyPost (c : Dev nD) : sProp 𝕄 := iprop(Φ₁ m c ∗ (dats m 0 c).owesAt () t0_0.succ)

set_option maxRecDepth 65536 in
set_option maxHeartbeats 6400000 in
theorem sound_body (hG : GeomFacts m) (K : Dev nD × SemLoc sig → ℕ) (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  iintro ⟨Hpre, Hk⟩
  unfold bodyPre ghost linear payToks ownToks scr
  rw [bigSep_semLoc, bigSep_fin23, bigSep_fin7, bigSep_fin7, bigSep_fin7, bigSep_fin8, bigSep_fin7]
  icases Hpre with ⟨⟨#HI, ⟨HaB, Ha0, Ha1, Ha2, Ha3, Ha4, Ha5, Ha6, Ha7, Ha8, Ha9, Ha10, Ha11, Ha12, Ha13, Ha14, Ha15, Ha16, Ha17, Ha18, Ha19, Ha20, Ha21, Ha22⟩,
      ⟨HtB0, HtB1, HtB2, HtB3, HtB4, HtB5, HtB6⟩, ⟨HtR0, HtR1, HtR2, HtR3, HtR4, HtR5, HtR6⟩,
      ⟨HtS0, HtS1, HtS2, HtS3, HtS4, HtS5, HtS6, HtS7⟩, ⟨HtD0, HtD1, HtD2, HtD3, HtD4, HtD5, HtD6⟩, HtO⟩,
    HcB, ⟨HcR0, HcR1, HcR2, HcR3, HcR4, HcR5, HcR6⟩, #Hlev, Hx, Hout, ⟨⟨%f0, Hs0⟩, ⟨%f1, Hs1⟩, ⟨%f2, Hs2⟩, ⟨%f3, Hs3⟩⟩, Ho⟩
  ihave Hx' := (x_split7 m hG c) $$ Hx
  icases Hx' with ⟨Hxr, ⟨⟨Hxt0, Hxo0⟩, ⟨Hxt1, Hxo1⟩, ⟨Hxt2, Hxo2⟩, ⟨Hxt3, Hxo3⟩, ⟨Hxt4, Hxo4⟩, ⟨Hxt5, Hxo5⟩, ⟨Hxt6, Hxo6⟩⟩, HxtO, HxoO⟩
  ihave Hf' := (f_split7 m hG c f0) $$ Hs0
  icases Hf' with ⟨Hf0, Hf1, Hf2, Hf3, Hf4, Hf5, Hf6⟩
  ihave Hb' := (b_split7 m hG c f1) $$ Hs1
  icases Hb' with ⟨Hb0, Hb1, Hb2, Hb3, Hb4, Hb5, Hb6⟩
  ihave Ho' := (out_split8 m hG c _) $$ Hout
  icases Ho' with ⟨Hoc, Ho0, Ho1, Ho2, Ho3, Ho4, Ho5, Ho6⟩
  -- the eight staging copies are issued
  iapply (wp_stage m K c hG 0) $$ [Hxt0 Hf0 HtS0]
  · isplitr; · iexact HI
    isplitl [Hxt0]; · iexact Hxt0
    isplitl [Hf0]; · iexact Hf0
    iexact HtS0
  iintro HcS0
  iapply (wp_stage m K c hG 1) $$ [Hxt1 Hf1 HtS1]
  · isplitr; · iexact HI
    isplitl [Hxt1]; · iexact Hxt1
    isplitl [Hf1]; · iexact Hf1
    iexact HtS1
  iintro HcS1
  iapply (wp_stage m K c hG 2) $$ [Hxt2 Hf2 HtS2]
  · isplitr; · iexact HI
    isplitl [Hxt2]; · iexact Hxt2
    isplitl [Hf2]; · iexact Hf2
    iexact HtS2
  iintro HcS2
  iapply (wp_stage m K c hG 3) $$ [Hxt3 Hf3 HtS3]
  · isplitr; · iexact HI
    isplitl [Hxt3]; · iexact Hxt3
    isplitl [Hf3]; · iexact Hf3
    iexact HtS3
  iintro HcS3
  iapply (wp_stage m K c hG 4) $$ [Hxt4 Hf4 HtS4]
  · isplitr; · iexact HI
    isplitl [Hxt4]; · iexact Hxt4
    isplitl [Hf4]; · iexact Hf4
    iexact HtS4
  iintro HcS4
  iapply (wp_stage m K c hG 5) $$ [Hxt5 Hf5 HtS5]
  · isplitr; · iexact HI
    isplitl [Hxt5]; · iexact Hxt5
    isplitl [Hf5]; · iexact Hf5
    iexact HtS5
  iintro HcS5
  iapply (wp_stage m K c hG 6) $$ [Hxt6 Hf6 HtS6]
  · isplitr; · iexact HI
    isplitl [Hxt6]; · iexact Hxt6
    isplitl [Hf6]; · iexact Hf6
    iexact HtS6
  iintro HcS6
  iapply (wp_stage_own m K c hG f2) $$ [HxtO Hs2 HtS7]
  · isplitr; · iexact HI
    isplitl [HxtO]; · iexact HxtO
    isplitl [Hs2]; · iexact Hs2
    iexact HtS7
  iintro HcS7
  -- what the device owes, named; the seven entry signals
  unfold Dat.owesAt Pipeline.owesWithin
  icases Ho with ⟨%W, %hW, HO⟩
  rw [show (dats m 0 c).owed t0_0.castSucc = OB c 7 from rfl]
  iapply (wp_sig m K c 0 (OB c 6) W) $$ [HO HtB0 Ho0]
  · isplitr; · iexact HI
    isplitl [HO]; · iexact HO
    isplitl [HtB0]; · iexact HtB0
    iexact Ho0
  iintro HO
  iapply (wp_sig m K c 1 (OB c 5) W) $$ [HO HtB1 Ho1]
  · isplitr; · iexact HI
    isplitl [HO]; · iexact HO
    isplitl [HtB1]; · iexact HtB1
    iexact Ho1
  iintro HO
  iapply (wp_sig m K c 2 (OB c 4) W) $$ [HO HtB2 Ho2]
  · isplitr; · iexact HI
    isplitl [HO]; · iexact HO
    isplitl [HtB2]; · iexact HtB2
    iexact Ho2
  iintro HO
  iapply (wp_sig m K c 3 (OB c 3) W) $$ [HO HtB3 Ho3]
  · isplitr; · iexact HI
    isplitl [HO]; · iexact HO
    isplitl [HtB3]; · iexact HtB3
    iexact Ho3
  iintro HO
  iapply (wp_sig m K c 4 (OB c 2) W) $$ [HO HtB4 Ho4]
  · isplitr; · iexact HI
    isplitl [HO]; · iexact HO
    isplitl [HtB4]; · iexact HtB4
    iexact Ho4
  iintro HO
  iapply (wp_sig m K c 5 (OB c 1) W) $$ [HO HtB5 Ho5]
  · isplitr; · iexact HI
    isplitl [HO]; · iexact HO
    isplitl [HtB5]; · iexact HtB5
    iexact Ho5
  iintro HO
  iapply (wp_sig m K c 6 (OB c 0) W) $$ [HO HtB6 Ho6]
  · isplitr; · iexact HI
    isplitl [HO]; · iexact HO
    isplitl [HtB6]; · iexact HtB6
    iexact Ho6
  iintro HO
  -- the wait for the seven signals in: each peer's rows block c comes with it
  iapply (wp_bar_wait m K c (OR c 7) W (fun g u h => OR_pos h)) $$ [HcB HO HaB]
  · isplitr; · iexact HI
    isplitr; · iexact Hlev
    isplitl [HcB]; · iexact HcB
    isplitl [HO]; · iexact HO
    iexact HaB
  iintro ⟨HO, HaB, Hd0, Hd1, Hd2, Hd3, Hd4, Hd5, Hd6⟩
  -- slot 0: its staged columns are in; rounded; sent into the peer's result
  iapply (wp_wait_cell m K c (stageS 0) (OR c 7) _ (mayWait_low c (stageS 0) (by decide) _ OR_pos') (src := xS c 0) (dst := fS 0) rfl) $$ [HcS0 HO Ha0]
  · isplitr; · iexact HI
    isplitr; · iexact Hlev
    isplitl [HcS0]; · iexact HcS0
    isplitl [HO]; · iexact HO
    iexact Ha0
  iintro ⟨HO, Ha0, Hp⟩
  ihave Hp' := (Entails.of_eq (show (Rd (F := F) m).payload (cell c (.dma (stageS 0))) 0 0 = stagePay m c 0 from payload_stage m c 0 0)) $$ Hp
  unfold stagePay
  icases Hp' with ⟨⟨%g0, %hg0, Hf0⟩, Hxt0⟩
  iapply (wp_load_f (c := c) (f := 0) (g := g0)) $$ Hf0; iintro Hf0
  icases Hb0 with ⟨%gb0, Hb0⟩
  iapply (wp_load_b (c := c) (f := 0) (g := gb0)) $$ Hb0; iintro Hb0
  iapply (wp_store_b (c := c) (f := 0) (g := gb0)) $$ Hb0; iintro Hb0
  iapply (wp_send_slot m K c hG 0 (OR c 6) _ _ ((View.read_write_univ gb0 _).trans (congrArg pay hg0))) $$ [Hb0 Hd0 HO HtD0 HtR0]
  · isplitr; · iexact HI
    isplitl [Hb0]; · iexact Hb0
    isplitl [Hd0]; · iexact Hd0
    isplitl [HO]; · iexact HO
    isplitl [HtD0]; · iexact HtD0
    iexact HtR0
  iintro ⟨HcD0, HO⟩
  -- slot 1: its staged columns are in; rounded; sent into the peer's result
  iapply (wp_wait_cell m K c (stageS 1) (OR c 6) _ (mayWait_low c (stageS 1) (by decide) _ OR_pos') (src := xS c 1) (dst := fS 1) rfl) $$ [HcS1 HO Ha1]
  · isplitr; · iexact HI
    isplitr; · iexact Hlev
    isplitl [HcS1]; · iexact HcS1
    isplitl [HO]; · iexact HO
    iexact Ha1
  iintro ⟨HO, Ha1, Hp⟩
  ihave Hp' := (Entails.of_eq (show (Rd (F := F) m).payload (cell c (.dma (stageS 1))) 0 0 = stagePay m c 1 from payload_stage m c 1 0)) $$ Hp
  unfold stagePay
  icases Hp' with ⟨⟨%g1, %hg1, Hf1⟩, Hxt1⟩
  iapply (wp_load_f (c := c) (f := 1) (g := g1)) $$ Hf1; iintro Hf1
  icases Hb1 with ⟨%gb1, Hb1⟩
  iapply (wp_load_b (c := c) (f := 1) (g := gb1)) $$ Hb1; iintro Hb1
  iapply (wp_store_b (c := c) (f := 1) (g := gb1)) $$ Hb1; iintro Hb1
  iapply (wp_send_slot m K c hG 1 (OR c 5) _ _ ((View.read_write_univ gb1 _).trans (congrArg pay hg1))) $$ [Hb1 Hd1 HO HtD1 HtR1]
  · isplitr; · iexact HI
    isplitl [Hb1]; · iexact Hb1
    isplitl [Hd1]; · iexact Hd1
    isplitl [HO]; · iexact HO
    isplitl [HtD1]; · iexact HtD1
    iexact HtR1
  iintro ⟨HcD1, HO⟩
  -- slot 2: its staged columns are in; rounded; sent into the peer's result
  iapply (wp_wait_cell m K c (stageS 2) (OR c 5) _ (mayWait_low c (stageS 2) (by decide) _ OR_pos') (src := xS c 2) (dst := fS 2) rfl) $$ [HcS2 HO Ha2]
  · isplitr; · iexact HI
    isplitr; · iexact Hlev
    isplitl [HcS2]; · iexact HcS2
    isplitl [HO]; · iexact HO
    iexact Ha2
  iintro ⟨HO, Ha2, Hp⟩
  ihave Hp' := (Entails.of_eq (show (Rd (F := F) m).payload (cell c (.dma (stageS 2))) 0 0 = stagePay m c 2 from payload_stage m c 2 0)) $$ Hp
  unfold stagePay
  icases Hp' with ⟨⟨%g2, %hg2, Hf2⟩, Hxt2⟩
  iapply (wp_load_f (c := c) (f := 2) (g := g2)) $$ Hf2; iintro Hf2
  icases Hb2 with ⟨%gb2, Hb2⟩
  iapply (wp_load_b (c := c) (f := 2) (g := gb2)) $$ Hb2; iintro Hb2
  iapply (wp_store_b (c := c) (f := 2) (g := gb2)) $$ Hb2; iintro Hb2
  iapply (wp_send_slot m K c hG 2 (OR c 4) _ _ ((View.read_write_univ gb2 _).trans (congrArg pay hg2))) $$ [Hb2 Hd2 HO HtD2 HtR2]
  · isplitr; · iexact HI
    isplitl [Hb2]; · iexact Hb2
    isplitl [Hd2]; · iexact Hd2
    isplitl [HO]; · iexact HO
    isplitl [HtD2]; · iexact HtD2
    iexact HtR2
  iintro ⟨HcD2, HO⟩
  -- slot 3: its staged columns are in; rounded; sent into the peer's result
  iapply (wp_wait_cell m K c (stageS 3) (OR c 4) _ (mayWait_low c (stageS 3) (by decide) _ OR_pos') (src := xS c 3) (dst := fS 3) rfl) $$ [HcS3 HO Ha3]
  · isplitr; · iexact HI
    isplitr; · iexact Hlev
    isplitl [HcS3]; · iexact HcS3
    isplitl [HO]; · iexact HO
    iexact Ha3
  iintro ⟨HO, Ha3, Hp⟩
  ihave Hp' := (Entails.of_eq (show (Rd (F := F) m).payload (cell c (.dma (stageS 3))) 0 0 = stagePay m c 3 from payload_stage m c 3 0)) $$ Hp
  unfold stagePay
  icases Hp' with ⟨⟨%g3, %hg3, Hf3⟩, Hxt3⟩
  iapply (wp_load_f (c := c) (f := 3) (g := g3)) $$ Hf3; iintro Hf3
  icases Hb3 with ⟨%gb3, Hb3⟩
  iapply (wp_load_b (c := c) (f := 3) (g := gb3)) $$ Hb3; iintro Hb3
  iapply (wp_store_b (c := c) (f := 3) (g := gb3)) $$ Hb3; iintro Hb3
  iapply (wp_send_slot m K c hG 3 (OR c 3) _ _ ((View.read_write_univ gb3 _).trans (congrArg pay hg3))) $$ [Hb3 Hd3 HO HtD3 HtR3]
  · isplitr; · iexact HI
    isplitl [Hb3]; · iexact Hb3
    isplitl [Hd3]; · iexact Hd3
    isplitl [HO]; · iexact HO
    isplitl [HtD3]; · iexact HtD3
    iexact HtR3
  iintro ⟨HcD3, HO⟩
  -- slot 4: its staged columns are in; rounded; sent into the peer's result
  iapply (wp_wait_cell m K c (stageS 4) (OR c 3) _ (mayWait_low c (stageS 4) (by decide) _ OR_pos') (src := xS c 4) (dst := fS 4) rfl) $$ [HcS4 HO Ha4]
  · isplitr; · iexact HI
    isplitr; · iexact Hlev
    isplitl [HcS4]; · iexact HcS4
    isplitl [HO]; · iexact HO
    iexact Ha4
  iintro ⟨HO, Ha4, Hp⟩
  ihave Hp' := (Entails.of_eq (show (Rd (F := F) m).payload (cell c (.dma (stageS 4))) 0 0 = stagePay m c 4 from payload_stage m c 4 0)) $$ Hp
  unfold stagePay
  icases Hp' with ⟨⟨%g4, %hg4, Hf4⟩, Hxt4⟩
  iapply (wp_load_f (c := c) (f := 4) (g := g4)) $$ Hf4; iintro Hf4
  icases Hb4 with ⟨%gb4, Hb4⟩
  iapply (wp_load_b (c := c) (f := 4) (g := gb4)) $$ Hb4; iintro Hb4
  iapply (wp_store_b (c := c) (f := 4) (g := gb4)) $$ Hb4; iintro Hb4
  iapply (wp_send_slot m K c hG 4 (OR c 2) _ _ ((View.read_write_univ gb4 _).trans (congrArg pay hg4))) $$ [Hb4 Hd4 HO HtD4 HtR4]
  · isplitr; · iexact HI
    isplitl [Hb4]; · iexact Hb4
    isplitl [Hd4]; · iexact Hd4
    isplitl [HO]; · iexact HO
    isplitl [HtD4]; · iexact HtD4
    iexact HtR4
  iintro ⟨HcD4, HO⟩
  -- slot 5: its staged columns are in; rounded; sent into the peer's result
  iapply (wp_wait_cell m K c (stageS 5) (OR c 2) _ (mayWait_low c (stageS 5) (by decide) _ OR_pos') (src := xS c 5) (dst := fS 5) rfl) $$ [HcS5 HO Ha5]
  · isplitr; · iexact HI
    isplitr; · iexact Hlev
    isplitl [HcS5]; · iexact HcS5
    isplitl [HO]; · iexact HO
    iexact Ha5
  iintro ⟨HO, Ha5, Hp⟩
  ihave Hp' := (Entails.of_eq (show (Rd (F := F) m).payload (cell c (.dma (stageS 5))) 0 0 = stagePay m c 5 from payload_stage m c 5 0)) $$ Hp
  unfold stagePay
  icases Hp' with ⟨⟨%g5, %hg5, Hf5⟩, Hxt5⟩
  iapply (wp_load_f (c := c) (f := 5) (g := g5)) $$ Hf5; iintro Hf5
  icases Hb5 with ⟨%gb5, Hb5⟩
  iapply (wp_load_b (c := c) (f := 5) (g := gb5)) $$ Hb5; iintro Hb5
  iapply (wp_store_b (c := c) (f := 5) (g := gb5)) $$ Hb5; iintro Hb5
  iapply (wp_send_slot m K c hG 5 (OR c 1) _ _ ((View.read_write_univ gb5 _).trans (congrArg pay hg5))) $$ [Hb5 Hd5 HO HtD5 HtR5]
  · isplitr; · iexact HI
    isplitl [Hb5]; · iexact Hb5
    isplitl [Hd5]; · iexact Hd5
    isplitl [HO]; · iexact HO
    isplitl [HtD5]; · iexact HtD5
    iexact HtR5
  iintro ⟨HcD5, HO⟩
  -- slot 6: its staged columns are in; rounded; sent into the peer's result
  iapply (wp_wait_cell m K c (stageS 6) (OR c 1) _ (mayWait_low c (stageS 6) (by decide) _ OR_pos') (src := xS c 6) (dst := fS 6) rfl) $$ [HcS6 HO Ha6]
  · isplitr; · iexact HI
    isplitr; · iexact Hlev
    isplitl [HcS6]; · iexact HcS6
    isplitl [HO]; · iexact HO
    iexact Ha6
  iintro ⟨HO, Ha6, Hp⟩
  ihave Hp' := (Entails.of_eq (show (Rd (F := F) m).payload (cell c (.dma (stageS 6))) 0 0 = stagePay m c 6 from payload_stage m c 6 0)) $$ Hp
  unfold stagePay
  icases Hp' with ⟨⟨%g6, %hg6, Hf6⟩, Hxt6⟩
  iapply (wp_load_f (c := c) (f := 6) (g := g6)) $$ Hf6; iintro Hf6
  icases Hb6 with ⟨%gb6, Hb6⟩
  iapply (wp_load_b (c := c) (f := 6) (g := gb6)) $$ Hb6; iintro Hb6
  iapply (wp_store_b (c := c) (f := 6) (g := gb6)) $$ Hb6; iintro Hb6
  iapply (wp_send_slot m K c hG 6 (OR c 0) _ _ ((View.read_write_univ gb6 _).trans (congrArg pay hg6))) $$ [Hb6 Hd6 HO HtD6 HtR6]
  · isplitr; · iexact HI
    isplitl [Hb6]; · iexact Hb6
    isplitl [Hd6]; · iexact Hd6
    isplitl [HO]; · iexact HO
    isplitl [HtD6]; · iexact HtD6
    iexact HtR6
  iintro ⟨HcD6, HO⟩
  -- the own columns: staged, rounded, copied into the device's own rows block
  iapply (wp_wait_cell m K c (stageS 7) (OR c 0) _ (mayWait_low c (stageS 7) (by decide) _ OR_pos') (src := xO c) (dst := ofM) rfl) $$ [HcS7 HO Ha7]
  · isplitr; · iexact HI
    isplitr; · iexact Hlev
    isplitl [HcS7]; · iexact HcS7
    isplitl [HO]; · iexact HO
    iexact Ha7
  iintro ⟨HO, Ha7, Hp⟩
  ihave Hp' := (Entails.of_eq (show (Rd (F := F) m).payload (cell c (.dma (stageS 7))) 0 0 = ownStagePay m c from payload_ownstage m c 0)) $$ Hp
  unfold ownStagePay
  icases Hp' with ⟨⟨%go, %hgo, Hof⟩, HxtO⟩
  iapply (wp_load_of (c := c) (g := go)) $$ Hof; iintro Hof
  iapply (wp_load_ob (c := c) (g := f3)) $$ Hs3; iintro Hs3
  iapply (wp_store_ob (c := c) (g := f3)) $$ Hs3; iintro Hs3
  iapply (wp_own_copy m K c hG _ (own_rounded m c go f3 hgo)) $$ [Hs3 Hoc HtO]
  · isplitr; · iexact HI
    isplitl [Hs3]; · iexact Hs3
    isplitl [Hoc]; · iexact Hoc
    iexact HtO
  iintro HcO
  -- the waits: the seven departures (each rounded slice back), the own copy, the seven arrivals (each rows block at its final contents)
  iapply (wp_wait_cell m K c (sendS 0) 0 _ (mayWait_zero c _) (src := oS c) (dst := bS 0) ((amount_send m c 0 0).symm)) $$ [HcD0 HO Ha8]
  · isplitr; · iexact HI
    isplitr; · iexact Hlev
    isplitl [HcD0]; · iexact HcD0
    isplitl [HO]; · iexact HO
    iexact Ha8
  iintro ⟨HO, Ha8, Hp⟩
  ihave Hb0 := (Entails.of_eq (payload_send m c 0 0)) $$ Hp
  iapply (wp_wait_cell m K c (sendS 1) 0 _ (mayWait_zero c _) (src := oS c) (dst := bS 1) ((amount_send m c 1 0).symm)) $$ [HcD1 HO Ha9]
  · isplitr; · iexact HI
    isplitr; · iexact Hlev
    isplitl [HcD1]; · iexact HcD1
    isplitl [HO]; · iexact HO
    iexact Ha9
  iintro ⟨HO, Ha9, Hp⟩
  ihave Hb1 := (Entails.of_eq (payload_send m c 1 0)) $$ Hp
  iapply (wp_wait_cell m K c (sendS 2) 0 _ (mayWait_zero c _) (src := oS c) (dst := bS 2) ((amount_send m c 2 0).symm)) $$ [HcD2 HO Ha10]
  · isplitr; · iexact HI
    isplitr; · iexact Hlev
    isplitl [HcD2]; · iexact HcD2
    isplitl [HO]; · iexact HO
    iexact Ha10
  iintro ⟨HO, Ha10, Hp⟩
  ihave Hb2 := (Entails.of_eq (payload_send m c 2 0)) $$ Hp
  iapply (wp_wait_cell m K c (sendS 3) 0 _ (mayWait_zero c _) (src := oS c) (dst := bS 3) ((amount_send m c 3 0).symm)) $$ [HcD3 HO Ha11]
  · isplitr; · iexact HI
    isplitr; · iexact Hlev
    isplitl [HcD3]; · iexact HcD3
    isplitl [HO]; · iexact HO
    iexact Ha11
  iintro ⟨HO, Ha11, Hp⟩
  ihave Hb3 := (Entails.of_eq (payload_send m c 3 0)) $$ Hp
  iapply (wp_wait_cell m K c (sendS 4) 0 _ (mayWait_zero c _) (src := oS c) (dst := bS 4) ((amount_send m c 4 0).symm)) $$ [HcD4 HO Ha12]
  · isplitr; · iexact HI
    isplitr; · iexact Hlev
    isplitl [HcD4]; · iexact HcD4
    isplitl [HO]; · iexact HO
    iexact Ha12
  iintro ⟨HO, Ha12, Hp⟩
  ihave Hb4 := (Entails.of_eq (payload_send m c 4 0)) $$ Hp
  iapply (wp_wait_cell m K c (sendS 5) 0 _ (mayWait_zero c _) (src := oS c) (dst := bS 5) ((amount_send m c 5 0).symm)) $$ [HcD5 HO Ha13]
  · isplitr; · iexact HI
    isplitr; · iexact Hlev
    isplitl [HcD5]; · iexact HcD5
    isplitl [HO]; · iexact HO
    iexact Ha13
  iintro ⟨HO, Ha13, Hp⟩
  ihave Hb5 := (Entails.of_eq (payload_send m c 5 0)) $$ Hp
  iapply (wp_wait_cell m K c (sendS 6) 0 _ (mayWait_zero c _) (src := oS c) (dst := bS 6) ((amount_send m c 6 0).symm)) $$ [HcD6 HO Ha14]
  · isplitr; · iexact HI
    isplitr; · iexact Hlev
    isplitl [HcD6]; · iexact HcD6
    isplitl [HO]; · iexact HO
    iexact Ha14
  iintro ⟨HO, Ha14, Hp⟩
  ihave Hb6 := (Entails.of_eq (payload_send m c 6 0)) $$ Hp
  unfold sendPay
  iapply (wp_wait_cell m K c outS 0 _ (mayWait_zero c _) (src := obM) (dst := oS c) ((amount_out m c 0).symm)) $$ [HcO HO Ha22]
  · isplitr; · iexact HI
    isplitr; · iexact Hlev
    isplitl [HcO]; · iexact HcO
    isplitl [HO]; · iexact HO
    iexact Ha22
  iintro ⟨HO, Ha22, Hp⟩
  ihave Hp' := (Entails.of_eq (payload_out m c 0)) $$ Hp
  unfold outPay
  icases Hp' with ⟨Hoc, Hs3⟩
  iapply (wp_wait_cell m K c (recvS 0) 0 _ (mayWait_zero c _) (src := bS 0) (dst := oS c) ((amount_recv m c 0 0).symm)) $$ [HcR0 HO Ha15]
  · isplitr; · iexact HI
    isplitr; · iexact Hlev
    isplitl [HcR0]; · iexact HcR0
    isplitl [HO]; · iexact HO
    iexact Ha15
  iintro ⟨HO, Ha15, Hp⟩
  ihave Hr0 := (Entails.of_eq (payload_recv m c 0 0)) $$ Hp
  iapply (wp_wait_cell m K c (recvS 1) 0 _ (mayWait_zero c _) (src := bS 1) (dst := oS c) ((amount_recv m c 1 0).symm)) $$ [HcR1 HO Ha16]
  · isplitr; · iexact HI
    isplitr; · iexact Hlev
    isplitl [HcR1]; · iexact HcR1
    isplitl [HO]; · iexact HO
    iexact Ha16
  iintro ⟨HO, Ha16, Hp⟩
  ihave Hr1 := (Entails.of_eq (payload_recv m c 1 0)) $$ Hp
  iapply (wp_wait_cell m K c (recvS 2) 0 _ (mayWait_zero c _) (src := bS 2) (dst := oS c) ((amount_recv m c 2 0).symm)) $$ [HcR2 HO Ha17]
  · isplitr; · iexact HI
    isplitr; · iexact Hlev
    isplitl [HcR2]; · iexact HcR2
    isplitl [HO]; · iexact HO
    iexact Ha17
  iintro ⟨HO, Ha17, Hp⟩
  ihave Hr2 := (Entails.of_eq (payload_recv m c 2 0)) $$ Hp
  iapply (wp_wait_cell m K c (recvS 3) 0 _ (mayWait_zero c _) (src := bS 3) (dst := oS c) ((amount_recv m c 3 0).symm)) $$ [HcR3 HO Ha18]
  · isplitr; · iexact HI
    isplitr; · iexact Hlev
    isplitl [HcR3]; · iexact HcR3
    isplitl [HO]; · iexact HO
    iexact Ha18
  iintro ⟨HO, Ha18, Hp⟩
  ihave Hr3 := (Entails.of_eq (payload_recv m c 3 0)) $$ Hp
  iapply (wp_wait_cell m K c (recvS 4) 0 _ (mayWait_zero c _) (src := bS 4) (dst := oS c) ((amount_recv m c 4 0).symm)) $$ [HcR4 HO Ha19]
  · isplitr; · iexact HI
    isplitr; · iexact Hlev
    isplitl [HcR4]; · iexact HcR4
    isplitl [HO]; · iexact HO
    iexact Ha19
  iintro ⟨HO, Ha19, Hp⟩
  ihave Hr4 := (Entails.of_eq (payload_recv m c 4 0)) $$ Hp
  iapply (wp_wait_cell m K c (recvS 5) 0 _ (mayWait_zero c _) (src := bS 5) (dst := oS c) ((amount_recv m c 5 0).symm)) $$ [HcR5 HO Ha20]
  · isplitr; · iexact HI
    isplitr; · iexact Hlev
    isplitl [HcR5]; · iexact HcR5
    isplitl [HO]; · iexact HO
    iexact Ha20
  iintro ⟨HO, Ha20, Hp⟩
  ihave Hr5 := (Entails.of_eq (payload_recv m c 5 0)) $$ Hp
  iapply (wp_wait_cell m K c (recvS 6) 0 _ (mayWait_zero c _) (src := bS 6) (dst := oS c) ((amount_recv m c 6 0).symm)) $$ [HcR6 HO Ha21]
  · isplitr; · iexact HI
    isplitr; · iexact Hlev
    isplitl [HcR6]; · iexact HcR6
    isplitl [HO]; · iexact HO
    iexact Ha21
  iintro ⟨HO, Ha21, Hp⟩
  ihave Hr6 := (Entails.of_eq (payload_recv m c 6 0)) $$ Hp
  -- the end: every DMA cell closed, every buffer joined again
  rw [wp_ret]
  imod (cells_close m K c) $$ [Ha0 Ha1 Ha2 Ha3 Ha4 Ha5 Ha6 Ha7 Ha8 Ha9 Ha10 Ha11 Ha12 Ha13 Ha14 Ha15 Ha16 Ha17 Ha18 Ha19 Ha20 Ha21 Ha22] with Hz
  · isplitr; · iexact HI
    rw [bigSep_fin23]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [Ha16]; · iexact Ha16
    isplitl [Ha17]; · iexact Ha17
    isplitl [Ha18]; · iexact Ha18
    isplitl [Ha19]; · iexact Ha19
    isplitl [Ha20]; · iexact Ha20
    isplitl [Ha21]; · iexact Ha21
    iexact Ha22
  imodintro
  iapply Hk
  unfold bodyPost Φ₁ Dat.owesAt scr
  rw [show (dats m 0 c).owed t0_0.succ = 0 from rfl]
  isplitr [HO]
  · isplitl [Hxr Hxt0 Hxo0 Hxt1 Hxo1 Hxt2 Hxo2 Hxt3 Hxo3 Hxt4 Hxo4 Hxt5 Hxo5 Hxt6 Hxo6 HxtO HxoO]
    · iapply (x_join7 m hG c)
      isplitl [Hxr]; · iexact Hxr
      isplitr [HxtO HxoO]
      · isplitl [Hxt0 Hxo0]; · (isplitl [Hxt0]; · iexact Hxt0
                                iexact Hxo0)
        isplitl [Hxt1 Hxo1]; · (isplitl [Hxt1]; · iexact Hxt1
                                iexact Hxo1)
        isplitl [Hxt2 Hxo2]; · (isplitl [Hxt2]; · iexact Hxt2
                                iexact Hxo2)
        isplitl [Hxt3 Hxo3]; · (isplitl [Hxt3]; · iexact Hxt3
                                iexact Hxo3)
        isplitl [Hxt4 Hxo4]; · (isplitl [Hxt4]; · iexact Hxt4
                                iexact Hxo4)
        isplitl [Hxt5 Hxo5]; · (isplitl [Hxt5]; · iexact Hxt5
                                iexact Hxo5)
        isplitl [Hxt6]; · iexact Hxt6
        iexact Hxo6
      · isplitl [HxtO]; · iexact HxtO
        iexact HxoO
    isplitl [Hoc Hr0 Hr1 Hr2 Hr3 Hr4 Hr5 Hr6]
    · iapply (out_join8 m hG c)
      isplitl [Hoc]; · iexact Hoc
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      iexact Hr6
    isplitr [Hz]
    · isplitl [Hf0 Hf1 Hf2 Hf3 Hf4 Hf5 Hf6]
      · iapply (f_join7 m hG c)
        isplitl [Hf0]; · (iexists _; iexact Hf0)
        isplitl [Hf1]; · (iexists _; iexact Hf1)
        isplitl [Hf2]; · (iexists _; iexact Hf2)
        isplitl [Hf3]; · (iexists _; iexact Hf3)
        isplitl [Hf4]; · (iexists _; iexact Hf4)
        isplitl [Hf5]; · (iexists _; iexact Hf5)
        iexists _; iexact Hf6
      isplitl [Hb0 Hb1 Hb2 Hb3 Hb4 Hb5 Hb6]
      · iapply (b_join7 m hG c)
        isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        iexact Hb6
      isplitl [Hof]
      · iexists _; rw [show (ofM : Memref sig .tc .vmem S2048x512 .f32).view.set = Finset.univ from View.set_whole _]; iexact Hof
      · icases Hs3 with ⟨%g3, Hs3⟩
        iexists _; rw [show (obM : Memref sig .tc .vmem S2048x512 .bf16).view.set = Finset.univ from View.set_whole _]; iexact Hs3
    · iexact Hz
  · iapply (owes_within c _ _ _ (fun _ _ => Or.inl trivial)) $$ HO

/-- The library's body obligation on device `c`: the body's run, with the ghost state's names opened. -/
theorem body_obligation (hG : GeomFacts m) (c : Dev nD) : BodyObligation (dats (F := F) m 0 c) (defs₀ (F := F)) 𝒱₀ () Set.univ := fun t => by
  rw [fin_N0 t]
  simp only [Finset.univ_eq_empty, bigSep_empty]
  show iprop(Φ₀ m c ∗ (dats m 0 c).owesAt () t0_0.castSucc ∗ emp)
    ⊢ wp frame (wpE (defs₀ (F := F)) 𝒱₀ c none) Set.univ (bodyAt0 (F := F) t0_0) (fun _ => iprop(Φ₁ m c ∗ (dats m 0 c).owesAt () t0_0.succ ∗ emp))
  unfold Φ₀ start
  iintro ⟨⟨⟨⟨%K, Hg⟩, HcB, HcR, Hlev⟩, Hx, Hout, Hscr⟩, Ho, -⟩
  iapply (sound_body m hG K c fun _ => iprop(Φ₁ m c ∗ (dats m 0 c).owesAt () t0_0.succ ∗ emp))
  unfold bodyPre bodyPost
  isplitr []
  · isplitl [Hg]; · iexact Hg
    isplitl [HcB]; · iexact HcB
    isplitl [HcR]; · iexact HcR
    isplitl [Hlev]; · iexact Hlev
    isplitl [Hx]; · iexact Hx
    isplitl [Hout]; · iexact Hout
    isplitl [Hscr]; · iexact Hscr
    iexact Ho
  · iintro ⟨H1, H2⟩
    isplitl [H1]; · iexact H1
    isplitl [H2]; · iexact H2
    iempintro

/-- info: 'Cert.KernelIdeal.A2A.Run.body_obligation' depends on axioms: [propext, Classical.choice, Quot.sound] -/
#guard_msgs in #print axioms body_obligation

end Cert.KernelIdeal.A2A.Run

end
-- ==== Proof.KernelIdealA2A.Launch.lean ====
/-
  The launch of the exchange: from a proof of every device's body to the run of @main.

  The launch mints one rounds cell per semaphore of every device (the barrier semaphore and the 23 DMA semaphores) and
  one token per duty, each token minted with the device that pays it: device `c` pays its own duty on the barrier cell
  of each other device, the arrival duty of each of its seven transfers on the receiving device's cell, and the duties
  on its own staging, send and own-copy cells. One global step allocates every cell's invariant for all devices at
  once (the barrier cells are shared), after which each device holds the whole persistent record of invariants and
  round marks together with its own positions and tokens.

  The credit a device's cells are owed at launch is counted from what every device owes: a barrier cell is signalled
  once by each of the seven other devices, and slot `f`'s receive cell of device `c` is the target of exactly one
  transfer, the one device `peer c f` sends on slot `f`.

  The program has no windows: the input rows and the result buffer are whole unscoped buffers the body holds through
  the invariant, the four scratch buffers the scoped rest; at the end both unscoped buffers are read back against the
  machine's memory.
-/
import proofs.«900616_g7700000000000617_dist_a2a_v7x_i8_i_m2048_n512_bf16_1_alg».proof.Proof.KernelIdealA2A.Tables
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The kernel's own semaphores; the cells and the tokens the launch mints -/

/-- The kernel's own (scoped) semaphores: every DMA semaphore. -/
abbrev osem : DmaSem sig → SemLoc sig := SemLoc.dma

theorem ownSemFacts : Pipeline.OwnSemFacts cfg0.spec osem := by decide

theorem share_eq (c : Dev nD) (w : Fin cfg0.W) : (dats m 0 c).share w = fullShare := w.elim0

/-- Every semaphore of every device is a cell of the schedule. -/
abbrev kcell (ck : Dev nD × SemLoc sig) : GSem nD τ sig := cell ck.1 ck.2

theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  subst h1; subst h2; rfl

def allCells : Finset (GSem nD τ sig) := Finset.univ.map ⟨kcell, kcell_injective⟩

/-- The duties a device pays, by kind: an entry signal (to `bdev c k`), the arrival of a transfer (on `peer c f`),
    a staging copy, the departure of a transfer, the own copy. -/
abbrev TokIx : Type := Fin 7 ⊕ Fin 7 ⊕ Fin 8 ⊕ Fin 7 ⊕ Unit

/-- The token of the duty of kind `x` that device `c` pays: minted with its payer. -/
def tokOf (cx : Dev nD × TokIx) : GSem nD τ sig × ℕ × Dev nD := match cx.2 with
  | .inl k => (barCell (bdev cx.1 k), 0, cx.1)
  | .inr (.inl f) => (recvCell (peer cx.1 f) f, 0, 0)
  | .inr (.inr (.inl f)) => (stageCell cx.1 f, 0, 0)
  | .inr (.inr (.inr (.inl f))) => (sendCell cx.1 f, 0, 0)
  | .inr (.inr (.inr (.inr _))) => (outCell cx.1, 0, 0)

theorem dma_val {a b : DmaSem sig} (h : (SemLoc.dma a : SemLoc sig) = .dma b) : a.val = b.val := congrArg Fin.val (SemLoc.dma.inj h)

theorem tokOf_injective : Function.Injective tokOf := by
  rintro ⟨c, x⟩ ⟨c', x'⟩ h
  have hs : (tokOf (c, x)).1.2 = (tokOf (c', x')).1.2 := congrArg (fun t : GSem nD τ sig × ℕ × Dev nD => t.1.2) h
  have hd : (tokOf (c, x)).1.1.1 = (tokOf (c', x')).1.1.1 := congrArg (fun t : GSem nD τ sig × ℕ × Dev nD => t.1.1.1) h
  have hn : (tokOf (c, x)).2.2 = (tokOf (c', x')).2.2 := congrArg (fun t : GSem nD τ sig × ℕ × Dev nD => t.2.2) h
  rcases x with k | f | f | f | u <;> rcases x' with k' | f' | f' | f' | u' <;> dsimp only [tokOf] at hs hd hn
  · subst hn; have := bdev_injective c hd; subst this; rfl
  · cases hs
  · cases hs
  · cases hs
  · cases hs
  · cases hs
  · have hv := dma_val hs; dsimp only [recvS] at hv
    have hf : f = f' := Fin.ext (by omega)
    subst hf
    have hc : c = c' := by rw [← peer_peer c f, hd, peer_peer]
    subst hc; rfl
  · have hv := dma_val hs; dsimp only [recvS, stageS] at hv; have := f'.isLt; omega
  · have hv := dma_val hs; dsimp only [recvS, sendS] at hv; have := f'.isLt; omega
  · have hv := dma_val hs; dsimp only [recvS, outS] at hv; omega
  · cases hs
  · have hv := dma_val hs; dsimp only [recvS, stageS] at hv; have := f.isLt; omega
  · have hv := dma_val hs; dsimp only [stageS] at hv
    have hf : f = f' := Fin.ext hv
    subst hf; subst hd; rfl
  · have hv := dma_val hs; dsimp only [stageS, sendS] at hv; have := f.isLt; omega
  · have hv := dma_val hs; dsimp only [stageS, outS] at hv; have := f.isLt; omega
  · cases hs
  · have hv := dma_val hs; dsimp only [recvS, sendS] at hv; have := f.isLt; omega
  · have hv := dma_val hs; dsimp only [stageS, sendS] at hv; have := f'.isLt; omega
  · have hv := dma_val hs; dsimp only [sendS] at hv
    have hf : f = f' := Fin.ext (by omega)
    subst hf; subst hd; rfl
  · have hv := dma_val hs; dsimp only [sendS, outS] at hv; have := f.isLt; omega
  · cases hs
  · have hv := dma_val hs; dsimp only [recvS, outS] at hv; omega
  · have hv := dma_val hs; dsimp only [stageS, outS] at hv; have := f'.isLt; omega
  · have hv := dma_val hs; dsimp only [sendS, outS] at hv; have := f'.isLt; omega
  · subst hd; rfl

def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- What the launch element deals device `c`: the round state of each of its cells, its position in each and that
    each is at round 0, and the tokens of the duties it pays. -/
def G (c : Dev nD) : sProp 𝕄 :=
  iprop((bigSep Finset.univ fun sm : SemLoc sig => roundState ER (Rd m) (cell c sm) 0)
    ∗ (bigSep Finset.univ fun sm : SemLoc sig => iprop(atPos ER (cell c sm) 0 ∅ 0 ∗ reached ER (cell c sm) 0)) ∗ payToks c)

/-- What the global step makes of it. -/
def G' (c : Dev nD) : sProp 𝕄 := iprop(∃ K, ghost m K c)

omit [FloatOps F] in
/-- The tokens minted with payer `c` are the tokens `c` pays with. -/
theorem toks_at (c : Dev nD) :
    (bigSep Finset.univ fun x : TokIx => (dutyTok ER (tokOf (c, x)).1 (tokOf (c, x)).2.1 (tokOf (c, x)).2.2 : sProp 𝕄)) = payToks c := by
  unfold payToks ownToks
  rw [bigSep_univ_sum, bigSep_univ_sum, bigSep_univ_sum, bigSep_univ_sum, bigSep_univ_of_subsingleton ()]
  rfl

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun sm : SemLoc sig => Φ (cell c sm) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => toks_at c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the ghost state regrouped per device -/

omit [FloatOps F] in
/-- A device's semaphores are its barrier semaphore and its DMA semaphores. -/
theorem bigSep_semLoc (Φ : SemLoc sig → sProp 𝕄) :
    bigSep Finset.univ Φ = iprop(Φ (.reg barS) ∗ bigSep Finset.univ fun j : DmaSem sig => Φ (.dma j)) := by
  haveI : Subsingleton (Sem sig) := ⟨by decide⟩
  rw [bigSep_univ_equiv (SemLoc.equivSum sig).symm Φ, bigSep_univ_sum, bigSep_univ_of_subsingleton barS]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (cell c sm) 0 : sProp 𝕄) := by
  rw [unscopedSems0_eq, bigSep_semLoc]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (cell c sm)))
          ∗ (bigSep Finset.univ fun sm : SemLoc sig => iprop(atPos ER (cell c sm) 0 ∅ 0 ∗ reached ER (cell c sm) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (cell c sm) 0) ∗ bigSep Finset.univ fun sm : SemLoc sig => roundState ER (Rd m) (cell c sm) 0)
      ⊢ (|={Set.univ}=> bigSep Finset.univ fun sm : SemLoc sig => iprop(∃ κ : ℕ, cellInv ER (Rd m) κ (cell c sm)) : sProp 𝕄) from by
        rw [← bigSep_sep']
        exact (bigSep_mono fun sm _ => (Rounds.body_intro ER (Rd m) (cell c sm)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (Rd m) κ (cell c sm)))
          ∗ (bigSep Finset.univ fun sm : SemLoc sig => iprop(atPos ER (cell c sm) 0 ∅ 0 ∗ reached ER (cell c sm) 0)) ∗ payToks c) : sProp 𝕄)
      ⊢ bigSep Finset.univ (G' m) := by
  rw [bigSep_sep', bigSep_sep', ← bigSep_univ_prod (fun ck : Dev nD × SemLoc sig => iprop(∃ κ : ℕ, cellInv ER (Rd m) κ (cell ck.1 ck.2))),
    bigSep_congr (s := Finset.univ) (fun (c : Dev nD) _ => bigSep_sep' Finset.univ (fun sm : SemLoc sig => (atPos ER (cell c sm) 0 ∅ 0 : sProp 𝕄)) (fun sm => reached ER (cell c sm) 0)),
    bigSep_sep', ← bigSep_univ_prod (fun ck : Dev nD × SemLoc sig => (reached ER (cell ck.1 ck.2) 0 : sProp 𝕄))]
  iintro ⟨HI, ⟨Hat, #HR⟩, Htok⟩
  ihave HK := (BI.bigSep_exists_pi Finset.univ (fun (ck : Dev nD × SemLoc sig) (κ : ℕ) => (cellInv ER (Rd m) κ (cell ck.1 ck.2) : sProp 𝕄))) $$ HI
  icases HK with ⟨%K, #HI⟩
  iapply (bigSep_with_persistent (R := records m K) fun c _ => show iprop(records m K ∗ linear c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun sm : SemLoc sig => (atPos ER (cell c sm) 0 ∅ 0 : sProp 𝕄)) payToks).symm).trans
      (bigSep_mono fun c _ => show _ ⊢ linear c from Entails.of_eq (by unfold linear; rfl)))
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩

omit [FloatOps F] in
theorem recv_eq_iff {a b : Dev nD} {f g : Fin 7} : Iff (recvCell a f = recvCell b g) (a = b ∧ f = g) :=
  ⟨fun h => ⟨Fin.ext (congrArg (fun g : GSem nD τ sig => g.1.1.val) h), Fin.ext (by
      have hv := dma_val (congrArg Prod.snd h); dsimp only [recvS] at hv; omega)⟩,
    fun h => by rw [h.1, h.2]⟩

omit [FloatOps F] in
theorem dma_ne_bar (a b : Dev nD) (j : DmaSem sig) : cell a (.dma j) ≠ barCell b := fun h => by
  have := congrArg Prod.snd h; cases this

omit [FloatOps F] in
/-- No receive credit is owed to a barrier cell. -/
theorem OR_bar (d : Dev nD) (n : ℕ) (c : Dev nD) : OR d n (barCell c) () = 0 := by
  induction n with
  | zero => rfl
  | succ n ih => rw [OR, Pi.add_apply, Finsupp.add_apply, ih, tallyAt_ne_cell (dma_ne_bar _ _ _).symm, Finsupp.zero_apply, Nat.add_zero]

omit [FloatOps F] in
/-- What device `d` owes device `c`'s barrier cell with `n` signals to come: a unit per signal addressed to `c`. -/
theorem OB_bar (d : Dev nD) (n : ℕ) (c : Dev nD) :
    OB d n (barCell c) () = ∑ i ∈ Finset.range n, if bdev d (slotN i) = c then 1 else 0 := by
  induction n with
  | zero => rw [OB, OR_bar, Finset.range_zero, Finset.sum_empty]
  | succ n ih =>
    rw [OB, Pi.add_apply, Finsupp.add_apply, ih, Finset.sum_range_succ, tallyAt_apply]
    congr 1
    exact if_congr ⟨fun h => (bar_eq_iff.mp h.1).symm, fun h => ⟨h ▸ rfl, rfl⟩⟩ rfl rfl

omit [FloatOps F] in
/-- What device `d` owes slot `f`'s receive cell of device `c` with `n` transfers to come. -/
theorem OR_recv (d : Dev nD) (n : ℕ) (c : Dev nD) (f : Fin 7) :
    OR d n (recvCell c f) () = ∑ i ∈ Finset.range n, if peer d (slotN i) = c ∧ slotN i = f then N16 else 0 := by
  induction n with
  | zero => rw [Finset.range_zero, Finset.sum_empty]; rfl
  | succ n ih =>
    rw [OR, Pi.add_apply, Finsupp.add_apply, ih, Finset.sum_range_succ, tallyAt_apply]
    congr 1
    exact if_congr ⟨fun h => ⟨(recv_eq_iff.mp h.1).1.symm, (recv_eq_iff.mp h.1).2.symm⟩, fun h => ⟨by rw [h.1, h.2], rfl⟩⟩ rfl rfl

omit [FloatOps F] in
theorem OB_recv (d : Dev nD) (n : ℕ) (c : Dev nD) (f : Fin 7) : OB d n (recvCell c f) () = OR d 7 (recvCell c f) () := by
  induction n with
  | zero => rfl
  | succ n ih => rw [OB, Pi.add_apply, Finsupp.add_apply, ih, tallyAt_ne_cell (dma_ne_bar _ _ _), Finsupp.zero_apply, Nat.add_zero]

/-- Each device's barrier cell is signalled once by each of the seven others. -/
theorem bar_count : ∀ c : Dev nD, (∑ d : Dev nD, ∑ i ∈ Finset.range 7, if bdev d (slotN i) = c then 1 else 0) = 7 := by decide +kernel

/-- Slot `f`'s receive cell of a device is the target of exactly one transfer. -/
theorem recv_count : ∀ (c : Dev nD) (f : Fin 7),
    (∑ d : Dev nD, ∑ i ∈ Finset.range 7, if peer d (slotN i) = c ∧ slotN i = f then 1 else 0) = 1 := by decide +kernel

theorem recv_sum (N : ℕ) (c : Dev nD) (f : Fin 7) :
    (∑ d : Dev nD, ∑ i ∈ Finset.range 7, if peer d (slotN i) = c ∧ slotN i = f then N else 0) = N := by
  have h : ∀ (d : Dev nD) (i : ℕ), (if peer d (slotN i) = c ∧ slotN i = f then N else 0)
      = (if peer d (slotN i) = c ∧ slotN i = f then 1 else 0) * N := fun d i => by split <;> simp
  simp only [h, ← Finset.sum_mul, recv_count, Nat.one_mul]

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => (show O₀ d (barCell c) () = _ from OB_bar d 7 c)]
  exact bar_count c

omit [FloatOps F] in
theorem launch_recv (c : Dev nD) (f : Fin 7) :
    tallyOn (recvCell c f) (launchCredit (Pipeline.owing O₀) 0 (recvCell c f)) = (tallyAt (recvCell c f) () N16 : CellTallies nD τ sig Unit) := by
  unfold tallyAt; refine congrArg _ (Finsupp.ext fun u => ?_); cases u
  rw [Pipeline.launchCredit_owing, Finsupp.single_eq_same,
    Finset.sum_congr rfl fun d _ => (show O₀ d (recvCell c f) () = _ from (OB_recv d 7 c f).trans (OR_recv d 7 c f))]
  exact recv_sum N16 c f

omit [FloatOps F] in
theorem recvLoc_injective : Function.Injective (fun f : Fin 7 => (SemLoc.dma (recvS f) : SemLoc sig)) := fun f g h =>
  Fin.ext (by have hv := dma_val h; dsimp only [recvS] at hv; omega)

omit [FloatOps F] in
theorem creds (c : Dev nD) :
    (Pipeline.launchCred O₀ c : sProp 𝕄)
      ⊢ iprop(cred (tallyAt (barCell c) () 7) ∗ bigSep Finset.univ fun f : Fin 7 => cred (tallyAt (recvCell c f) () N16)) := by
  unfold Pipeline.launchCred
  rw [bigSep_univ_at _ (SemLoc.reg barS), launch_bar]
  refine sep_mono_right ?_
  have hsub : Finset.univ.map ⟨fun f : Fin 7 => (SemLoc.dma (recvS f) : SemLoc sig), recvLoc_injective⟩ ⊆ Finset.univ.erase (SemLoc.reg barS) := fun sm h => by
    obtain ⟨f, -, rfl⟩ := Finset.mem_map.mp h
    exact Finset.mem_erase.mpr ⟨(fun h => by cases h), Finset.mem_univ _⟩
  refine (bigSep_subset hsub).trans ?_
  rw [bigSep_map]
  refine bigSep_mono fun f _ => ?_
  have e : (cred (tallyOn (recvCell c f) (launchCredit (Pipeline.owing O₀) 0 (recvCell c f))) : sProp 𝕄) = cred (tallyAt (recvCell c f) () N16) := by
    rw [launch_recv]
  exact Entails.of_eq e

/-! ## The theorem's side conditions -/

/-- What a device enters the kernel with besides its scratch buffers: the start state and its two unscoped buffers, the
    input rows and the result buffer, at their launch contents. -/
def heldIn (c : Dev nD) : sProp 𝕄 :=
  iprop(start m c ∗ (((c : Thread nD τ).loc main_arg0) ↦{fullShare} X m c) ∗ (((c : Thread nD τ).loc main_v1) ↦{fullShare} m ((c : Thread nD τ).loc main_v1)))

/-- What it leaves with: the input rows as launched, the result at its final contents. -/
def heldOut (c : Dev nD) : sProp 𝕄 :=
  iprop((((c : Thread nD τ).loc main_arg0) ↦{fullShare} X m c) ∗ (((c : Thread nD τ).loc main_v1) ↦{fullShare} outFn m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(heldIn m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold heldIn start G'
  isplitl
  · isplitl [HG H1 HN Hlev]
    · isplitl [HG]; · iexact HG
      isplitl [H1]; · iexact H1
      isplitl [HN]; · iexact HN
      iexact Hlev
    isplitl [Hx]; · iexact Hx
    iexact Ho
  · iempintro

theorem phi0_intro (c : Dev nD) :
    iprop(heldIn m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ heldIn scr
  iintro ⟨⟨Hs, Hx, Ho⟩, -, Hr⟩
  isplitl [Hs]; · iexact Hs
  isplitl [Hx]; · iexact Hx
  isplitl [Ho]; · iexact Ho
  iexact Hr

theorem phi1_exit (c : Dev nD) :
    (dats m 0 c).Φ (Fin.last cfg0.N) ⊢ iprop(heldOut m c ∗ Pipeline.ownSems0 osem c ∗ Pipeline.scopedRest cfg0.spec c) := by
  rw [show (dats m 0 c).Φ (Fin.last cfg0.N) = Φ₁ m c from rfl, scopedRest0_eq]
  unfold Φ₁ heldOut scr Pipeline.ownSems0
  iintro ⟨Hx, Ho, Hr, Hz⟩
  isplitl [Hx Ho]
  · isplitl [Hx] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w _ _ => w.elim0

/-! ## The run -/

def QC : PUnit × MemSt nD τ sig (Elt F) → Prop := fun r => ∀ c : Dev nD,
  r.2.mem ((c : Thread nD τ).loc main_arg0) = X m c ∧ r.2.mem ((c : Thread nD τ).loc main_v1) = outFn m c

set_option maxRecDepth 8000 in
/-- At the compiled mesh of eight devices, for any float values, from any memory with zero counters: every weakly fair
    execution of @main — the eight kernels handshaking on the barrier semaphore, then exchanging their column blocks —
    terminates, and every final state has each device's input rows unchanged and its result buffer holding, row block by
    row block, its column block of every device's rows, rounded. -/
theorem run_main (hbody : ∀ c : Dev nD, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := heldIn m) (Y := heldOut m) (Z := fun _ => iprop(emp))
    (hX := start_intro m ρ) (hin := phi0_intro m) (hout := phi1_exit m)
    (QY := fun c s => s.mem ((c : Thread nD τ).loc main_arg0) = X m c ∧ s.mem ((c : Thread nD τ).loc main_v1) = outFn m c)
    (hY := fun c s' => by
      unfold heldOut
      iintro ⟨⟨Hx, Ho⟩, -, HSI⟩
      icombine HSI Hx gives %hx
      icombine HSI Ho gives %ho
      imodintro
      isplitr; · ipureintro; exact ⟨Buf.eq_of_forall_mem_univ hx, Buf.eq_of_forall_mem_univ ho⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.KernelA2A.Dev.lean ====
/-
  The mesh arithmetic of the eight-device exchange.

  Device `c` talks to each of the other seven devices in two enumerations: the entry
  handshake signals device `c + k + 1 (mod 8)` for `k = 0 … 6` (`bdev`), and slot `f` of the exchange proper
  sends to `peer c f`, the device whose three cube coordinates differ from `c`'s by the slot's mask.
  Each slot's map is an involution (so the device that receives on slot `f` from `c` is the one that sends
  to `c` on slot `f`), and both enumerations run over exactly the devices other than `c`.
  Everything here is decided over the 8 devices and 7 slots.
-/
import proofs.«900616_g7700000000000617_dist_a2a_v7x_i8_i_m2048_n512_bf16_1_alg».proof.Proof.Gen.Kernel

namespace Cert.Kernel.A2A

open Cert.Kernel Cert.Kernel.Gen
open Idealize.ShloMosaic

/-- The printed device chain of slot `f`'s transfer. -/
def pdev : Fin 7 → Dev nD → Nat
  | 0 => k0_dev8 | 1 => k0_dev9 | 2 => k0_dev10 | 3 => k0_dev11 | 4 => k0_dev12 | 5 => k0_dev13 | 6 => k0_dev14

theorem pdev_lt : ∀ (f : Fin 7) (c : Dev nD), pdev f c < nD := by decide +kernel

/-- The device slot `f` of device `c` sends to (and receives from). -/
def peer (c : Dev nD) (f : Fin 7) : Dev nD := ⟨pdev f c, pdev_lt f c⟩

theorem peer_peer : ∀ (c : Dev nD) (f : Fin 7), peer (peer c f) f = c := by decide +kernel
theorem peer_ne : ∀ (c : Dev nD) (f : Fin 7), peer c f ≠ c := by decide +kernel
theorem peer_injective (c : Dev nD) : Function.Injective (peer c) := by revert c; decide +kernel
theorem others_eq_peers : ∀ c : Dev nD, Finset.univ.erase c = Finset.univ.map ⟨peer c, peer_injective c⟩ := by decide +kernel

/-- The printed device chain of the `k`-th handshake signal. -/
def bdevN : Fin 7 → Dev nD → Nat
  | 0 => k0_dev1 | 1 => k0_dev2 | 2 => k0_dev3 | 3 => k0_dev4 | 4 => k0_dev5 | 5 => k0_dev6 | 6 => k0_dev7

theorem bdevN_lt : ∀ (k : Fin 7) (c : Dev nD), bdevN k c < nD := by decide +kernel

/-- The device the `k`-th handshake signal of device `c` goes to. -/
def bdev (c : Dev nD) (k : Fin 7) : Dev nD := ⟨bdevN k c, bdevN_lt k c⟩

theorem bdev_ne : ∀ (c : Dev nD) (k : Fin 7), bdev c k ≠ c := by decide +kernel
theorem bdev_injective (c : Dev nD) : Function.Injective (bdev c) := by revert c; decide +kernel
theorem others_eq_bdevs : ∀ c : Dev nD, Finset.univ.erase c = Finset.univ.map ⟨bdev c, bdev_injective c⟩ := by decide +kernel

/-- The device whose `k`-th handshake signal reaches `c`. -/
def bsrc (c : Dev nD) (k : Fin 7) : Dev nD := ⟨(c.val + (7 - k.val)) % 8, Nat.mod_lt _ (by decide)⟩
theorem bdev_bsrc : ∀ (c : Dev nD) (k : Fin 7), bdev (bsrc c k) k = c := by decide +kernel
theorem bsrc_bdev : ∀ (c : Dev nD) (k : Fin 7), bsrc (bdev c k) k = c := by decide +kernel

/-- The column offset slot `f`'s staging copy reads device `c`'s rows at: the columns of `peer c f`. -/
theorem off1_eq : ∀ (c : Dev nD) (f : Fin 7),
    k0_off1 c (k0_off1_at f).1 (k0_off1_at f).2.1 (k0_off1_at f).2.2 = ![0, 512 * (peer c f).val] := by decide +kernel

end Cert.Kernel.A2A
-- ==== Proof.KernelA2A.Defs.lean ====
/-
  The exchange's data: the memrefs each device touches, what each holds at each stage, and the schedule of
  every semaphore.

  Device `c` holds rows block `c` of the input, `X c` (2048 × 4096). Its result (16384 × 512) is, row block by
  row block, the column block `c` of every device's rows, rounded: row block `s` is `pay (xcol s c)`.
  Row block `c` it writes itself; row block `s ≠ c` is written by device `s`, on the slot `f` with
  `peer s f = c`, after `c` has handed `s` that block of its result buffer with its entry signal.

  Every semaphore of a device is a cell with one round: the barrier semaphore has one unit duty per other device
  (its signal, carrying the signaller's result rows for the owner), every DMA semaphore one duty (its one copy).
-/
import proofs.«900616_g7700000000000617_dist_a2a_v7x_i8_i_m2048_n512_bf16_1_alg».proof.Proof.KernelA2A.Dev
import proofs.«900616_g7700000000000617_dist_a2a_v7x_i8_i_m2048_n512_bf16_1_alg».proof.Proof.Gen.Kernel.Skeleton
import proofs.«900616_g7700000000000617_dist_a2a_v7x_i8_i_m2048_n512_bf16_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs -/

abbrev xM : Memref sig .tc .hbm S2048x4096 .f32 := Memref.whole main_arg0
abbrev oM : Memref sig .tc .hbm S16384x512 .bf16 := Memref.whole main_v1
abbrev fM : Memref sig .tc .vmem S2048x3584 .f32 := Memref.whole cc0_scratch0
abbrev bM : Memref sig .tc .vmem S2048x3584 .bf16 := Memref.whole cc0_scratch1
abbrev ofM : Memref sig .tc .vmem S2048x512 .f32 := Memref.whole cc0_scratch2
abbrev obM : Memref sig .tc .vmem S2048x512 .bf16 := Memref.whole cc0_scratch3

/-- Slot `f`'s columns of the two staging buffers: `[512 f, 512 f + 512)`. -/
def colOff (f : Fin 7) : Fin 2 → Nat := ![0, 512 * f.val]
theorem colInb (f : Fin 7) : ∀ a, colOff f a + S2048x512.size a ≤ S2048x3584.size a := by revert f; decide
abbrev colR (f : Fin 7) : Rect S2048x3584 := Rect.unit (s := S2048x3584) (colOff f) S2048x512.size (colInb f)
def fS (f : Fin 7) : Memref sig .tc .vmem S2048x512 .f32 := fM.slice (colR f) (fun _ => rfl)
def bS (f : Fin 7) : Memref sig .tc .vmem S2048x512 .bf16 := bM.slice (colR f) (fun _ => rfl)

/-- The columns of the input rows that slot `f` of device `c` stages: those of `peer c f`. -/
def xS (c : Dev nD) (f : Fin 7) : Memref sig .tc .hbm S2048x512 .f32 :=
  xM.slice (Rect.unit (s := S2048x4096) (k0_off1 c (k0_off1_at f).1 (k0_off1_at f).2.1 (k0_off1_at f).2.2) S2048x512.size (k0_off1_inb c f)) (fun _ => rfl)
/-- Device `c`'s own columns of its input rows. -/
def xO (c : Dev nD) : Memref sig .tc .hbm S2048x512 .f32 :=
  xM.slice (Rect.unit (s := S2048x4096) (k0_off2 c) S2048x512.size (k0_off2_inb c)) (fun _ => rfl)
/-- Rows block `s` of a result buffer: where device `s`'s contribution lands, on whichever device. -/
def oS (s : Dev nD) : Memref sig .tc .hbm S2048x512 .bf16 :=
  oM.slice (Rect.unit (s := S16384x512) (k0_off3 s) S2048x512.size (k0_off3_inb s)) (fun _ => rfl)

/-! ## The semaphores -/

abbrev barS : Sem sig := (SemArray.scalar (sig.barrier 0 rfl) : Sems sig S_).sem
def stageS (f : Fin 8) : DmaSem sig := ⟨f.val, by have := f.isLt; show f.val < 23; omega⟩
def sendS (f : Fin 7) : DmaSem sig := ⟨8 + f.val, by have := f.isLt; show 8 + f.val < 23; omega⟩
def recvS (f : Fin 7) : DmaSem sig := ⟨15 + f.val, by have := f.isLt; show 15 + f.val < 23; omega⟩
def outS : DmaSem sig := ⟨22, by decide⟩

abbrev cell (c : Dev nD) (sm : SemLoc sig) : GSem nD τ sig := ((c : Thread nD τ), sm)
abbrev barCell (c : Dev nD) : GSem nD τ sig := cell c (.reg barS)
abbrev stageCell (c : Dev nD) (f : Fin 8) : GSem nD τ sig := cell c (.dma (stageS f))
abbrev sendCell (c : Dev nD) (f : Fin 7) : GSem nD τ sig := cell c (.dma (sendS f))
abbrev recvCell (c : Dev nD) (f : Fin 7) : GSem nD τ sig := cell c (.dma (recvS f))
abbrev outCell (c : Dev nD) : GSem nD τ sig := cell c (.dma outS)

/-- What a copy of one 2048 × 512 block credits: of f32 words into a staging buffer, of bf16 words into a result buffer. -/
abbrev N32 : ℕ := (fS 0).view.dmaCredit
abbrev N16 : ℕ := (oS 0).view.dmaCredit
theorem N32_pos : 0 < N32 := View.dmaCredit_pos _ (by decide)
theorem N16_pos : 0 < N16 := View.dmaCredit_pos _ (by decide)

/-! ## Contents -/

/-- Device `c`'s rows of the input, as launched. -/
abbrev X (c : Dev nD) : Buf (Elt F) ((c : Thread nD τ).loc main_arg0) := m ((c : Thread nD τ).loc main_arg0)

/-- The columns of device `c'` of an input block. -/
def xcolM (c' : Dev nD) : Memref sig .tc .hbm S2048x512 .f32 :=
  xM.slice (Rect.unit (s := S2048x4096) ![0, 512 * c'.val] S2048x512.size (by revert c'; decide)) (fun _ => rfl)
/-- Columns block `c'` of device `s`'s rows. -/
def xcol (s c' : Dev nD) : Vec F S2048x512 .f32 := (xcolM c').view.read (Elt F) (X m s)

/-- The body's arithmetic on one block: rounded to bf16. -/
abbrev pay (v : Vec F S2048x512 .f32) : FVec F S2048x512 .bf16 := k0_pay1 v

/-- Device `c`'s result as it ends: rows block `s` holds columns block `c` of device `s`'s rows, rounded. -/
def outFn (c : Dev nD) : Buf (Elt F) ((c : Thread nD τ).loc main_v1) :=
  (List.finRange 8).foldl (fun g (s : Fin 8) => (oS s).view.write (Elt F) g (pay (xcol m s c)) Finset.univ) (m ((c : Thread nD τ).loc main_v1))

/-- The input rows and the final result restated at the type of each view they are held through (one buffer each;
    the views' buffer types agree by computation only). -/
def Xs (c : Dev nD) (f : Fin 7) : Buf (Elt F) ((xS c f).view.loc (c : Thread nD τ)) := X m c
def Xo (c : Dev nD) : Buf (Elt F) ((xO c).view.loc (c : Thread nD τ)) := X m c
def outAt (c s : Dev nD) : Buf (Elt F) ((oS s).view.loc (c : Thread nD τ)) := outFn m c

/-- The read token of the input rows that copy `i` of a device reads through. -/
abbrev tok (i : Fin 8) : PosShare TreeShare := Transfers.shareTok fullShare 8 i

/-! ## Payloads -/

/-- Device `p`'s entry signal to `c` hands over rows block `c` of `p`'s result buffer, at whatever it holds: where `c` will write. -/
def barPay (c p : Dev nD) : sProp 𝕄 :=
  iprop(∃ g : Buf (Elt F) ((oS c).view.loc (p : Thread nD τ)), (oS c).view.loc (p : Thread nD τ) ↦[(oS c).view.set]{fullShare} g)

/-- Slot `f`'s staging copy landed: the staging columns hold the peer's columns of the rows; the read token back. -/
def stagePay (c : Dev nD) (f : Fin 7) : sProp 𝕄 :=
  iprop((∃ g : Buf (Elt F) ((fS f).view.loc (c : Thread nD τ)), ⌜(fS f).view.read (Elt F) g = xcol m c (peer c f)⌝ ∗ ((fS f).view.loc (c : Thread nD τ) ↦[(fS f).view.set]{fullShare} g))
    ∗ ((xS c f).view.loc (c : Thread nD τ) ↦[(xS c f).view.set]{tok f.castSucc} Xs m c f))
/-- The own columns staged. -/
def ownStagePay (c : Dev nD) : sProp 𝕄 :=
  iprop((∃ g : Buf (Elt F) (ofM.view.loc (c : Thread nD τ)), ⌜ofM.view.read (Elt F) g = xcol m c c⌝ ∗ (ofM.view.loc (c : Thread nD τ) ↦[ofM.view.set]{fullShare} g))
    ∗ ((xO c).view.loc (c : Thread nD τ) ↦[(xO c).view.set]{tok (Fin.last 7)} Xo m c))
/-- Slot `f`'s transfer read out of its source: the rounded columns' buffer back. -/
def sendPay (c : Dev nD) (f : Fin 7) : sProp 𝕄 :=
  iprop(∃ g : Buf (Elt F) ((bS f).view.loc (c : Thread nD τ)), (bS f).view.loc (c : Thread nD τ) ↦[(bS f).view.set]{fullShare} g)
/-- Slot `f`'s transfer landed on `c`: rows block `peer c f` of `c`'s result at its final contents. -/
def recvPay (c : Dev nD) (f : Fin 7) : sProp 𝕄 :=
  (oS (peer c f)).view.loc (c : Thread nD τ) ↦[(oS (peer c f)).view.set]{fullShare} outAt m c (peer c f)
/-- The own copy landed: rows block `c` at its final contents, and the rounded own columns' buffer back. -/
def outPay (c : Dev nD) : sProp 𝕄 :=
  iprop(((oS c).view.loc (c : Thread nD τ) ↦[(oS c).view.set]{fullShare} outAt m c c)
    ∗ ∃ g : Buf (Elt F) (obM.view.loc (c : Thread nD τ)), obM.view.loc (c : Thread nD τ) ↦[obM.view.set]{fullShare} g)

def dmaPay (c : Dev nD) (j : DmaSem sig) : sProp 𝕄 :=
  if h : j.val < 7 then stagePay m c ⟨j.val, h⟩
  else if j.val = 7 then ownStagePay m c
  else if h : j.val - 8 < 7 ∧ j.val < 15 then sendPay c ⟨j.val - 8, h.1⟩
  else if h : j.val - 15 < 7 ∧ j.val < 22 then recvPay m c ⟨j.val - 15, h.1⟩
  else outPay m c

/-! ## The schedule -/

/-- One round, round 0. A barrier cell: one unit duty per OTHER device, named by it. A DMA cell: one duty, named 0. -/
def Rd : Rounds.Schedule (GSem nD τ sig) (Dev nD) 𝕄 where
  duties g r := if r = 0 ∧ g.1.2 = .tc then (match g.2 with | .reg _ => Finset.univ.erase g.1.1 | .dma _ => {0}) else ∅
  unitless _ := False
  amount g _ _ := match g.2 with | .reg _ => 1 | .dma j => if j.val < 8 then N32 else N16
  payload g _ d := match g.2 with | .reg _ => barPay g.1.1 d | .dma j => dmaPay m g.1.1 j
  amount_pos g _ _ _ := by
    rcases g with ⟨t, sm⟩
    cases sm with
    | reg _ => exact Nat.one_pos
    | dma j => dsimp only; split; exact N32_pos; exact N16_pos

instance Rd_payload_storable (g : GSem nD τ sig) (r : ℕ) (d : Dev nD) :
    BI.Storable (upEmb : UEmb _ 𝕄) ((Rd (F := F) m).payload g r d) := by
  rcases g with ⟨t, sm⟩
  cases sm with
  | reg _ => show BI.Storable upEmb (barPay t.1 d); unfold barPay; infer_instance
  | dma j =>
    show BI.Storable upEmb (dmaPay m t.1 j)
    unfold dmaPay stagePay ownStagePay sendPay recvPay outPay
    (repeat' split) <;> infer_instance

end Cert.Kernel.A2A

end
-- ==== Proof.KernelA2A.Tables.lean ====
/-
  The schedule's tables, cell by cell; what each device owes at launch and the levels that order the waits;
  the ghost state a device starts from and the pipeline's proof data.
-/
import proofs.«900616_g7700000000000617_dist_a2a_v7x_i8_i_m2048_n512_bf16_1_alg».proof.Proof.KernelA2A.Defs

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Tables -/

section Tables
variable (c : Dev nD)

theorem duties_bar : (Rd (F := F) m).duties (barCell c) 0 = Finset.univ.erase c := by
  dsimp only [Rd]; rw [if_pos ⟨rfl, rfl⟩]
theorem duties_dma (j : DmaSem sig) : (Rd (F := F) m).duties (cell c (.dma j)) 0 = {0} := by
  dsimp only [Rd]; rw [if_pos ⟨rfl, rfl⟩]
theorem duties_later (g : GSem nD τ sig) : ∀ r, 1 ≤ r → (Rd (F := F) m).duties g r = ∅ :=
  fun r hr => by dsimp only [Rd]; rw [if_neg fun h => by omega]

theorem amount_bar (d : Dev nD) : (Rd (F := F) m).amount (barCell c) 0 d = 1 := rfl
theorem amount_stage (f : Fin 8) (d : Dev nD) : (Rd (F := F) m).amount (stageCell c f) 0 d = N32 := by
  dsimp only [Rd]; exact if_pos f.isLt
theorem amount_send (f : Fin 7) (d : Dev nD) : (Rd (F := F) m).amount (sendCell c f) 0 d = N16 := by
  dsimp only [Rd]; exact if_neg (by show ¬ (8 + f.val < 8); omega)
theorem amount_recv (f : Fin 7) (d : Dev nD) : (Rd (F := F) m).amount (recvCell c f) 0 d = N16 := by
  dsimp only [Rd]; exact if_neg (by show ¬ (15 + f.val < 8); omega)
theorem amount_out (d : Dev nD) : (Rd (F := F) m).amount (outCell c) 0 d = N16 := by
  dsimp only [Rd]; exact if_neg (by decide)

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
theorem expect_dma (j : DmaSem sig) : (Rd (F := F) m).expect (cell c (.dma j)) 0 = (Rd (F := F) m).amount (cell c (.dma j)) 0 0 := by
  unfold Schedule.expect Schedule.amountOf; rw [duties_dma, Finset.sum_singleton]

end Tables

/-! ## Payload tables -/

section Payloads
variable (c : Dev nD)

theorem payload_bar (p : Dev nD) : (Rd (F := F) m).payload (barCell c) 0 p = barPay c p := rfl

theorem payload_stage (f : Fin 7) (d : Dev nD) : (Rd (F := F) m).payload (stageCell c f.castSucc) 0 d = stagePay m c f := by
  show dmaPay m c (stageS f.castSucc) = _
  unfold dmaPay
  rw [dif_pos (show (stageS f.castSucc).val < 7 from f.isLt)]
  rfl

theorem payload_ownstage (d : Dev nD) : (Rd (F := F) m).payload (stageCell c (Fin.last 7)) 0 d = ownStagePay m c := by
  show dmaPay m c (stageS (Fin.last 7)) = _
  unfold dmaPay
  rw [dif_neg (show ¬ (stageS (Fin.last 7)).val < 7 by decide), if_pos (show (stageS (Fin.last 7)).val = 7 by decide)]

theorem payload_send (f : Fin 7) (d : Dev nD) : (Rd (F := F) m).payload (sendCell c f) 0 d = sendPay c f := by
  show dmaPay m c (sendS f) = _
  unfold dmaPay
  have h1 : ¬ (sendS f).val < 7 := by show ¬ (8 + f.val < 7); omega
  have h2 : ¬ (sendS f).val = 7 := by show ¬ (8 + f.val = 7); omega
  have h3 : (sendS f).val - 8 < 7 ∧ (sendS f).val < 15 := by show 8 + f.val - 8 < 7 ∧ 8 + f.val < 15; have := f.isLt; omega
  rw [dif_neg h1, if_neg h2, dif_pos h3]
  exact congrArg (sendPay c) (Fin.ext (by show 8 + f.val - 8 = f.val; omega))

theorem payload_recv (f : Fin 7) (d : Dev nD) : (Rd (F := F) m).payload (recvCell c f) 0 d = recvPay m c f := by
  show dmaPay m c (recvS f) = _
  unfold dmaPay
  have h1 : ¬ (recvS f).val < 7 := by show ¬ (15 + f.val < 7); omega
  have h2 : ¬ (recvS f).val = 7 := by show ¬ (15 + f.val = 7); omega
  have h3 : ¬ ((recvS f).val - 8 < 7 ∧ (recvS f).val < 15) := by show ¬ (15 + f.val - 8 < 7 ∧ 15 + f.val < 15); omega
  have h4 : (recvS f).val - 15 < 7 ∧ (recvS f).val < 22 := by show 15 + f.val - 15 < 7 ∧ 15 + f.val < 22; have := f.isLt; omega
  rw [dif_neg h1, if_neg h2, dif_neg h3, dif_pos h4]
  exact congrArg (recvPay m c) (Fin.ext (by show 15 + f.val - 15 = f.val; omega))

theorem payload_out (d : Dev nD) : (Rd (F := F) m).payload (outCell c) 0 d = outPay m c := by
  show dmaPay m c outS = _
  unfold dmaPay
  rw [dif_neg (show ¬ (outS : DmaSem sig).val < 7 by decide), if_neg (show ¬ (outS : DmaSem sig).val = 7 by decide),
    dif_neg (show ¬ ((outS : DmaSem sig).val - 8 < 7 ∧ (outS : DmaSem sig).val < 15) by decide),
    dif_neg (show ¬ ((outS : DmaSem sig).val - 15 < 7 ∧ (outS : DmaSem sig).val < 22) by decide)]

/-- The rest of a DMA cell's round, nothing taken: its one duty's payload. -/
theorem rest_dma (j : DmaSem sig) :
    bigSep ((Rd (F := F) m).duties (cell c (.dma j)) 0 \ ∅) (fun d => (Rd (F := F) m).payload (cell c (.dma j)) 0 d)
      = (Rd (F := F) m).payload (cell c (.dma j)) 0 0 := by
  rw [Finset.sdiff_empty, duties_dma, bigSep_singleton]

/-- The rest of the barrier cell's round, nothing taken: every other device's rows block `c`, listed by slot. -/
theorem rest_bar :
    bigSep ((Rd (F := F) m).duties (barCell c) 0 \ ∅) (fun d => (Rd (F := F) m).payload (barCell c) 0 d)
      = bigSep Finset.univ (fun f : Fin 7 => (barPay c (peer c f) : sProp 𝕄)) := by
  rw [Finset.sdiff_empty, duties_bar, others_eq_peers, bigSep_map]
  rfl

end Payloads

/-! ## What each device owes at launch; the levels -/

/-- The slot paid `n`-th from last. -/
def slotN (n : ℕ) : Fin 7 := ⟨(6 - n) % 7, Nat.mod_lt _ (by decide)⟩

/-- The receive credit device `c` still owes when `n` of its seven transfers are to come: summed so that
    each transfer peels the last summand. -/
def OR (c : Dev nD) : ℕ → CellTallies nD τ sig Unit
  | 0 => 0
  | n + 1 => OR c n + tallyAt (recvCell (peer c (slotN n)) (slotN n)) () N16
/-- The same with `n` entry signals to come. -/
def OB (c : Dev nD) : ℕ → CellTallies nD τ sig Unit
  | 0 => OR c 7
  | n + 1 => OB c n + tallyAt (barCell (bdev c (slotN n))) () 1
def O₀ (c : Dev nD) : CellTallies nD τ sig Unit := OB c 7

def L (g : GSem nD τ sig) : Finset Unit := if g.1.2 = .tc then {()} else ∅
/-- barrier cells at 1, receive cells at 2, every other cell (staging, send, own copy) at 0. -/
def lv (g : GSem nD τ sig) (_ : Unit) : ℕ := match g.2 with | .reg _ => 1 | .dma j => if 15 ≤ j.val ∧ j.val < 22 then 2 else 0

theorem L_of_ne (g : GSem nD τ sig) (h : g.1.2 ≠ .tc) : L g = ∅ := if_neg h
theorem L_tc (c : Dev nD) (sm : SemLoc sig) : L ((c : Thread nD τ), sm) = {()} := if_pos rfl

/-- A cell owed receive credit is a TensorCore's receive cell. -/
abbrev IsRecv (g : GSem nD τ sig) : Prop := g.1.2 = .tc ∧ ∃ f : Fin 7, g.2 = .dma (recvS f)
abbrev IsBarOrRecv (g : GSem nD τ sig) : Prop := g.1.2 = .tc ∧ (g.2 = .reg barS ∨ ∃ f : Fin 7, g.2 = .dma (recvS f))

theorem OR_pos {c : Dev nD} {n : ℕ} {g : GSem nD τ sig} {u : Unit} (h : 0 < OR c n g u) : IsRecv g := by
  induction n with
  | zero => exact absurd h (Nat.lt_irrefl 0)
  | succ n ih =>
    rw [OR, Pi.add_apply, Finsupp.add_apply, tallyAt_apply] at h
    by_cases hg : g = recvCell (peer c (slotN n)) (slotN n) ∧ u = ()
    · rw [hg.1]; exact ⟨rfl, _, rfl⟩
    · rw [if_neg hg, Nat.add_zero] at h; exact ih h

theorem OB_pos {c : Dev nD} {n : ℕ} {g : GSem nD τ sig} {u : Unit} (h : 0 < OB c n g u) : IsBarOrRecv g := by
  induction n with
  | zero => obtain ⟨h1, f, h2⟩ := OR_pos (c := c) (n := 7) h; exact ⟨h1, .inr ⟨f, h2⟩⟩
  | succ n ih =>
    rw [OB, Pi.add_apply, Finsupp.add_apply, tallyAt_apply] at h
    by_cases hg : g = barCell (bdev c (slotN n)) ∧ u = ()
    · rw [hg.1]; exact ⟨rfl, .inl rfl⟩
    · rw [if_neg hg, Nat.add_zero] at h; exact ih h

theorem lv_bar (t : Thread nD τ) (u : Unit) : lv (t, .reg barS) u = 1 := rfl
theorem lv_recv (t : Thread nD τ) (f : Fin 7) (u : Unit) : lv (t, .dma (recvS f)) u = 2 := by
  dsimp only [lv]; exact if_pos (by show 15 ≤ 15 + f.val ∧ 15 + f.val < 22; have := f.isLt; omega)

/-- A wait on a staging, send or own-copy cell is below everything a device can owe. -/
theorem mayWait_low (c : Dev nD) (q : DmaSem sig) (hq : ¬ (15 ≤ q.val ∧ q.val < 22)) (O : CellTallies nD τ sig Unit)
    (hO : ∀ g u, 0 < O g u → IsBarOrRecv g) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; dsimp only [lv]; rw [if_neg hq])
    (fun g u hg => by
      obtain ⟨t, sm⟩ := g
      obtain ⟨-, h | ⟨f, h⟩⟩ := hO _ u hg
      · dsimp only at h; subst h; rw [lv_bar]; decide
      · dsimp only at h; subst h; rw [lv_recv]; decide)

/-- The barrier wait is below the receive credit. -/
theorem mayWait_bar (c : Dev nD) (O : CellTallies nD τ sig Unit) (hO : ∀ g u, 0 < O g u → IsRecv g) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => by
      obtain ⟨t, sm⟩ := g
      obtain ⟨-, f, h⟩ := hO _ u hg
      dsimp only at h; subst h; rw [lv_recv]; decide)

/-! ## The ghost state and the proof data -/

/-- Every cell's invariant, under the names the launch allocated them at, and that every cell is at round 0. -/
def records (K : Dev nD × SemLoc sig → ℕ) : sProp 𝕄 :=
  iprop((bigSep Finset.univ fun ck : Dev nD × SemLoc sig => cellInv ER (Rd m) (K ck) (cell ck.1 ck.2))
    ∗ bigSep Finset.univ fun ck : Dev nD × SemLoc sig => reached ER (cell ck.1 ck.2) 0)

instance records_persistent (K : Dev nD × SemLoc sig → ℕ) : BI.Persistent (records m K) := by unfold records; infer_instance

/-- The tokens of the duties device `c` pays on its own cells: its eight staging copies, the departures of its seven
    transfers, its own copy. -/
def ownToks (c : Dev nD) : sProp 𝕄 :=
  iprop((bigSep Finset.univ fun f : Fin 8 => dutyTok ER (stageCell c f) 0 0) ∗ (bigSep Finset.univ fun f : Fin 7 => dutyTok ER (sendCell c f) 0 0)
    ∗ dutyTok ER (outCell c) 0 0)
/-- The tokens of every duty device `c` pays: its duty on each other device's barrier cell, the arrival of each of
    its transfers, and the duties on its own cells. -/
def payToks (c : Dev nD) : sProp 𝕄 :=
  iprop((bigSep Finset.univ fun k : Fin 7 => dutyTok ER (barCell (bdev c k)) 0 c)
    ∗ (bigSep Finset.univ fun f : Fin 7 => dutyTok ER (recvCell (peer c f) f) 0 0) ∗ ownToks c)
/-- What stays with device `c`: its position in each of its cells, and its tokens. -/
def linear (c : Dev nD) : sProp 𝕄 :=
  iprop((bigSep Finset.univ fun sm : SemLoc sig => atPos ER (cell c sm) 0 ∅ 0) ∗ payToks c)
def ghost (K : Dev nD × SemLoc sig → ℕ) (c : Dev nD) : sProp 𝕄 := iprop(records m K ∗ linear c)

/-- What device `c`'s body starts from besides its buffers: the ghost state at some names, the credit its barrier
    cell and its seven receive cells are owed, and the level facts. -/
def start (c : Dev nD) : sProp 𝕄 :=
  iprop((∃ K, ghost m K c) ∗ cred (tallyAt (barCell c) () 7) ∗ (bigSep Finset.univ fun f : Fin 7 => cred (tallyAt (recvCell c f) () N16)) ∗ levAts L lv)

/-- The four scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 :=
  iprop(start m c ∗ (((c : Thread nD τ).loc main_arg0) ↦{fullShare} X m c) ∗ (((c : Thread nD τ).loc main_v1) ↦{fullShare} m ((c : Thread nD τ).loc main_v1)) ∗ scr c)
/-- After the body: the input rows as launched, the result at its final contents, the scratch buffers back, every DMA
    semaphore of the device at zero, closed (the barrier semaphore is the runtime's: nothing to hand back). -/
def Φ₁ (c : Dev nD) : sProp 𝕄 :=
  iprop((((c : Thread nD τ).loc main_arg0) ↦{fullShare} X m c) ∗ (((c : Thread nD τ).loc main_v1) ↦{fullShare} outFn m c) ∗ scr c
    ∗ bigSep Finset.univ fun j : DmaSem sig => semVal (cell c (.dma j)) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.A2A

end
-- ==== Proof.KernelA2A.Geom.lean ====
/-
  How each buffer of a device is held by parts, and what the parts hold.

  The input rows are read by eight copies in flight at once, each through its own read share of the whole
  buffer, out of which the copy's column block is carved. The result buffer is held by its eight row blocks,
  the two staging buffers by their seven column blocks: the blocks are pairwise disjoint (separated on one
  axis) and cover the buffer, so a points-to of the buffer is the separating conjunction of the blocks'.
  The final result is a fold of eight writes, one per row block; on a row block only that block's write counts.
-/
import proofs.«900616_g7700000000000617_dist_a2a_v7x_i8_i_m2048_n512_bf16_1_alg».proof.Proof.KernelA2A.Tables
import Idealize.ShloMosaic.Rules.PointsTo
import Idealize.ShloMosaic.Lib.Transfers
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Reading through slices of one memref at equal offsets -/

/-- Slices of one memref at equal offsets read the same. -/
theorem slice_read_congr {sg : RefSig} {κ : Kind} {sp : Space} {S : Shape} {e : EltTy} {Val : EltTy → Type}
    (M : Memref sg κ sp S e) {off off' size : Fin S.rank → Nat} (h : off = off')
    (p : ∀ a, off a + size a ≤ S.size a) (p' : ∀ a, off' a + size a ≤ S.size a) (hs hs')
    (g : M.view.ty.Contents Val) :
    (M.slice (Rect.unit off size p) hs).view.read Val g = (M.slice (Rect.unit off' size p') hs').view.read Val g := by
  subst h; rfl

/-- Slot `f` of device `c` stages the columns of `peer c f`. -/
theorem xS_read (c : Dev nD) (f : Fin 7) : (xS c f).view.read (Elt F) (Xs m c f) = xcol m c (peer c f) :=
  slice_read_congr xM (off1_eq c f) _ _ (fun _ => rfl) (fun _ => rfl) (X m c)

/-- The own copy stages the device's own columns. -/
theorem xO_read (c : Dev nD) : (xO c).view.read (Elt F) (Xo m c) = xcol m c c :=
  slice_read_congr xM (Gen.k0_off2_eq c) _ _ (fun _ => rfl) (fun _ => rfl) (X m c)

/-! ## A fold of writes through pairwise disjoint rectangles of one view -/

section Fold
variable {sg : RefSig} {κ : Kind} {sp : Space} {S : Shape} {e : EltTy} {Val : EltTy → Type}
variable (V : View sg κ sp S e) {T : Type} (r : T → Rect S) (w : (t : T) → (r t).shape.Idx → Val e)

/-- An element under none of the rectangles written keeps its value. -/
theorem foldl_write_of_not_mem (l : List T) (g : V.ty.Contents Val) {i : V.ty.Idx}
    (h : ∀ t ∈ l, i ∉ (V.slice (r t)).set) :
    l.foldl (fun (g : V.ty.Contents Val) (t : T) => ((V.slice (r t)).write Val g (w t) Finset.univ : V.ty.Contents Val)) g i = g i := by
  induction l generalizing g with
  | nil => rfl
  | cons t l ih =>
    rw [List.foldl_cons, ih _ (fun t' ht' => h t' (List.mem_cons_of_mem _ ht'))]
    exact View.write_of_not_mem _ _ _ (by rw [View.setOn_univ]; exact h t List.mem_cons_self)

/-- An element under rectangle `s`, written once, holds `s`'s payload there: the later writes are elsewhere. -/
theorem foldl_write_emb (hd : ∀ t t', t ≠ t' → Disjoint (V.slice (r t)).set (V.slice (r t')).set)
    (l : List T) (hl : l.Nodup) (g : V.ty.Contents Val) (s : T) (hs : s ∈ l) (y : (r s).shape.Idx) :
    l.foldl (fun (g : V.ty.Contents Val) (t : T) => ((V.slice (r t)).write Val g (w t) Finset.univ : V.ty.Contents Val)) g
        ((V.slice (r s)).emb y)
      = _root_.cast (congrArg Val (V.slice (r s)).elt_eq.symm) (w s y) := by
  induction l generalizing g with
  | nil => exact absurd hs List.not_mem_nil
  | cons t l ih =>
    rw [List.foldl_cons]
    by_cases hts : t = s
    · subst hts
      have hnot : t ∉ l := (List.nodup_cons.mp hl).1
      have hoff : ∀ t' ∈ l, (V.slice (r t)).emb y ∉ (V.slice (r t')).set := fun t' ht' hmem =>
        Finset.disjoint_left.mp (hd t t' fun e => hnot (e ▸ ht')) ((V.slice (r t)).emb_mem_set y) hmem
      rw [foldl_write_of_not_mem V r w l _ hoff]
      exact View.write_emb_of_mem _ _ (Finset.mem_univ y)
    · exact ih (List.nodup_cons.mp hl).2 _ ((List.mem_cons.mp hs).resolve_left fun e => hts e.symm)

end Fold

/-! ## A buffer held by a pairwise disjoint family of parts that covers it -/

section Family
variable {ℓ : Loc nD τ sig} {T : Type} [Fintype T] [DecidableEq T] (K : T → Finset (Idx ℓ))

/-- At one contents, the whole buffer is the separating conjunction of the parts. -/
theorem pointsTo_family_eq (hd : ∀ t t', t ≠ t' → Disjoint (K t) (K t')) (hc : Finset.univ.biUnion K = Finset.univ)
    (q : PosShare TreeShare) (g : Buf (Elt F) ℓ) :
    ((ℓ ↦{q} g) : sProp 𝕄) = bigSep Finset.univ fun t => ℓ ↦[K t]{q} g := by
  rw [← pointsTo_biUnion Finset.univ K (fun t _ t' _ h => hd t t' h), hc]

/-- The whole buffer gives every part, at some contents. -/
theorem pointsTo_split_family (hd : ∀ t t', t ≠ t' → Disjoint (K t) (K t')) (hc : Finset.univ.biUnion K = Finset.univ)
    (q : PosShare TreeShare) (g : Buf (Elt F) ℓ) :
    ((ℓ ↦{q} g) : sProp 𝕄) ⊢ bigSep Finset.univ fun t => iprop(∃ g' : Buf (Elt F) ℓ, ℓ ↦[K t]{q} g') := by
  rw [pointsTo_family_eq K hd hc q g]
  exact bigSep_mono fun t _ => exists_intro (Φ := fun g' : Buf (Elt F) ℓ => (ℓ ↦[K t]{q} g' : sProp 𝕄)) g

/-- The parts, each at some contents, give the whole buffer at some contents. -/
theorem pointsTo_join_family (hd : ∀ t t', t ≠ t' → Disjoint (K t) (K t')) (hc : Finset.univ.biUnion K = Finset.univ)
    (q : PosShare TreeShare) :
    (bigSep Finset.univ fun t => iprop(∃ g' : Buf (Elt F) ℓ, ℓ ↦[K t]{q} g') : sProp 𝕄)
      ⊢ iprop(∃ g : Buf (Elt F) ℓ, ℓ ↦{q} g) := by
  refine (bigSep_exists_pi Finset.univ (fun t (g' : Buf (Elt F) ℓ) => (ℓ ↦[K t]{q} g' : sProp 𝕄))).trans ?_
  refine exists_elim fun y => ?_
  refine (pointsTo_biUnion_join Finset.univ K y (Classical.choice inferInstance) fun t _ t' _ h => hd t t' h).trans ?_
  rw [hc]
  iintro ⟨%g, %hg, H⟩
  iexists g
  iexact H

end Family

/-! ## The result buffer by its eight row blocks -/

/-- Rows block `s` of the result. -/
abbrev oR (s : Dev nD) : Rect S16384x512 := Rect.unit (s := S16384x512) (k0_off3 s) S2048x512.size (k0_off3_inb s)

theorem oS_set (s : Dev nD) : (oS s).view.set = (oR s).set := View.set_slice_whole main_v1 (oR s)

theorem oS_disjoint (s s' : Dev nD) (h : s ≠ s') : Disjoint (oS s).view.set (oS s').view.set := by
  rw [oS_set, oS_set]
  refine Rect.unit_disjoint 0 ?_
  rw [Gen.k0_off3_eq, Gen.k0_off3_eq]
  have : s.val ≠ s'.val := fun e => h (Fin.ext e)
  show 2048 * s.val + 2048 ≤ 2048 * s'.val ∨ 2048 * s'.val + 2048 ≤ 2048 * s.val
  omega

/-- A landed block is the final result on its rows, whatever the buffer held before. -/
theorem out_landed (c s : Dev nD) (fd : Buf (Elt F) ((oS s).view.loc (c : Thread nD τ))) :
    (((oS s).view.loc (c : Thread nD τ) ↦[(oS s).view.set]{fullShare} (oS s).view.write (Elt F) fd (pay (xcol m s c)) Finset.univ) : sProp 𝕄)
      ⊢ ((oS s).view.loc (c : Thread nD τ) ↦[(oS s).view.set]{fullShare} outAt m c s) := by
  refine Entails.of_eq (pointsTo_congr fun i hi => ?_)
  obtain ⟨y, rfl⟩ := View.exists_emb_of_mem_set (oS s).view hi
  rw [View.write_emb_of_mem _ _ (Finset.mem_univ y)]
  exact (foldl_write_emb (Val := Elt F) oM.view oR (fun s => pay (xcol m s c)) oS_disjoint (List.finRange 8) (List.nodup_finRange 8)
    (m ((c : Thread nD τ).loc main_v1)) s (List.mem_finRange s) y).symm

theorem oR_cover (i : S16384x512.Idx) : ∃ s : Dev nD, i ∈ (oR s).set := by
  have h0 : (i 0 : ℕ) < 16384 := (i 0).isLt
  have h1 : (i 1 : ℕ) < 512 := (i 1).isLt
  refine ⟨⟨(i 0 : ℕ) / 2048, by show (i 0 : ℕ) / 2048 < 8; omega⟩, ?_⟩
  rw [Rect.mem_set_unit, Gen.k0_off3_eq]
  refine Fin.forall_fin_two.mpr ⟨?_, ?_⟩
  · show 2048 * ((i 0 : ℕ) / 2048) ≤ i 0 ∧ (i 0 : ℕ) < 2048 * ((i 0 : ℕ) / 2048) + 2048
    omega
  · show 0 ≤ (i 1 : ℕ) ∧ (i 1 : ℕ) < 0 + 512
    omega

/-- The elements of rows block `s`, among those of device `c`'s result buffer. -/
abbrev oK (c s : Dev nD) : Finset (Idx ((c : Thread nD τ).loc main_v1)) := (oS s).view.set

theorem oS_cover (c : Dev nD) : (Finset.univ : Finset (Dev nD)).biUnion (oK c) = Finset.univ := by
  ext i
  simp only [Finset.mem_biUnion, Finset.mem_univ, true_and, iff_true]
  obtain ⟨s, hs⟩ := oR_cover i
  exact ⟨s, by show i ∈ (oS s).view.set; rw [oS_set]; exact hs⟩

/-- The result buffer gives its eight row blocks. -/
theorem out_split (c : Dev nD) (g : Buf (Elt F) ((c : Thread nD τ).loc main_v1)) :
    ((((c : Thread nD τ).loc main_v1) ↦{fullShare} g) : sProp 𝕄)
      ⊢ bigSep Finset.univ fun s : Dev nD => iprop(∃ g' : Buf (Elt F) ((oS s).view.loc (c : Thread nD τ)), (oS s).view.loc (c : Thread nD τ) ↦[(oS s).view.set]{fullShare} g') :=
  pointsTo_split_family (ℓ := (c : Thread nD τ).loc main_v1) (oK c) oS_disjoint (oS_cover c) fullShare g

/-- The eight row blocks at the final result give the result buffer at it. -/
theorem out_join (c : Dev nD) :
    (bigSep Finset.univ fun s : Dev nD => ((oS s).view.loc (c : Thread nD τ) ↦[(oS s).view.set]{fullShare} outAt m c s : sProp 𝕄))
      ⊢ ((((c : Thread nD τ).loc main_v1) ↦{fullShare} outFn m c) : sProp 𝕄) :=
  Entails.of_eq (pointsTo_family_eq (ℓ := (c : Thread nD τ).loc main_v1) (oK c) oS_disjoint (oS_cover c) fullShare (outFn m c)).symm

/-! ## The staging buffers by their seven column blocks -/

theorem colR_disjoint (f f' : Fin 7) (h : f ≠ f') : Disjoint (colR f).set (colR f').set := by
  refine Rect.unit_disjoint 1 ?_
  have : f.val ≠ f'.val := fun e => h (Fin.ext e)
  show 512 * f.val + 512 ≤ 512 * f'.val ∨ 512 * f'.val + 512 ≤ 512 * f.val
  omega

theorem colR_cover (i : S2048x3584.Idx) : ∃ f : Fin 7, i ∈ (colR f).set := by
  have h0 : (i 0 : ℕ) < 2048 := (i 0).isLt
  have h1 : (i 1 : ℕ) < 3584 := (i 1).isLt
  refine ⟨⟨(i 1 : ℕ) / 512, by omega⟩, ?_⟩
  rw [Rect.mem_set_unit]
  refine Fin.forall_fin_two.mpr ⟨?_, ?_⟩
  · show 0 ≤ (i 0 : ℕ) ∧ (i 0 : ℕ) < 0 + 2048
    omega
  · show 512 * ((i 1 : ℕ) / 512) ≤ i 1 ∧ (i 1 : ℕ) < 512 * ((i 1 : ℕ) / 512) + 512
    omega

theorem fS_set (f : Fin 7) : (fS f).view.set = (colR f).set := View.set_slice_whole cc0_scratch0 (colR f)
theorem bS_set (f : Fin 7) : (bS f).view.set = (colR f).set := View.set_slice_whole cc0_scratch1 (colR f)

theorem fS_disjoint (f f' : Fin 7) (h : f ≠ f') : Disjoint (fS f).view.set (fS f').view.set := by
  rw [fS_set, fS_set]; exact colR_disjoint f f' h
theorem bS_disjoint (f f' : Fin 7) (h : f ≠ f') : Disjoint (bS f).view.set (bS f').view.set := by
  rw [bS_set, bS_set]; exact colR_disjoint f f' h

/-- The elements of column block `f`, among those of device `c`'s staging buffers. -/
abbrev fK (c : Dev nD) (f : Fin 7) : Finset (Idx ((c : Thread nD τ).loc cc0_scratch0)) := (fS f).view.set
abbrev bK (c : Dev nD) (f : Fin 7) : Finset (Idx ((c : Thread nD τ).loc cc0_scratch1)) := (bS f).view.set

theorem fS_cover (c : Dev nD) : (Finset.univ : Finset (Fin 7)).biUnion (fK c) = Finset.univ := by
  ext i
  simp only [Finset.mem_biUnion, Finset.mem_univ, true_and, iff_true]
  obtain ⟨f, hf⟩ := colR_cover i
  exact ⟨f, by show i ∈ (fS f).view.set; rw [fS_set]; exact hf⟩
theorem bS_cover (c : Dev nD) : (Finset.univ : Finset (Fin 7)).biUnion (bK c) = Finset.univ := by
  ext i
  simp only [Finset.mem_biUnion, Finset.mem_univ, true_and, iff_true]
  obtain ⟨f, hf⟩ := colR_cover i
  exact ⟨f, by show i ∈ (bS f).view.set; rw [bS_set]; exact hf⟩

/-- The f32 staging buffer gives its seven column blocks. -/
theorem f_split (c : Dev nD) (g : Buf (Elt F) ((c : Thread nD τ).loc cc0_scratch0)) :
    ((((c : Thread nD τ).loc cc0_scratch0) ↦{fullShare} g) : sProp 𝕄)
      ⊢ bigSep Finset.univ fun f : Fin 7 => iprop(∃ g' : Buf (Elt F) ((fS f).view.loc (c : Thread nD τ)), (fS f).view.loc (c : Thread nD τ) ↦[(fS f).view.set]{fullShare} g') :=
  pointsTo_split_family (ℓ := (c : Thread nD τ).loc cc0_scratch0) (fK c) fS_disjoint (fS_cover c) fullShare g

/-- The seven column blocks give the f32 staging buffer back. -/
theorem f_join (c : Dev nD) :
    (bigSep Finset.univ fun f : Fin 7 => iprop(∃ g' : Buf (Elt F) ((fS f).view.loc (c : Thread nD τ)), (fS f).view.loc (c : Thread nD τ) ↦[(fS f).view.set]{fullShare} g') : sProp 𝕄)
      ⊢ iprop(∃ g : Buf (Elt F) ((c : Thread nD τ).loc cc0_scratch0), ((c : Thread nD τ).loc cc0_scratch0) ↦{fullShare} g) :=
  pointsTo_join_family (ℓ := (c : Thread nD τ).loc cc0_scratch0) (fK c) fS_disjoint (fS_cover c) fullShare

/-- The bf16 staging buffer gives its seven column blocks. -/
theorem b_split (c : Dev nD) (g : Buf (Elt F) ((c : Thread nD τ).loc cc0_scratch1)) :
    ((((c : Thread nD τ).loc cc0_scratch1) ↦{fullShare} g) : sProp 𝕄)
      ⊢ bigSep Finset.univ fun f : Fin 7 => iprop(∃ g' : Buf (Elt F) ((bS f).view.loc (c : Thread nD τ)), (bS f).view.loc (c : Thread nD τ) ↦[(bS f).view.set]{fullShare} g') :=
  pointsTo_split_family (ℓ := (c : Thread nD τ).loc cc0_scratch1) (bK c) bS_disjoint (bS_cover c) fullShare g

/-- The seven column blocks give the bf16 staging buffer back. -/
theorem b_join (c : Dev nD) :
    (bigSep Finset.univ fun f : Fin 7 => iprop(∃ g' : Buf (Elt F) ((bS f).view.loc (c : Thread nD τ)), (bS f).view.loc (c : Thread nD τ) ↦[(bS f).view.set]{fullShare} g') : sProp 𝕄)
      ⊢ iprop(∃ g : Buf (Elt F) ((c : Thread nD τ).loc cc0_scratch1), ((c : Thread nD τ).loc cc0_scratch1) ↦{fullShare} g) :=
  pointsTo_join_family (ℓ := (c : Thread nD τ).loc cc0_scratch1) (bK c) bS_disjoint (bS_cover c) fullShare

/-! ## The input rows: eight read shares, each with its copy's column block carved out -/

/-- Slot `f`'s read share on the columns its copy reads, and on the rest of the rows. -/
def xTok (c : Dev nD) (f : Fin 7) : sProp 𝕄 := (xS c f).view.loc (c : Thread nD τ) ↦[(xS c f).view.set]{tok f.castSucc} Xs m c f
def xOff (c : Dev nD) (f : Fin 7) : sProp 𝕄 := (xS c f).view.loc (c : Thread nD τ) ↦[Finset.univ \ (xS c f).view.set]{tok f.castSucc} Xs m c f
/-- The own copy's read share on the device's own columns, and on the rest of the rows. -/
def xTokO (c : Dev nD) : sProp 𝕄 := (xO c).view.loc (c : Thread nD τ) ↦[(xO c).view.set]{tok (Fin.last 7)} Xo m c
def xOffO (c : Dev nD) : sProp 𝕄 := (xO c).view.loc (c : Thread nD τ) ↦[Finset.univ \ (xO c).view.set]{tok (Fin.last 7)} Xo m c
/-- What remains of the rows' full share after the eight read shares. -/
def xRest (c : Dev nD) : sProp 𝕄 := ((c : Thread nD τ).loc main_arg0) ↦[Finset.univ]{Transfers.shareDrop fullShare 8} X m c

/-- A conjunction over `n + 1` indices is the last one's and the conjunction over the first `n`. -/
theorem bigSep_univ_last {n : ℕ} (Φ : Fin (n + 1) → sProp 𝕄) :
    bigSep Finset.univ Φ = iprop(Φ (Fin.last n) ∗ bigSep Finset.univ fun i : Fin n => Φ i.castSucc) := by
  have e : (Finset.univ : Finset (Fin (n + 1))).erase (Fin.last n) = Finset.univ.map Fin.castSuccEmb := by
    ext i
    simp only [Finset.mem_erase, Finset.mem_univ, and_true, Finset.mem_map, true_and, Fin.coe_castSuccEmb, Fin.exists_castSucc_eq]
  rw [bigSep_univ_split (Fin.last n), e, bigSep_map]
  rfl

section Tokens
variable (c : Dev nD)

/-- One read share of the rows, cut at its copy's columns. -/
theorem xTok_cut (f : Fin 7) :
    ((((c : Thread nD τ).loc main_arg0) ↦[Finset.univ]{tok f.castSucc} X m c) : sProp 𝕄) ⊣⊢ iprop(xTok m c f ∗ xOff m c f) :=
  pointsTo_split_subset (Finset.subset_univ _)
theorem xTokO_cut :
    ((((c : Thread nD τ).loc main_arg0) ↦[Finset.univ]{tok (Fin.last 7)} X m c) : sProp 𝕄) ⊣⊢ iprop(xTokO m c ∗ xOffO m c) :=
  pointsTo_split_subset (Finset.subset_univ _)
theorem xRest_def :
    ((((c : Thread nD τ).loc main_arg0) ↦[Finset.univ]{Transfers.shareDrop fullShare 8} X m c) : sProp 𝕄) = xRest m c := rfl

end Tokens

/-- The rows at their full share give the remainder and the eight read shares, each cut at its copy's columns. -/
theorem x_split (c : Dev nD) :
    ((((c : Thread nD τ).loc main_arg0) ↦{fullShare} X m c) : sProp 𝕄)
      ⊢ iprop(xRest m c ∗ (bigSep Finset.univ fun f : Fin 7 => iprop(xTok m c f ∗ xOff m c f)) ∗ xTokO m c ∗ xOffO m c) := by
  refine (Transfers.pointsTo_toks_split (ℓ := (c : Thread nD τ).loc main_arg0) (S := Finset.univ) (f := X m c) fullShare 8).trans ?_
  rw [bigSep_univ_last (n := 7), xRest_def]
  have hb : (bigSep Finset.univ fun f : Fin 7 => (((c : Thread nD τ).loc main_arg0) ↦[Finset.univ]{tok f.castSucc} X m c : sProp 𝕄))
      ⊢ bigSep Finset.univ fun f : Fin 7 => iprop(xTok m c f ∗ xOff m c f) :=
    bigSep_mono fun f _ => (xTok_cut m c f).1
  have hl := (xTokO_cut m c).1
  iintro ⟨Hr, Hl, Hs⟩
  isplitl [Hr]
  · iexact Hr
  isplitl [Hs]
  · iapply hb; iexact Hs
  · iapply hl; iexact Hl

/-- and back. -/
theorem x_join (c : Dev nD) :
    iprop(xRest m c ∗ (bigSep Finset.univ fun f : Fin 7 => iprop(xTok m c f ∗ xOff m c f)) ∗ xTokO m c ∗ xOffO m c)
      ⊢ ((((c : Thread nD τ).loc main_arg0) ↦{fullShare} X m c) : sProp 𝕄) := by
  refine BIBase.Entails.trans ?_ (Transfers.pointsTo_toks_join (ℓ := (c : Thread nD τ).loc main_arg0) (S := Finset.univ) (f := X m c) fullShare 8)
  rw [bigSep_univ_last (n := 7), xRest_def]
  have hb : (bigSep Finset.univ fun f : Fin 7 => iprop(xTok m c f ∗ xOff m c f))
      ⊢ bigSep Finset.univ fun f : Fin 7 => (((c : Thread nD τ).loc main_arg0) ↦[Finset.univ]{tok f.castSucc} X m c : sProp 𝕄) :=
    bigSep_mono fun f _ => (xTok_cut m c f).2
  have hl := (xTokO_cut m c).2
  iintro ⟨Hr, Hs, Hl⟩
  isplitl [Hr]
  · iexact Hr
  isplitl [Hl]
  · iapply hl; iexact Hl
  · iapply hb; iexact Hs

/-- info: 'Cert.Kernel.A2A.out_join' depends on axioms: [propext, Classical.choice, Quot.sound] -/
#guard_msgs in #print axioms out_join

end Cert.Kernel.A2A

end
-- ==== Proof.KernelA2A.Steps.lean ====
/-
  The pieces the body's run is made of: how the products a device holds expand, the parts each buffer is held by,
  and one lemma per kind of operation of the body — a staging copy, an entry signal, the barrier wait, a wait on a DMA
  cell, a transfer to a peer, the own copy — each applying the semaphore discipline's rule for it at this schedule.
-/
import proofs.«900616_g7700000000000617_dist_a2a_v7x_i8_i_m2048_n512_bf16_1_alg».proof.Proof.KernelA2A.Tables
import proofs.«900616_g7700000000000617_dist_a2a_v7x_i8_i_m2048_n512_bf16_1_alg».proof.Proof.Gen.Kernel.Points

noncomputable section

namespace Cert.Kernel.A2A.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Expanding the finite products a device holds -/

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A product over the devices: device `c`'s factor, and the others' listed by slot; -/
theorem bigSep_dev_peers (Φ : Dev nD → sProp 𝕄) (c : Dev nD) :
    bigSep Finset.univ Φ = iprop(Φ c ∗ bigSep Finset.univ fun f : Fin 7 => Φ (peer c f)) := by
  rw [← Finset.insert_erase (Finset.mem_univ c), bigSep_insert (Finset.notMem_erase c _), others_eq_peers, bigSep_map]
  rfl
/-- or listed in the order of the entry signals. -/
theorem bigSep_dev_bdevs (Φ : Dev nD → sProp 𝕄) (c : Dev nD) :
    bigSep Finset.univ Φ = iprop(Φ c ∗ bigSep Finset.univ fun k : Fin 7 => Φ (bdev c k)) := by
  rw [← Finset.insert_erase (Finset.mem_univ c), bigSep_insert (Finset.notMem_erase c _), others_eq_bdevs, bigSep_map]
  rfl

/-! ## The parts each buffer is held by (the facts about them are supplied where the body is used) -/

abbrev xTok (c : Dev nD) (f : Fin 7) : sProp 𝕄 := (xS c f).view.loc (c : Thread nD τ) ↦[(xS c f).view.set]{tok f.castSucc} Xs m c f
abbrev xOff (c : Dev nD) (f : Fin 7) : sProp 𝕄 := (xS c f).view.loc (c : Thread nD τ) ↦[Finset.univ \ (xS c f).view.set]{tok f.castSucc} Xs m c f
abbrev xTokO (c : Dev nD) : sProp 𝕄 := (xO c).view.loc (c : Thread nD τ) ↦[(xO c).view.set]{tok (Fin.last 7)} Xo m c
abbrev xOffO (c : Dev nD) : sProp 𝕄 := (xO c).view.loc (c : Thread nD τ) ↦[Finset.univ \ (xO c).view.set]{tok (Fin.last 7)} Xo m c
abbrev xRest (c : Dev nD) : sProp 𝕄 := ((c : Thread nD τ).loc main_arg0) ↦[Finset.univ]{Transfers.shareDrop fullShare 8} X m c
abbrev fPart (c : Dev nD) (f : Fin 7) : sProp 𝕄 := iprop(∃ g' : Buf (Elt F) ((fS f).view.loc (c : Thread nD τ)), (fS f).view.loc (c : Thread nD τ) ↦[(fS f).view.set]{fullShare} g')
abbrev bPart (c : Dev nD) (f : Fin 7) : sProp 𝕄 := iprop(∃ g' : Buf (Elt F) ((bS f).view.loc (c : Thread nD τ)), (bS f).view.loc (c : Thread nD τ) ↦[(bS f).view.set]{fullShare} g')
abbrev oPart (c s : Dev nD) : sProp 𝕄 := iprop(∃ g' : Buf (Elt F) ((oS s).view.loc (c : Thread nD τ)), (oS s).view.loc (c : Thread nD τ) ↦[(oS s).view.set]{fullShare} g')

/-- How a device's buffers split into the parts the copies move and join again, and what the staged columns are. -/
structure GeomFacts : Prop where
  x_split : ∀ c : Dev nD, ((((c : Thread nD τ).loc main_arg0) ↦{fullShare} X m c) : sProp 𝕄)
    ⊢ iprop(xRest m c ∗ (bigSep Finset.univ fun f : Fin 7 => iprop(xTok m c f ∗ xOff m c f)) ∗ xTokO m c ∗ xOffO m c)
  x_join : ∀ c : Dev nD, iprop(xRest m c ∗ (bigSep Finset.univ fun f : Fin 7 => iprop(xTok m c f ∗ xOff m c f)) ∗ xTokO m c ∗ xOffO m c)
    ⊢ ((((c : Thread nD τ).loc main_arg0) ↦{fullShare} X m c) : sProp 𝕄)
  out_split : ∀ (c : Dev nD) (g : Buf (Elt F) ((c : Thread nD τ).loc main_v1)), ((((c : Thread nD τ).loc main_v1) ↦{fullShare} g) : sProp 𝕄)
    ⊢ bigSep Finset.univ fun s : Dev nD => oPart (F := F) c s
  out_landed : ∀ (c s : Dev nD) (fd : Buf (Elt F) ((oS s).view.loc (c : Thread nD τ))),
    (((oS s).view.loc (c : Thread nD τ) ↦[(oS s).view.set]{fullShare} (oS s).view.write (Elt F) fd (pay (xcol m s c)) Finset.univ) : sProp 𝕄)
      ⊢ ((oS s).view.loc (c : Thread nD τ) ↦[(oS s).view.set]{fullShare} outAt m c s)
  out_join : ∀ c : Dev nD, (bigSep Finset.univ fun s : Dev nD => ((oS s).view.loc (c : Thread nD τ) ↦[(oS s).view.set]{fullShare} outAt m c s : sProp 𝕄))
    ⊢ ((((c : Thread nD τ).loc main_v1) ↦{fullShare} outFn m c) : sProp 𝕄)
  f_split : ∀ (c : Dev nD) (g : Buf (Elt F) ((c : Thread nD τ).loc cc0_scratch0)), ((((c : Thread nD τ).loc cc0_scratch0) ↦{fullShare} g) : sProp 𝕄)
    ⊢ bigSep Finset.univ fun f : Fin 7 => fPart (F := F) c f
  f_join : ∀ c : Dev nD, (bigSep Finset.univ fun f : Fin 7 => fPart (F := F) c f)
    ⊢ iprop(∃ g : Buf (Elt F) ((c : Thread nD τ).loc cc0_scratch0), ((c : Thread nD τ).loc cc0_scratch0) ↦{fullShare} g)
  b_split : ∀ (c : Dev nD) (g : Buf (Elt F) ((c : Thread nD τ).loc cc0_scratch1)), ((((c : Thread nD τ).loc cc0_scratch1) ↦{fullShare} g) : sProp 𝕄)
    ⊢ bigSep Finset.univ fun f : Fin 7 => bPart (F := F) c f
  b_join : ∀ c : Dev nD, (bigSep Finset.univ fun f : Fin 7 => bPart (F := F) c f)
    ⊢ iprop(∃ g : Buf (Elt F) ((c : Thread nD τ).loc cc0_scratch1), ((c : Thread nD τ).loc cc0_scratch1) ↦{fullShare} g)
  xS_read : ∀ (c : Dev nD) (f : Fin 7), (xS c f).view.read (Elt F) (Xs m c f) = xcol m c (peer c f)
  xO_read : ∀ c : Dev nD, (xO c).view.read (Elt F) (Xo m c) = xcol m c c

/-- The splits, each product written out. -/
theorem x_split7 (hG : GeomFacts m) (c : Dev nD) : ((((c : Thread nD τ).loc main_arg0) ↦{fullShare} X m c) : sProp 𝕄)
    ⊢ iprop(xRest m c ∗ ((xTok m c 0 ∗ xOff m c 0) ∗ (xTok m c 1 ∗ xOff m c 1) ∗ (xTok m c 2 ∗ xOff m c 2) ∗ (xTok m c 3 ∗ xOff m c 3)
        ∗ (xTok m c 4 ∗ xOff m c 4) ∗ (xTok m c 5 ∗ xOff m c 5) ∗ (xTok m c 6 ∗ xOff m c 6)) ∗ xTokO m c ∗ xOffO m c) :=
  (hG.x_split c).trans (Entails.of_eq (by rw [bigSep_fin7]))
theorem x_join7 (hG : GeomFacts m) (c : Dev nD) :
    iprop(xRest m c ∗ ((xTok m c 0 ∗ xOff m c 0) ∗ (xTok m c 1 ∗ xOff m c 1) ∗ (xTok m c 2 ∗ xOff m c 2) ∗ (xTok m c 3 ∗ xOff m c 3)
        ∗ (xTok m c 4 ∗ xOff m c 4) ∗ (xTok m c 5 ∗ xOff m c 5) ∗ (xTok m c 6 ∗ xOff m c 6)) ∗ xTokO m c ∗ xOffO m c)
      ⊢ ((((c : Thread nD τ).loc main_arg0) ↦{fullShare} X m c) : sProp 𝕄) :=
  (Entails.of_eq (by rw [bigSep_fin7])).trans (hG.x_join c)
theorem f_split7 (hG : GeomFacts m) (c : Dev nD) (g : Buf (Elt F) ((c : Thread nD τ).loc cc0_scratch0)) :
    ((((c : Thread nD τ).loc cc0_scratch0) ↦{fullShare} g) : sProp 𝕄)
      ⊢ iprop(fPart (F := F) c 0 ∗ fPart (F := F) c 1 ∗ fPart (F := F) c 2 ∗ fPart (F := F) c 3 ∗ fPart (F := F) c 4 ∗ fPart (F := F) c 5 ∗ fPart (F := F) c 6) :=
  (hG.f_split c g).trans (Entails.of_eq (bigSep_fin7 _))
theorem f_join7 (hG : GeomFacts m) (c : Dev nD) :
    iprop(fPart (F := F) c 0 ∗ fPart (F := F) c 1 ∗ fPart (F := F) c 2 ∗ fPart (F := F) c 3 ∗ fPart (F := F) c 4 ∗ fPart (F := F) c 5 ∗ fPart (F := F) c 6)
      ⊢ iprop(∃ g : Buf (Elt F) ((c : Thread nD τ).loc cc0_scratch0), ((c : Thread nD τ).loc cc0_scratch0) ↦{fullShare} g) :=
  (Entails.of_eq (bigSep_fin7 _).symm).trans (hG.f_join c)
theorem b_split7 (hG : GeomFacts m) (c : Dev nD) (g : Buf (Elt F) ((c : Thread nD τ).loc cc0_scratch1)) :
    ((((c : Thread nD τ).loc cc0_scratch1) ↦{fullShare} g) : sProp 𝕄)
      ⊢ iprop(bPart (F := F) c 0 ∗ bPart (F := F) c 1 ∗ bPart (F := F) c 2 ∗ bPart (F := F) c 3 ∗ bPart (F := F) c 4 ∗ bPart (F := F) c 5 ∗ bPart (F := F) c 6) :=
  (hG.b_split c g).trans (Entails.of_eq (bigSep_fin7 _))
theorem b_join7 (hG : GeomFacts m) (c : Dev nD) :
    iprop(bPart (F := F) c 0 ∗ bPart (F := F) c 1 ∗ bPart (F := F) c 2 ∗ bPart (F := F) c 3 ∗ bPart (F := F) c 4 ∗ bPart (F := F) c 5 ∗ bPart (F := F) c 6)
      ⊢ iprop(∃ g : Buf (Elt F) ((c : Thread nD τ).loc cc0_scratch1), ((c : Thread nD τ).loc cc0_scratch1) ↦{fullShare} g) :=
  (Entails.of_eq (bigSep_fin7 _).symm).trans (hG.b_join c)
/-- The result buffer: the device's own rows block, and the seven it hands to the other devices, in the order of its entry signals. -/
theorem out_split8 (hG : GeomFacts m) (c : Dev nD) (g : Buf (Elt F) ((c : Thread nD τ).loc main_v1)) :
    ((((c : Thread nD τ).loc main_v1) ↦{fullShare} g) : sProp 𝕄)
      ⊢ iprop(oPart (F := F) c c ∗ oPart (F := F) c (bdev c 0) ∗ oPart (F := F) c (bdev c 1) ∗ oPart (F := F) c (bdev c 2) ∗ oPart (F := F) c (bdev c 3)
          ∗ oPart (F := F) c (bdev c 4) ∗ oPart (F := F) c (bdev c 5) ∗ oPart (F := F) c (bdev c 6)) :=
  (hG.out_split c g).trans (Entails.of_eq (by rw [bigSep_dev_bdevs _ c, bigSep_fin7]))
/-- and back: the own block and the seven the other devices wrote, listed by slot, at their final contents. -/
theorem out_join8 (hG : GeomFacts m) (c : Dev nD) :
    iprop(((oS c).view.loc (c : Thread nD τ) ↦[(oS c).view.set]{fullShare} outAt m c c)
        ∗ recvPay m c 0 ∗ recvPay m c 1 ∗ recvPay m c 2 ∗ recvPay m c 3 ∗ recvPay m c 4 ∗ recvPay m c 5 ∗ recvPay m c 6)
      ⊢ ((((c : Thread nD τ).loc main_v1) ↦{fullShare} outFn m c) : sProp 𝕄) :=
  (Entails.of_eq (by rw [bigSep_dev_peers _ c, bigSep_fin7]; rfl)).trans (hG.out_join c)

/-! ## The steps, one lemma per kind of operation -/

section Steps
variable (K : Dev nD × SemLoc sig → ℕ) (c : Dev nD)

/-- One cell's invariant out of the shared records. -/
theorem inv_at (ck : Dev nD × SemLoc sig) : records m K ⊢ (cellInv ER (Rd m) (K ck) (cell ck.1 ck.2) : sProp 𝕄) :=
  sep_elim_left.trans (bigSep_elim (Φ := fun ck : Dev nD × SemLoc sig => (cellInv ER (Rd m) (K ck) (cell ck.1 ck.2) : sProp 𝕄)) (Finset.mem_univ ck))
theorem reached_at (ck : Dev nD × SemLoc sig) : records m K ⊢ (reached ER (cell ck.1 ck.2) 0 : sProp 𝕄) :=
  sep_elim_right.trans (bigSep_elim (Φ := fun ck : Dev nD × SemLoc sig => (reached ER (cell ck.1 ck.2) 0 : sProp 𝕄)) (Finset.mem_univ ck))

/-- Slot `f`'s staging copy, issued: the slot's read token and staging columns go in, the copy's credit comes back. -/
theorem wp_stage {α : Type} {Q : α → sProp (MT nD τ sig Unit (Elt F) ℕ UU ℕ)} (hG : GeomFacts m) (f : Fin 7)
    {hsrc : (xS c f).view.WordExact} {hdst : (fS f).view.WordExact} {hsem : DmaTarget.Typed (nD := nD) (τ := τ) (p := Proc.tc) .hbm (.dma (stageS f.castSucc)) (DmaTarget.here (fS f))}
    {k : PUnit → Prog (TpuEff nD τ sig (Elt F) Λ₀ .tc) α} :
    iprop(records m K ∗ xTok m c f ∗ fPart (F := F) c f ∗ dutyTok ER (stageCell c f.castSucc) 0 0)
      ⊢ iprop((cred (tallyAt (stageCell c f.castSucc) () N32) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xS c f) (.here (fS f)) (.dma (stageS f.castSucc)) hsrc hdst hsem) k) Q) := by
  iintro ⟨#HI, Hx, ⟨%g, Hf⟩, Ht⟩
  iapply (Rounds.wp_copy_pointsTo 𝒱₀ ER (Rd m) (c : Thread nD τ) none (src := xS c f) (dst := fS f) (sem := .dma (stageS f.castSucc)) (q := tok f.castSucc) (fs := Xs m c f)
      (κ := K (c, .dma (stageS f.castSucc))) (r := 0) (d := 0) (fd := g)
      (by rw [duties_dma]; exact Finset.mem_singleton_self _) () N32 rfl (amount_stage m c f.castSucc 0)
      (by
        rw [payload_stage]; unfold stagePay
        iintro ⟨Hd, Hs⟩
        isplitl [Hd]
        · iexists _; isplitr
          · ipureintro; exact (View.read_write_univ g _).trans (hG.xS_read c f)
          · iexact Hd
        · iexact Hs))
  isplitr; · iapply (inv_at m K (c, .dma (stageS f.castSucc))); iexact HI
  isplitl [Hx]; · iexact Hx
  isplitl [Hf]; · iexact Hf
  isplitl [Ht]; · iexact Ht
  iapply (reached_at m K (c, .dma (stageS f.castSucc))); iexact HI

/-- The own columns' staging copy, issued. -/
theorem wp_stage_own {α : Type} {Q : α → sProp (MT nD τ sig Unit (Elt F) ℕ UU ℕ)} (hG : GeomFacts m)
    {hsrc : (xO c).view.WordExact} {hdst : ofM.view.WordExact} {hsem : DmaTarget.Typed (nD := nD) (τ := τ) (p := Proc.tc) .hbm (.dma (stageS (Fin.last 7))) (DmaTarget.here ofM)}
    {k : PUnit → Prog (TpuEff nD τ sig (Elt F) Λ₀ .tc) α} (g : Buf (Elt F) ((c : Thread nD τ).loc cc0_scratch2)) :
    iprop(records m K ∗ xTokO m c ∗ (((c : Thread nD τ).loc cc0_scratch2) ↦{fullShare} g) ∗ dutyTok ER (stageCell c (Fin.last 7)) 0 0)
      ⊢ iprop((cred (tallyAt (stageCell c (Fin.last 7)) () N32) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xO c) (.here ofM) (.dma (stageS (Fin.last 7))) hsrc hdst hsem) k) Q) := by
  iintro ⟨#HI, Hx, Hf, Ht⟩
  iapply (Rounds.wp_copy_pointsTo 𝒱₀ ER (Rd m) (c : Thread nD τ) none
      (src := xO c) (dst := ofM) (sem := .dma (stageS (Fin.last 7))) (q := tok (Fin.last 7)) (fs := Xo m c)
      (κ := K (c, .dma (stageS (Fin.last 7)))) (r := 0) (d := 0) (fd := g)
      (by rw [duties_dma]; exact Finset.mem_singleton_self _) () N32 rfl (amount_stage m c (Fin.last 7) 0)
      (by
        rw [payload_ownstage]; unfold ownStagePay
        iintro ⟨Hd, Hs⟩
        isplitl [Hd]
        · iexists _; isplitr
          · ipureintro; exact (View.read_write_univ g _).trans (hG.xO_read c)
          · iexact Hd
        · iexact Hs))
  isplitr; · iapply (inv_at m K (c, .dma (stageS (Fin.last 7)))); iexact HI
  isplitl [Hx]; · iexact Hx
  isplitl [Hf]; · rw [show (ofM : Memref sig .tc .vmem S2048x512 .f32).view.set = Finset.univ from View.set_whole _]; iexact Hf
  isplitl [Ht]; · iexact Ht
  iapply (reached_at m K (c, .dma (stageS (Fin.last 7)))); iexact HI

/-- The `j`-th entry signal: device `c` hands `bdev c j` the rows block of its own result that `bdev c j` will write. -/
theorem wp_sig {α : Type} {Q : α → sProp (MT nD τ sig Unit (Elt F) ℕ UU ℕ)} (j : Fin 7) (O : CellTallies nD τ sig Unit) (W : Waits sig Unit) {k : PUnit → Prog (TpuEff nD τ sig (Elt F) Λ₀ .tc) α} :
    iprop(records m K ∗ owes (c : Thread nD τ) (O + tallyAt (barCell (bdev c j)) () 1) W ∗ dutyTok ER (barCell (bdev c j)) 0 c ∗ oPart (F := F) c (bdev c j))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((bdev c j : Dev nD) : Thread nD τ) barS 1) k) Q) := by
  iintro ⟨#HI, HO, Ht, Hp⟩
  iapply (Rounds.wp_signal 𝒱₀ ER (Rd m) (c : Thread nD τ) none (dst := ((bdev c j : Dev nD) : Thread nD τ)) (sem := barS) (κ := K (bdev c j, .reg barS)) (r := 0) (d := c)
      (by rw [duties_bar]; exact Finset.mem_erase.mpr ⟨(bdev_ne c j).symm, Finset.mem_univ _⟩) (amount_bar m (bdev c j) c) () O rfl)
  isplitr; · iapply (inv_at m K (bdev c j, .reg barS)); iexact HI
  isplitl [HO]; · iexact HO
  isplitl [Ht]; · iexact Ht
  isplitl [Hp]; · rw [payload_bar]; unfold barPay; iexact Hp
  iapply (reached_at m K (bdev c j, .reg barS)); iexact HI

/-- The wait for all seven entry signals, still owing only receive credit: every other device's rows block `c` comes with it. -/
theorem wp_bar_wait {α : Type} {Q : α → sProp (MT nD τ sig Unit (Elt F) ℕ UU ℕ)} (O : CellTallies nD τ sig Unit) (W : Waits sig Unit) (hO : ∀ g u, 0 < O g u → IsRecv g) {k : PUnit → Prog (TpuEff nD τ sig (Elt F) Λ₀ .tc) α} :
    iprop(records m K ∗ levAts L lv ∗ cred (tallyAt (barCell c) () 7) ∗ owes (c : Thread nD τ) O W ∗ atPos ER (barCell c) 0 ∅ 0)
      ⊢ iprop(((owes (c : Thread nD τ) O (insert (SemLoc.reg barS, ()) W) ∗ atPos ER (barCell c) (0 + 1) ∅ 0
              ∗ (barPay c (peer c 0) ∗ barPay c (peer c 1) ∗ barPay c (peer c 2) ∗ barPay c (peer c 3) ∗ barPay c (peer c 4) ∗ barPay c (peer c 5) ∗ barPay (F := F) c (peer c 6)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  iintro ⟨#HI, #Hlev, Hc, HO, Hat⟩ Hk
  iapply (Rounds.wp_wait_rest_token 𝒱₀ ER (Rd m) (c : Thread nD τ) none (κ := K (c, .reg barS))
      (wpE_semWait_eq 𝒱₀ (c : Thread nD τ) none Set.univ) (Set.mem_univ _) () (O := O) (W := W) (R := 0) (m := 0) (T := ∅)
      (by rw [expect_bar])) $$ [Hc HO Hat]
  · isplitr; · iapply (inv_at m K (c, .reg barS)); iexact HI
    isplitl [Hc]; · iexact Hc
    isplitl [HO]; · iexact HO
    isplitr; · iapply (mayWait_bar c O hO); iexact Hlev
    iexact Hat
  iintro ⟨HO, Hat, -, Hpay⟩
  iapply Hk
  isplitl [HO]; · iexact HO
  isplitl [Hat]; · iexact Hat
  iapply (Entails.of_eq ((rest_bar m c).trans (bigSep_fin7 _))) $$ Hpay

/-- The wait on one of the device's DMA cells for its one copy: the copy's payload comes with it. -/
theorem wp_wait_cell {α : Type} {Q : α → sProp (MT nD τ sig Unit (Elt F) ℕ UU ℕ)} (j : DmaSem sig) (O : CellTallies nD τ sig Unit) (W : Waits sig Unit)
    (hmw : (levAts L lv : sProp (MT nD τ sig Unit (Elt F) ℕ UU ℕ)) ⊢ MayWait (c : Thread nD τ) (.dma j) () O)
    {sp sp' : Space} {s s' : Shape} {e e' : EltTy} {src : Memref sig .tc sp' s' e'} {dst : Memref sig .tc sp s e} {hsrc : src.view.WordExact} {hdst : dst.view.WordExact}
    (hN : dst.view.dmaCredit = (Rd (F := F) m).amount (cell c (.dma j)) 0 0) {k : PUnit → Prog (TpuEff nD τ sig (Elt F) Λ₀ .tc) α} :
    iprop(records m K ∗ levAts L lv ∗ cred (tallyAt (cell c (.dma j)) () dst.view.dmaCredit) ∗ owes (c : Thread nD τ) O W ∗ atPos ER (cell c (.dma j)) 0 ∅ 0)
      ⊢ iprop(((owes (c : Thread nD τ) O (insert (SemLoc.dma j, ()) W) ∗ atPos ER (cell c (.dma j)) (0 + 1) ∅ 0 ∗ (Rd (F := F) m).payload (cell c (.dma j)) 0 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 j src dst hsrc hdst) k) Q) := by
  iintro ⟨#HI, #Hlev, Hc, HO, Hat⟩ Hk
  iapply (Rounds.wp_wait_rest_token 𝒱₀ ER (Rd m) (c : Thread nD τ) none (κ := K (c, .dma j))
      (wpE_waitDma2_eq 𝒱₀ (c : Thread nD τ) none Set.univ) (Set.mem_univ _) () (O := O) (W := W) (R := 0) (m := 0) (T := ∅)
      (by rw [Nat.zero_add, expect_dma, hN])) $$ [Hc HO Hat]
  · isplitr; · iapply (inv_at m K (c, .dma j)); iexact HI
    isplitl [Hc]; · iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iapply (Entails.of_eq (rest_dma m c j)) $$ Hpay

/-- Slot `f`'s transfer, issued: the rounded columns' buffer and the peer's rows block `c` go in; the departure's credit comes back and the arrival is paid off what the device owes. What lands is the peer's final contents on that block. -/
theorem wp_send_slot {α : Type} {Q : α → sProp (MT nD τ sig Unit (Elt F) ℕ UU ℕ)} (hG : GeomFacts m) (f : Fin 7) (O : CellTallies nD τ sig Unit) (W : Waits sig Unit)
    (gs : Buf (Elt F) ((bS f).view.loc (c : Thread nD τ))) (hgs : (bS f).view.read (Elt F) gs = pay (xcol m c (peer c f)))
    {hsc : (oS c : Memref sig ((peer c f : Dev nD) : Thread nD τ).2.kind .hbm S2048x512 .bf16).view.ref.isScScratch = false}
    {hsrc : (bS f).view.WordExact} {hdst : (oS c).view.WordExact}
    {hsem : DmaTarget.Typed (nD := nD) (τ := τ) (p := Proc.tc) .vmem (.dma (recvS f)) (DmaTarget.remote ((peer c f : Dev nD) : Thread nD τ) (oS c) (.dma (sendS f)) hsc)}
    {k : PUnit → Prog (TpuEff nD τ sig (Elt F) Λ₀ .tc) α} :
    iprop(records m K ∗ ((bS f).view.loc (c : Thread nD τ) ↦[(bS f).view.set]{fullShare} gs) ∗ barPay (F := F) c (peer c f)
        ∗ owes (c : Thread nD τ) (O + tallyAt (recvCell (peer c f) f) () N16) W ∗ dutyTok ER (sendCell c f) 0 0 ∗ dutyTok ER (recvCell (peer c f) f) 0 0)
      ⊢ iprop(((cred (tallyAt (sendCell c f) () N16) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (bS f) (.remote ((peer c f : Dev nD) : Thread nD τ) (oS c) (.dma (sendS f)) hsc) (.dma (recvS f)) hsrc hdst hsem) k) Q) := by
  unfold barPay
  iintro ⟨#HI, Hs, ⟨%fd, Hd⟩, HO, Ht1, Ht2⟩
  iapply (Rounds.wp_send_pointsTo 𝒱₀ ER (Rd m) (c : Thread nD τ) none (c' := ((peer c f : Dev nD) : Thread nD τ)) (src := bS f) (dst := oS c)
      (sS := .dma (sendS f)) (sem := .dma (recvS f)) (q := fullShare) (fs := gs) (fd := fd)
      (κ₁ := K (c, .dma (sendS f))) (κ₂ := K (peer c f, .dma (recvS f))) (r₁ := 0) (r₂ := 0) (d₁ := 0) (d₂ := 0)
      (by rw [duties_dma]; exact Finset.mem_singleton_self _) (by rw [duties_dma]; exact Finset.mem_singleton_self _)
      () () N16 rfl (amount_send m c f 0) (amount_recv m (peer c f) f 0) O rfl (W := W)
      (by rw [payload_send]; unfold sendPay; iintro H; iexists gs; iexact H)
      (by
        rw [payload_recv, hgs]; unfold recvPay
        have hpp := peer_peer c f
        revert hpp
        generalize peer (peer c f) f = s
        intro hs; subst hs
        exact hG.out_landed (peer s f) s fd))
  isplitr; · iapply (inv_at m K (c, .dma (sendS f))); iexact HI
  isplitr; · iapply (inv_at m K (peer c f, .dma (recvS f))); iexact HI
  isplitl [Hs]; · iexact Hs
  isplitl [Hd]; · iexact Hd
  isplitl [HO]; · iexact HO
  isplitl [Ht1]; · iexact Ht1
  isplitr; · iapply (reached_at m K (c, .dma (sendS f))); iexact HI
  isplitl [Ht2]; · iexact Ht2
  iapply (reached_at m K (peer c f, .dma (recvS f))); iexact HI

/-- The own copy, issued: the rounded own columns' buffer and the device's own rows block go in. -/
theorem wp_own_copy {α : Type} {Q : α → sProp (MT nD τ sig Unit (Elt F) ℕ UU ℕ)} (hG : GeomFacts m) (gs : Buf (Elt F) ((c : Thread nD τ).loc cc0_scratch3)) (hgs : obM.view.read (Elt F) gs = pay (xcol m c c))
    {hsrc : obM.view.WordExact} {hdst : (oS c).view.WordExact} {hsem : DmaTarget.Typed (nD := nD) (τ := τ) (p := Proc.tc) .vmem (.dma outS) (DmaTarget.here (oS c))}
    {k : PUnit → Prog (TpuEff nD τ sig (Elt F) Λ₀ .tc) α} :
    iprop(records m K ∗ (((c : Thread nD τ).loc cc0_scratch3) ↦{fullShare} gs) ∗ oPart (F := F) c c ∗ dutyTok ER (outCell c) 0 0)
      ⊢ iprop((cred (tallyAt (outCell c) () N16) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma obM (.here (oS c)) (.dma outS) hsrc hdst hsem) k) Q) := by
  iintro ⟨#HI, Hs, ⟨%fd, Hd⟩, Ht⟩
  iapply (Rounds.wp_copy_pointsTo 𝒱₀ ER (Rd m) (c : Thread nD τ) none
      (src := obM) (dst := oS c) (sem := .dma outS) (q := fullShare) (fs := gs)
      (κ := K (c, .dma outS)) (r := 0) (d := 0) (fd := fd)
      (by rw [duties_dma]; exact Finset.mem_singleton_self _) () N16 rfl (amount_out m c 0)
      (by
        rw [payload_out, hgs]; unfold outPay
        iintro ⟨Hd, Hs⟩
        isplitl [Hd]
        · iapply (hG.out_landed c c fd); iexact Hd
        · iexists gs; iexact Hs))
  isplitr; · iapply (inv_at m K (c, .dma outS)); iexact HI
  isplitl [Hs]; · rw [show (obM : Memref sig .tc .vmem S2048x512 .bf16).view.set = Finset.univ from View.set_whole _]; iexact Hs
  isplitl [Hd]; · iexact Hd
  isplitl [Ht]; · iexact Ht
  iapply (reached_at m K (c, .dma outS)); iexact HI

/-! ### Loads and stores, each in the form the device holds the buffer's part -/

abbrev r0 : Rect S2048x512 := Rect.unit (s := S2048x512) ![0, 0] S2048x512.size inb_S2048x512_S2048x512_0_0

/-- Slot `f`'s staged columns, loaded. -/
theorem wp_load_f {α : Type} {Q : α → sProp (MT nD τ sig Unit (Elt F) ℕ UU ℕ)} (f : Fin 7) (g : Buf (Elt F) ((fS f).view.loc (c : Thread nD τ)))
    {hl : fM.view.LoadsAt (colR f)} {k : ((colR f).shape.Idx → Elt F .f32) → Prog (TpuEff nD τ sig (Elt F) Λ₀ .tc) α} :
    ((fS f).view.loc (c : Thread nD τ) ↦[(fS f).view.set]{fullShare} g)
      ⊢ iprop((((fS f).view.loc (c : Thread nD τ) ↦[(fS f).view.set]{fullShare} g) -∗ wp frame (wpE (defs₀ (F := F)) 𝒱₀ (c : Thread nD τ) none) Set.univ (k ((fS f).view.read (Elt F) g)) Q)
          -∗ wp frame (wpE (defs₀ (F := F)) 𝒱₀ (c : Thread nD τ) none) Set.univ (.op (.load fM (colR f) hl) k) Q) :=
  wp_load_rect 𝒱₀ (c : Thread nD τ) none Set.univ (m := fM) (r := colR f) (S := (fS f).view.set) (q := fullShare) (f := g) subset_rfl

/-- Slot `f`'s columns of the rounded buffer, loaded (the value is not used). -/
theorem wp_load_b {α : Type} {Q : α → sProp (MT nD τ sig Unit (Elt F) ℕ UU ℕ)} (f : Fin 7) (g : Buf (Elt F) ((bS f).view.loc (c : Thread nD τ)))
    {hl : bM.view.LoadsAt (colR f)} {k : ((colR f).shape.Idx → Elt F .bf16) → Prog (TpuEff nD τ sig (Elt F) Λ₀ .tc) α} :
    ((bS f).view.loc (c : Thread nD τ) ↦[(bS f).view.set]{fullShare} g)
      ⊢ iprop((((bS f).view.loc (c : Thread nD τ) ↦[(bS f).view.set]{fullShare} g) -∗ wp frame (wpE (defs₀ (F := F)) 𝒱₀ (c : Thread nD τ) none) Set.univ (k ((bS f).view.read (Elt F) g)) Q)
          -∗ wp frame (wpE (defs₀ (F := F)) 𝒱₀ (c : Thread nD τ) none) Set.univ (.op (.load bM (colR f) hl) k) Q) :=
  wp_load_rect 𝒱₀ (c : Thread nD τ) none Set.univ (m := bM) (r := colR f) (S := (bS f).view.set) (q := fullShare) (f := g) subset_rfl

/-- and stored over. -/
theorem wp_store_b {α : Type} {Q : α → sProp (MT nD τ sig Unit (Elt F) ℕ UU ℕ)} (f : Fin 7) (g : Buf (Elt F) ((bS f).view.loc (c : Thread nD τ))) (w : (colR f).shape.Idx → Elt F .bf16)
    {hx : (bM.access (colR f)).Stores Finset.univ} {hm : (Finset.univ : Finset (colR f).shape.Idx) = Finset.univ ∨ ∀ a, (colR f).stride a = 1} {k : PUnit → Prog (TpuEff nD τ sig (Elt F) Λ₀ .tc) α} :
    ((bS f).view.loc (c : Thread nD τ) ↦[(bS f).view.set]{fullShare} g)
      ⊢ iprop((((bS f).view.loc (c : Thread nD τ) ↦[(bS f).view.set]{fullShare} (bS f).view.write (Elt F) g w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store bM (colR f) w Finset.univ hx hm) k) Q) :=
  wp_store 𝒱₀ (c : Thread nD τ) none Set.univ (m := bM) (r := colR f) (Mk := Finset.univ) (S := (bS f).view.set) (f := g) subset_rfl

/-- The own staged columns, loaded. -/
theorem wp_load_of {α : Type} {Q : α → sProp (MT nD τ sig Unit (Elt F) ℕ UU ℕ)} (g : Buf (Elt F) (ofM.view.loc (c : Thread nD τ)))
    {hl : ofM.view.LoadsAt r0} {k : (r0.shape.Idx → Elt F .f32) → Prog (TpuEff nD τ sig (Elt F) Λ₀ .tc) α} :
    (ofM.view.loc (c : Thread nD τ) ↦[ofM.view.set]{fullShare} g)
      ⊢ iprop(((ofM.view.loc (c : Thread nD τ) ↦[ofM.view.set]{fullShare} g) -∗ wp frame (wpE (defs₀ (F := F)) 𝒱₀ (c : Thread nD τ) none) Set.univ (k ((ofM.access r0).read (Elt F) g)) Q)
          -∗ wp frame (wpE (defs₀ (F := F)) 𝒱₀ (c : Thread nD τ) none) Set.univ (.op (.load ofM r0 hl) k) Q) :=
  wp_load_rect 𝒱₀ (c : Thread nD τ) none Set.univ (m := ofM) (r := r0) (S := ofM.view.set) (q := fullShare) (f := g) (View.set_slice_subset _ _)

/-- The own rounded buffer, loaded (the value is not used), -/
theorem wp_load_ob {α : Type} {Q : α → sProp (MT nD τ sig Unit (Elt F) ℕ UU ℕ)} (g : Buf (Elt F) ((c : Thread nD τ).loc cc0_scratch3))
    {hl : obM.view.LoadsAt r0} {k : (r0.shape.Idx → Elt F .bf16) → Prog (TpuEff nD τ sig (Elt F) Λ₀ .tc) α} :
    ((((c : Thread nD τ).loc cc0_scratch3) ↦{fullShare} g) : sProp (MT nD τ sig Unit (Elt F) ℕ UU ℕ))
      ⊢ iprop(((((c : Thread nD τ).loc cc0_scratch3) ↦{fullShare} g) -∗ wp frame (wpE (defs₀ (F := F)) 𝒱₀ (c : Thread nD τ) none) Set.univ (k ((obM.access r0).read (Elt F) g)) Q)
          -∗ wp frame (wpE (defs₀ (F := F)) 𝒱₀ (c : Thread nD τ) none) Set.univ (.op (.load obM r0 hl) k) Q) :=
  wp_load_rect 𝒱₀ (c : Thread nD τ) none Set.univ (m := obM) (r := r0) (S := Finset.univ) (q := fullShare) (f := g) (Finset.subset_univ _)

/-- and stored over. -/
theorem wp_store_ob {α : Type} {Q : α → sProp (MT nD τ sig Unit (Elt F) ℕ UU ℕ)} (g : Buf (Elt F) ((c : Thread nD τ).loc cc0_scratch3)) (w : r0.shape.Idx → Elt F .bf16)
    {hx : (obM.access r0).Stores Finset.univ} {hm : (Finset.univ : Finset r0.shape.Idx) = Finset.univ ∨ ∀ a, r0.stride a = 1} {k : PUnit → Prog (TpuEff nD τ sig (Elt F) Λ₀ .tc) α} :
    ((((c : Thread nD τ).loc cc0_scratch3) ↦{fullShare} g) : sProp (MT nD τ sig Unit (Elt F) ℕ UU ℕ))
      ⊢ iprop(((((c : Thread nD τ).loc cc0_scratch3) ↦{fullShare} (obM.access r0).write (Elt F) g w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store obM r0 w Finset.univ hx hm) k) Q) :=
  wp_store 𝒱₀ (c : Thread nD τ) none Set.univ (m := obM) (r := r0) (Mk := Finset.univ) (S := Finset.univ) (f := g) (Finset.subset_univ _)

end Steps

end Cert.Kernel.A2A.Run

end
-- ==== Proof.KernelA2A.GeomFacts.lean ====
/-
  The facts about how a device's buffers split and join, and what the staged columns are, gathered for the body's run.
-/
import proofs.«900616_g7700000000000617_dist_a2a_v7x_i8_i_m2048_n512_bf16_1_alg».proof.Proof.KernelA2A.Geom
import proofs.«900616_g7700000000000617_dist_a2a_v7x_i8_i_m2048_n512_bf16_1_alg».proof.Proof.KernelA2A.Steps

noncomputable section

namespace Cert.Kernel.A2A.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem geomFacts : GeomFacts m where
  x_split := fun c => Cert.Kernel.A2A.x_split m c
  x_join := fun c => Cert.Kernel.A2A.x_join m c
  out_split := fun c g => Cert.Kernel.A2A.out_split c g
  out_landed := fun c s fd => Cert.Kernel.A2A.out_landed m c s fd
  out_join := fun c => Cert.Kernel.A2A.out_join m c
  f_split := fun c g => Cert.Kernel.A2A.f_split c g
  f_join := fun c => Cert.Kernel.A2A.f_join c
  b_split := fun c g => Cert.Kernel.A2A.b_split c g
  b_join := fun c => Cert.Kernel.A2A.b_join c
  xS_read := fun c f => Cert.Kernel.A2A.xS_read m c f
  xO_read := fun c => Cert.Kernel.A2A.xO_read m c

end Cert.Kernel.A2A.Run

end
-- ==== Proof.KernelA2A.Close.lean ====
/-
  Handing the DMA semaphores back.

  After the body's waits a device has taken the one duty of round 0 of each of its 23 DMA cells and consumed its units:
  it stands at round 1 of each, nothing taken, nothing consumed, and no round from 1 on has a duty. The owner of such a
  cell closes it: the cell's invariant, opened, reads the counter at zero against that position, and the counter is the
  device's own again. Every cell's invariant is in the persistent records, so the 23 cells close one beside another.
-/
import proofs.«900616_g7700000000000617_dist_a2a_v7x_i8_i_m2048_n512_bf16_1_alg».proof.Proof.KernelA2A.Tables

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- The records hold every cell's invariant, under its name. -/
theorem records_cellInv (K : Dev nD × SemLoc sig → ℕ) (c : Dev nD) (sm : SemLoc sig) :
    records m K ⊢ (cellInv ER (Rd m) (K (c, sm)) (cell c sm) : sProp 𝕄) := by
  unfold records
  exact BI.Entails.trans (BI.Entails.trans BI.sep_and BI.and_elimL)
    (bigSep_elim (Φ := fun ck : Dev nD × SemLoc sig => (cellInv ER (Rd m) (K ck) (cell ck.1 ck.2) : sProp 𝕄))
      (Finset.mem_univ ((c, sm) : Dev nD × SemLoc sig)))

/-- One DMA cell of device `c`, at round 1 with nothing taken or consumed, closes: its counter is at zero. No duty of
    the schedule is without units, and no round from 1 on has a duty. -/
theorem cell_close_dma (K : Dev nD × SemLoc sig → ℕ) (c : Dev nD) (j : DmaSem sig) :
    iprop(records m K ∗ atPos ER (cell c (.dma j)) 1 ∅ 0)
      ⊢ (|={Set.univ}=> semVal (cell c (.dma j)) 0 : sProp 𝕄) :=
  (sep_mono_left (records_cellInv m K c (.dma j))).trans
    (Rounds.cell_close ER (Rd m) (Set.mem_univ (K (c, SemLoc.dma j))) (fun h => h) (R := 1)
      (duties_later m (cell c (.dma j))))

/-- All 23 DMA cells of device `c` close at once. -/
theorem cells_close (K : Dev nD × SemLoc sig → ℕ) (c : Dev nD) :
    iprop(records m K ∗ bigSep Finset.univ fun j : DmaSem sig => atPos ER (cell c (.dma j)) 1 ∅ 0)
      ⊢ (|={Set.univ}=> bigSep Finset.univ fun j : DmaSem sig => semVal (cell c (.dma j)) 0 : sProp 𝕄) :=
  (bigSep_with_persistent (R := records m K) fun j _ => cell_close_dma m K c j).trans (bigSep_fupd _ _)

/-- info: 'Cert.Kernel.A2A.cells_close' depends on axioms: [propext, Classical.choice, Quot.sound] -/
#guard_msgs in #print axioms cells_close

end Cert.Kernel.A2A

end
-- ==== Proof.KernelA2A.Body.lean ====
/-
  One device's body, stepped operation by operation from the start state to the state after it: the eight staging
  copies issued, the seven entry signals (each handing a peer its rows block of this device's result), the wait for
  the seven signals in, then slot by slot the staged columns rounded and sent into the peer's result, the own
  columns rounded and copied, and the waits: departures, the own copy, arrivals. What comes back joins into the
  input rows unchanged and the result at its final contents.
-/
import proofs.«900616_g7700000000000617_dist_a2a_v7x_i8_i_m2048_n512_bf16_1_alg».proof.Proof.KernelA2A.Steps
import proofs.«900616_g7700000000000617_dist_a2a_v7x_i8_i_m2048_n512_bf16_1_alg».proof.Proof.KernelA2A.Close
import proofs.«900616_g7700000000000617_dist_a2a_v7x_i8_i_m2048_n512_bf16_1_alg».proof.Proof.Gen.Kernel.Points

noncomputable section

namespace Cert.Kernel.A2A.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

theorem bigSep_semLoc (Φ : SemLoc sig → sProp 𝕄) :
    bigSep Finset.univ Φ = iprop(Φ (.reg barS) ∗ bigSep Finset.univ fun j : DmaSem sig => Φ (.dma j)) := by
  have h : (Finset.univ : Finset (SemLoc sig)) = insert (.reg barS) (Finset.univ.map ⟨SemLoc.dma, fun a b h => by cases h; rfl⟩) := by decide
  rw [h, bigSep_insert (by decide), bigSep_map]
  rfl

theorem bigSep_fin23 (Φ : DmaSem sig → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11
      ∗ Φ 12 ∗ Φ 13 ∗ Φ 14 ∗ Φ 15 ∗ Φ 16 ∗ Φ 17 ∗ Φ 18 ∗ Φ 19 ∗ Φ 20 ∗ Φ 21 ∗ Φ 22) :=
  bigSep_univ_eq_bigSepL [0, 1, 2, 3, 4, 5, 6, 7, 8, 9, 10, 11, 12, 13, 14, 15, 16, 17, 18, 19, 20, 21, 22] (by decide) (by decide) Φ

theorem OR_pos' {c : Dev nD} {n : ℕ} (g : GSem nD τ sig) (u : Unit) (h : 0 < OR c n g u) : IsBarOrRecv g :=
  ⟨(OR_pos h).1, .inr (OR_pos h).2⟩

theorem hz : (![0, 0] : Fin 2 → Nat) = fun _ => 0 := funext fun a => by fin_cases a <;> rfl

theorem mayWait_zero (c : Dev nD) (sm : SemLoc sig) : (levAts L lv : sProp 𝕄) ⊢ MayWait (c : Thread nD τ) sm () 0 := by
  rw [MayWait_zero]; iintro -; iempintro

/-- What the own columns' buffer holds once rounded: the rounded own columns. -/
theorem own_rounded (c : Dev nD) (go : Buf (Elt F) (ofM.view.loc (c : Thread nD τ))) (f3 : Buf (Elt F) ((c : Thread nD τ).loc cc0_scratch3))
    (hgo : ofM.view.read (Elt F) go = xcol m c c) :
    obM.view.read (Elt F) ((obM.access r0).write (Elt F) f3 (k0_pay8 ((ofM.access r0).read (Elt F) go)) Finset.univ) = pay (xcol m c c) := by
  have hr : (ofM.access r0).read (Elt F) go = xcol m c c :=
    (Memref.read_access_unit_zero (Elt F) cc0_scratch2 hz _ go).trans hgo
  have hw : (obM.access r0).write (Elt F) f3 (k0_pay8 ((ofM.access r0).read (Elt F) go)) Finset.univ = k0_pay8 ((ofM.access r0).read (Elt F) go) :=
    Memref.write_access_unit_zero_univ (Elt F) cc0_scratch3 hz _ f3 _
  rw [hw, hr]
  rfl

/-- What a device owes, at some recorded waits within the bound, as the pipeline holds it. -/
theorem owes_within (c : Dev nD) (O : CellTallies nD τ sig Unit) (W : Waits sig Unit) (B : Set (SemLoc sig × Unit)) (hB : (↑W : Set (SemLoc sig × Unit)) ⊆ B) :
    (owes (c : Thread nD τ) O W : sProp 𝕄) ⊢ Pipeline.owesWithin c O B := by
  unfold Pipeline.owesWithin
  iintro H
  iexists W
  isplitr; · ipureintro; exact hB
  iexact H

def bodyPre (K : Dev nD × SemLoc sig → ℕ) (c : Dev nD) : sProp 𝕄 :=
  iprop(ghost m K c ∗ cred (tallyAt (barCell c) () 7) ∗ (bigSep Finset.univ fun f : Fin 7 => cred (tallyAt (recvCell c f) () N16)) ∗ levAts L lv
    ∗ (((c : Thread nD τ).loc main_arg0) ↦{fullShare} X m c) ∗ (((c : Thread nD τ).loc main_v1) ↦{fullShare} m ((c : Thread nD τ).loc main_v1)) ∗ scr c
    ∗ (dats m 0 c).owesAt () t0_0.castSucc)

def bodyPost (c : Dev nD) : sProp 𝕄 := iprop(Φ₁ m c ∗ (dats m 0 c).owesAt () t0_0.succ)

set_option maxRecDepth 65536 in
set_option maxHeartbeats 6400000 in
theorem sound_body (hG : GeomFacts m) (K : Dev nD × SemLoc sig → ℕ) (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel
    k0_part11_skel k0_part12_skel k0_part13_skel
  simp only [semSignalWord, semWaitWord, Prog.lift, Prog.bind_op, Prog.bind_ret, Prog.pure_eq_ret, wp_deviceId]
  iintro ⟨Hpre, Hk⟩
  unfold bodyPre ghost linear payToks ownToks scr
  rw [bigSep_semLoc, bigSep_fin23, bigSep_fin7, bigSep_fin7, bigSep_fin7, bigSep_fin8, bigSep_fin7]
  icases Hpre with ⟨⟨#HI, ⟨HaB, Ha0, Ha1, Ha2, Ha3, Ha4, Ha5, Ha6, Ha7, Ha8, Ha9, Ha10, Ha11, Ha12, Ha13, Ha14, Ha15, Ha16, Ha17, Ha18, Ha19, Ha20, Ha21, Ha22⟩,
      ⟨HtB0, HtB1, HtB2, HtB3, HtB4, HtB5, HtB6⟩, ⟨HtR0, HtR1, HtR2, HtR3, HtR4, HtR5, HtR6⟩,
      ⟨HtS0, HtS1, HtS2, HtS3, HtS4, HtS5, HtS6, HtS7⟩, ⟨HtD0, HtD1, HtD2, HtD3, HtD4, HtD5, HtD6⟩, HtO⟩,
    HcB, ⟨HcR0, HcR1, HcR2, HcR3, HcR4, HcR5, HcR6⟩, #Hlev, Hx, Hout, ⟨⟨%f0, Hs0⟩, ⟨%f1, Hs1⟩, ⟨%f2, Hs2⟩, ⟨%f3, Hs3⟩⟩, Ho⟩
  ihave Hx' := (x_split7 m hG c) $$ Hx
  icases Hx' with ⟨Hxr, ⟨⟨Hxt0, Hxo0⟩, ⟨Hxt1, Hxo1⟩, ⟨Hxt2, Hxo2⟩, ⟨Hxt3, Hxo3⟩, ⟨Hxt4, Hxo4⟩, ⟨Hxt5, Hxo5⟩, ⟨Hxt6, Hxo6⟩⟩, HxtO, HxoO⟩
  ihave Hf' := (f_split7 m hG c f0) $$ Hs0
  icases Hf' with ⟨Hf0, Hf1, Hf2, Hf3, Hf4, Hf5, Hf6⟩
  ihave Hb' := (b_split7 m hG c f1) $$ Hs1
  icases Hb' with ⟨Hb0, Hb1, Hb2, Hb3, Hb4, Hb5, Hb6⟩
  ihave Ho' := (out_split8 m hG c _) $$ Hout
  icases Ho' with ⟨Hoc, Ho0, Ho1, Ho2, Ho3, Ho4, Ho5, Ho6⟩
  -- the eight staging copies are issued
  iapply (wp_stage m K c hG 0) $$ [Hxt0 Hf0 HtS0]
  · isplitr; · iexact HI
    isplitl [Hxt0]; · iexact Hxt0
    isplitl [Hf0]; · iexact Hf0
    iexact HtS0
  iintro HcS0
  iapply (wp_stage m K c hG 1) $$ [Hxt1 Hf1 HtS1]
  · isplitr; · iexact HI
    isplitl [Hxt1]; · iexact Hxt1
    isplitl [Hf1]; · iexact Hf1
    iexact HtS1
  iintro HcS1
  iapply (wp_stage m K c hG 2) $$ [Hxt2 Hf2 HtS2]
  · isplitr; · iexact HI
    isplitl [Hxt2]; · iexact Hxt2
    isplitl [Hf2]; · iexact Hf2
    iexact HtS2
  iintro HcS2
  iapply (wp_stage m K c hG 3) $$ [Hxt3 Hf3 HtS3]
  · isplitr; · iexact HI
    isplitl [Hxt3]; · iexact Hxt3
    isplitl [Hf3]; · iexact Hf3
    iexact HtS3
  iintro HcS3
  iapply (wp_stage m K c hG 4) $$ [Hxt4 Hf4 HtS4]
  · isplitr; · iexact HI
    isplitl [Hxt4]; · iexact Hxt4
    isplitl [Hf4]; · iexact Hf4
    iexact HtS4
  iintro HcS4
  iapply (wp_stage m K c hG 5) $$ [Hxt5 Hf5 HtS5]
  · isplitr; · iexact HI
    isplitl [Hxt5]; · iexact Hxt5
    isplitl [Hf5]; · iexact Hf5
    iexact HtS5
  iintro HcS5
  iapply (wp_stage m K c hG 6) $$ [Hxt6 Hf6 HtS6]
  · isplitr; · iexact HI
    isplitl [Hxt6]; · iexact Hxt6
    isplitl [Hf6]; · iexact Hf6
    iexact HtS6
  iintro HcS6
  iapply (wp_stage_own m K c hG f2) $$ [HxtO Hs2 HtS7]
  · isplitr; · iexact HI
    isplitl [HxtO]; · iexact HxtO
    isplitl [Hs2]; · iexact Hs2
    iexact HtS7
  iintro HcS7
  -- what the device owes, named; the seven entry signals
  unfold Dat.owesAt Pipeline.owesWithin
  icases Ho with ⟨%W, %hW, HO⟩
  rw [show (dats m 0 c).owed t0_0.castSucc = OB c 7 from rfl]
  iapply (wp_sig m K c 0 (OB c 6) W) $$ [HO HtB0 Ho0]
  · isplitr; · iexact HI
    isplitl [HO]; · iexact HO
    isplitl [HtB0]; · iexact HtB0
    iexact Ho0
  iintro HO
  iapply (wp_sig m K c 1 (OB c 5) W) $$ [HO HtB1 Ho1]
  · isplitr; · iexact HI
    isplitl [HO]; · iexact HO
    isplitl [HtB1]; · iexact HtB1
    iexact Ho1
  iintro HO
  iapply (wp_sig m K c 2 (OB c 4) W) $$ [HO HtB2 Ho2]
  · isplitr; · iexact HI
    isplitl [HO]; · iexact HO
    isplitl [HtB2]; · iexact HtB2
    iexact Ho2
  iintro HO
  iapply (wp_sig m K c 3 (OB c 3) W) $$ [HO HtB3 Ho3]
  · isplitr; · iexact HI
    isplitl [HO]; · iexact HO
    isplitl [HtB3]; · iexact HtB3
    iexact Ho3
  iintro HO
  iapply (wp_sig m K c 4 (OB c 2) W) $$ [HO HtB4 Ho4]
  · isplitr; · iexact HI
    isplitl [HO]; · iexact HO
    isplitl [HtB4]; · iexact HtB4
    iexact Ho4
  iintro HO
  iapply (wp_sig m K c 5 (OB c 1) W) $$ [HO HtB5 Ho5]
  · isplitr; · iexact HI
    isplitl [HO]; · iexact HO
    isplitl [HtB5]; · iexact HtB5
    iexact Ho5
  iintro HO
  iapply (wp_sig m K c 6 (OB c 0) W) $$ [HO HtB6 Ho6]
  · isplitr; · iexact HI
    isplitl [HO]; · iexact HO
    isplitl [HtB6]; · iexact HtB6
    iexact Ho6
  iintro HO
  -- the wait for the seven signals in: each peer's rows block c comes with it
  iapply (wp_bar_wait m K c (OR c 7) W (fun g u h => OR_pos h)) $$ [HcB HO HaB]
  · isplitr; · iexact HI
    isplitr; · iexact Hlev
    isplitl [HcB]; · iexact HcB
    isplitl [HO]; · iexact HO
    iexact HaB
  iintro ⟨HO, HaB, Hd0, Hd1, Hd2, Hd3, Hd4, Hd5, Hd6⟩
  -- slot 0: its staged columns are in; rounded; sent into the peer's result
  iapply (wp_wait_cell m K c (stageS 0) (OR c 7) _ (mayWait_low c (stageS 0) (by decide) _ OR_pos') (src := xS c 0) (dst := fS 0) rfl) $$ [HcS0 HO Ha0]
  · isplitr; · iexact HI
    isplitr; · iexact Hlev
    isplitl [HcS0]; · iexact HcS0
    isplitl [HO]; · iexact HO
    iexact Ha0
  iintro ⟨HO, Ha0, Hp⟩
  ihave Hp' := (Entails.of_eq (show (Rd (F := F) m).payload (cell c (.dma (stageS 0))) 0 0 = stagePay m c 0 from payload_stage m c 0 0)) $$ Hp
  unfold stagePay
  icases Hp' with ⟨⟨%g0, %hg0, Hf0⟩, Hxt0⟩
  iapply (wp_load_f (c := c) (f := 0) (g := g0)) $$ Hf0; iintro Hf0
  icases Hb0 with ⟨%gb0, Hb0⟩
  iapply (wp_load_b (c := c) (f := 0) (g := gb0)) $$ Hb0; iintro Hb0
  iapply (wp_store_b (c := c) (f := 0) (g := gb0)) $$ Hb0; iintro Hb0
  iapply (wp_send_slot m K c hG 0 (OR c 6) _ _ ((View.read_write_univ gb0 _).trans (congrArg pay hg0))) $$ [Hb0 Hd0 HO HtD0 HtR0]
  · isplitr; · iexact HI
    isplitl [Hb0]; · iexact Hb0
    isplitl [Hd0]; · iexact Hd0
    isplitl [HO]; · iexact HO
    isplitl [HtD0]; · iexact HtD0
    iexact HtR0
  iintro ⟨HcD0, HO⟩
  -- slot 1: its staged columns are in; rounded; sent into the peer's result
  iapply (wp_wait_cell m K c (stageS 1) (OR c 6) _ (mayWait_low c (stageS 1) (by decide) _ OR_pos') (src := xS c 1) (dst := fS 1) rfl) $$ [HcS1 HO Ha1]
  · isplitr; · iexact HI
    isplitr; · iexact Hlev
    isplitl [HcS1]; · iexact HcS1
    isplitl [HO]; · iexact HO
    iexact Ha1
  iintro ⟨HO, Ha1, Hp⟩
  ihave Hp' := (Entails.of_eq (show (Rd (F := F) m).payload (cell c (.dma (stageS 1))) 0 0 = stagePay m c 1 from payload_stage m c 1 0)) $$ Hp
  unfold stagePay
  icases Hp' with ⟨⟨%g1, %hg1, Hf1⟩, Hxt1⟩
  iapply (wp_load_f (c := c) (f := 1) (g := g1)) $$ Hf1; iintro Hf1
  icases Hb1 with ⟨%gb1, Hb1⟩
  iapply (wp_load_b (c := c) (f := 1) (g := gb1)) $$ Hb1; iintro Hb1
  iapply (wp_store_b (c := c) (f := 1) (g := gb1)) $$ Hb1; iintro Hb1
  iapply (wp_send_slot m K c hG 1 (OR c 5) _ _ ((View.read_write_univ gb1 _).trans (congrArg pay hg1))) $$ [Hb1 Hd1 HO HtD1 HtR1]
  · isplitr; · iexact HI
    isplitl [Hb1]; · iexact Hb1
    isplitl [Hd1]; · iexact Hd1
    isplitl [HO]; · iexact HO
    isplitl [HtD1]; · iexact HtD1
    iexact HtR1
  iintro ⟨HcD1, HO⟩
  -- slot 2: its staged columns are in; rounded; sent into the peer's result
  iapply (wp_wait_cell m K c (stageS 2) (OR c 5) _ (mayWait_low c (stageS 2) (by decide) _ OR_pos') (src := xS c 2) (dst := fS 2) rfl) $$ [HcS2 HO Ha2]
  · isplitr; · iexact HI
    isplitr; · iexact Hlev
    isplitl [HcS2]; · iexact HcS2
    isplitl [HO]; · iexact HO
    iexact Ha2
  iintro ⟨HO, Ha2, Hp⟩
  ihave Hp' := (Entails.of_eq (show (Rd (F := F) m).payload (cell c (.dma (stageS 2))) 0 0 = stagePay m c 2 from payload_stage m c 2 0)) $$ Hp
  unfold stagePay
  icases Hp' with ⟨⟨%g2, %hg2, Hf2⟩, Hxt2⟩
  iapply (wp_load_f (c := c) (f := 2) (g := g2)) $$ Hf2; iintro Hf2
  icases Hb2 with ⟨%gb2, Hb2⟩
  iapply (wp_load_b (c := c) (f := 2) (g := gb2)) $$ Hb2; iintro Hb2
  iapply (wp_store_b (c := c) (f := 2) (g := gb2)) $$ Hb2; iintro Hb2
  iapply (wp_send_slot m K c hG 2 (OR c 4) _ _ ((View.read_write_univ gb2 _).trans (congrArg pay hg2))) $$ [Hb2 Hd2 HO HtD2 HtR2]
  · isplitr; · iexact HI
    isplitl [Hb2]; · iexact Hb2
    isplitl [Hd2]; · iexact Hd2
    isplitl [HO]; · iexact HO
    isplitl [HtD2]; · iexact HtD2
    iexact HtR2
  iintro ⟨HcD2, HO⟩
  -- slot 3: its staged columns are in; rounded; sent into the peer's result
  iapply (wp_wait_cell m K c (stageS 3) (OR c 4) _ (mayWait_low c (stageS 3) (by decide) _ OR_pos') (src := xS c 3) (dst := fS 3) rfl) $$ [HcS3 HO Ha3]
  · isplitr; · iexact HI
    isplitr; · iexact Hlev
    isplitl [HcS3]; · iexact HcS3
    isplitl [HO]; · iexact HO
    iexact Ha3
  iintro ⟨HO, Ha3, Hp⟩
  ihave Hp' := (Entails.of_eq (show (Rd (F := F) m).payload (cell c (.dma (stageS 3))) 0 0 = stagePay m c 3 from payload_stage m c 3 0)) $$ Hp
  unfold stagePay
  icases Hp' with ⟨⟨%g3, %hg3, Hf3⟩, Hxt3⟩
  iapply (wp_load_f (c := c) (f := 3) (g := g3)) $$ Hf3; iintro Hf3
  icases Hb3 with ⟨%gb3, Hb3⟩
  iapply (wp_load_b (c := c) (f := 3) (g := gb3)) $$ Hb3; iintro Hb3
  iapply (wp_store_b (c := c) (f := 3) (g := gb3)) $$ Hb3; iintro Hb3
  iapply (wp_send_slot m K c hG 3 (OR c 3) _ _ ((View.read_write_univ gb3 _).trans (congrArg pay hg3))) $$ [Hb3 Hd3 HO HtD3 HtR3]
  · isplitr; · iexact HI
    isplitl [Hb3]; · iexact Hb3
    isplitl [Hd3]; · iexact Hd3
    isplitl [HO]; · iexact HO
    isplitl [HtD3]; · iexact HtD3
    iexact HtR3
  iintro ⟨HcD3, HO⟩
  -- slot 4: its staged columns are in; rounded; sent into the peer's result
  iapply (wp_wait_cell m K c (stageS 4) (OR c 3) _ (mayWait_low c (stageS 4) (by decide) _ OR_pos') (src := xS c 4) (dst := fS 4) rfl) $$ [HcS4 HO Ha4]
  · isplitr; · iexact HI
    isplitr; · iexact Hlev
    isplitl [HcS4]; · iexact HcS4
    isplitl [HO]; · iexact HO
    iexact Ha4
  iintro ⟨HO, Ha4, Hp⟩
  ihave Hp' := (Entails.of_eq (show (Rd (F := F) m).payload (cell c (.dma (stageS 4))) 0 0 = stagePay m c 4 from payload_stage m c 4 0)) $$ Hp
  unfold stagePay
  icases Hp' with ⟨⟨%g4, %hg4, Hf4⟩, Hxt4⟩
  iapply (wp_load_f (c := c) (f := 4) (g := g4)) $$ Hf4; iintro Hf4
  icases Hb4 with ⟨%gb4, Hb4⟩
  iapply (wp_load_b (c := c) (f := 4) (g := gb4)) $$ Hb4; iintro Hb4
  iapply (wp_store_b (c := c) (f := 4) (g := gb4)) $$ Hb4; iintro Hb4
  iapply (wp_send_slot m K c hG 4 (OR c 2) _ _ ((View.read_write_univ gb4 _).trans (congrArg pay hg4))) $$ [Hb4 Hd4 HO HtD4 HtR4]
  · isplitr; · iexact HI
    isplitl [Hb4]; · iexact Hb4
    isplitl [Hd4]; · iexact Hd4
    isplitl [HO]; · iexact HO
    isplitl [HtD4]; · iexact HtD4
    iexact HtR4
  iintro ⟨HcD4, HO⟩
  -- slot 5: its staged columns are in; rounded; sent into the peer's result
  iapply (wp_wait_cell m K c (stageS 5) (OR c 2) _ (mayWait_low c (stageS 5) (by decide) _ OR_pos') (src := xS c 5) (dst := fS 5) rfl) $$ [HcS5 HO Ha5]
  · isplitr; · iexact HI
    isplitr; · iexact Hlev
    isplitl [HcS5]; · iexact HcS5
    isplitl [HO]; · iexact HO
    iexact Ha5
  iintro ⟨HO, Ha5, Hp⟩
  ihave Hp' := (Entails.of_eq (show (Rd (F := F) m).payload (cell c (.dma (stageS 5))) 0 0 = stagePay m c 5 from payload_stage m c 5 0)) $$ Hp
  unfold stagePay
  icases Hp' with ⟨⟨%g5, %hg5, Hf5⟩, Hxt5⟩
  iapply (wp_load_f (c := c) (f := 5) (g := g5)) $$ Hf5; iintro Hf5
  icases Hb5 with ⟨%gb5, Hb5⟩
  iapply (wp_load_b (c := c) (f := 5) (g := gb5)) $$ Hb5; iintro Hb5
  iapply (wp_store_b (c := c) (f := 5) (g := gb5)) $$ Hb5; iintro Hb5
  iapply (wp_send_slot m K c hG 5 (OR c 1) _ _ ((View.read_write_univ gb5 _).trans (congrArg pay hg5))) $$ [Hb5 Hd5 HO HtD5 HtR5]
  · isplitr; · iexact HI
    isplitl [Hb5]; · iexact Hb5
    isplitl [Hd5]; · iexact Hd5
    isplitl [HO]; · iexact HO
    isplitl [HtD5]; · iexact HtD5
    iexact HtR5
  iintro ⟨HcD5, HO⟩
  -- slot 6: its staged columns are in; rounded; sent into the peer's result
  iapply (wp_wait_cell m K c (stageS 6) (OR c 1) _ (mayWait_low c (stageS 6) (by decide) _ OR_pos') (src := xS c 6) (dst := fS 6) rfl) $$ [HcS6 HO Ha6]
  · isplitr; · iexact HI
    isplitr; · iexact Hlev
    isplitl [HcS6]; · iexact HcS6
    isplitl [HO]; · iexact HO
    iexact Ha6
  iintro ⟨HO, Ha6, Hp⟩
  ihave Hp' := (Entails.of_eq (show (Rd (F := F) m).payload (cell c (.dma (stageS 6))) 0 0 = stagePay m c 6 from payload_stage m c 6 0)) $$ Hp
  unfold stagePay
  icases Hp' with ⟨⟨%g6, %hg6, Hf6⟩, Hxt6⟩
  iapply (wp_load_f (c := c) (f := 6) (g := g6)) $$ Hf6; iintro Hf6
  icases Hb6 with ⟨%gb6, Hb6⟩
  iapply (wp_load_b (c := c) (f := 6) (g := gb6)) $$ Hb6; iintro Hb6
  iapply (wp_store_b (c := c) (f := 6) (g := gb6)) $$ Hb6; iintro Hb6
  iapply (wp_send_slot m K c hG 6 (OR c 0) _ _ ((View.read_write_univ gb6 _).trans (congrArg pay hg6))) $$ [Hb6 Hd6 HO HtD6 HtR6]
  · isplitr; · iexact HI
    isplitl [Hb6]; · iexact Hb6
    isplitl [Hd6]; · iexact Hd6
    isplitl [HO]; · iexact HO
    isplitl [HtD6]; · iexact HtD6
    iexact HtR6
  iintro ⟨HcD6, HO⟩
  -- the own columns: staged, rounded, copied into the device's own rows block
  iapply (wp_wait_cell m K c (stageS 7) (OR c 0) _ (mayWait_low c (stageS 7) (by decide) _ OR_pos') (src := xO c) (dst := ofM) rfl) $$ [HcS7 HO Ha7]
  · isplitr; · iexact HI
    isplitr; · iexact Hlev
    isplitl [HcS7]; · iexact HcS7
    isplitl [HO]; · iexact HO
    iexact Ha7
  iintro ⟨HO, Ha7, Hp⟩
  ihave Hp' := (Entails.of_eq (show (Rd (F := F) m).payload (cell c (.dma (stageS 7))) 0 0 = ownStagePay m c from payload_ownstage m c 0)) $$ Hp
  unfold ownStagePay
  icases Hp' with ⟨⟨%go, %hgo, Hof⟩, HxtO⟩
  iapply (wp_load_of (c := c) (g := go)) $$ Hof; iintro Hof
  iapply (wp_load_ob (c := c) (g := f3)) $$ Hs3; iintro Hs3
  iapply (wp_store_ob (c := c) (g := f3)) $$ Hs3; iintro Hs3
  iapply (wp_own_copy m K c hG _ (own_rounded m c go f3 hgo)) $$ [Hs3 Hoc HtO]
  · isplitr; · iexact HI
    isplitl [Hs3]; · iexact Hs3
    isplitl [Hoc]; · iexact Hoc
    iexact HtO
  iintro HcO
  -- the waits: the seven departures (each rounded slice back), the own copy, the seven arrivals (each rows block at its final contents)
  iapply (wp_wait_cell m K c (sendS 0) 0 _ (mayWait_zero c _) (src := oS c) (dst := bS 0) ((amount_send m c 0 0).symm)) $$ [HcD0 HO Ha8]
  · isplitr; · iexact HI
    isplitr; · iexact Hlev
    isplitl [HcD0]; · iexact HcD0
    isplitl [HO]; · iexact HO
    iexact Ha8
  iintro ⟨HO, Ha8, Hp⟩
  ihave Hb0 := (Entails.of_eq (payload_send m c 0 0)) $$ Hp
  iapply (wp_wait_cell m K c (sendS 1) 0 _ (mayWait_zero c _) (src := oS c) (dst := bS 1) ((amount_send m c 1 0).symm)) $$ [HcD1 HO Ha9]
  · isplitr; · iexact HI
    isplitr; · iexact Hlev
    isplitl [HcD1]; · iexact HcD1
    isplitl [HO]; · iexact HO
    iexact Ha9
  iintro ⟨HO, Ha9, Hp⟩
  ihave Hb1 := (Entails.of_eq (payload_send m c 1 0)) $$ Hp
  iapply (wp_wait_cell m K c (sendS 2) 0 _ (mayWait_zero c _) (src := oS c) (dst := bS 2) ((amount_send m c 2 0).symm)) $$ [HcD2 HO Ha10]
  · isplitr; · iexact HI
    isplitr; · iexact Hlev
    isplitl [HcD2]; · iexact HcD2
    isplitl [HO]; · iexact HO
    iexact Ha10
  iintro ⟨HO, Ha10, Hp⟩
  ihave Hb2 := (Entails.of_eq (payload_send m c 2 0)) $$ Hp
  iapply (wp_wait_cell m K c (sendS 3) 0 _ (mayWait_zero c _) (src := oS c) (dst := bS 3) ((amount_send m c 3 0).symm)) $$ [HcD3 HO Ha11]
  · isplitr; · iexact HI
    isplitr; · iexact Hlev
    isplitl [HcD3]; · iexact HcD3
    isplitl [HO]; · iexact HO
    iexact Ha11
  iintro ⟨HO, Ha11, Hp⟩
  ihave Hb3 := (Entails.of_eq (payload_send m c 3 0)) $$ Hp
  iapply (wp_wait_cell m K c (sendS 4) 0 _ (mayWait_zero c _) (src := oS c) (dst := bS 4) ((amount_send m c 4 0).symm)) $$ [HcD4 HO Ha12]
  · isplitr; · iexact HI
    isplitr; · iexact Hlev
    isplitl [HcD4]; · iexact HcD4
    isplitl [HO]; · iexact HO
    iexact Ha12
  iintro ⟨HO, Ha12, Hp⟩
  ihave Hb4 := (Entails.of_eq (payload_send m c 4 0)) $$ Hp
  iapply (wp_wait_cell m K c (sendS 5) 0 _ (mayWait_zero c _) (src := oS c) (dst := bS 5) ((amount_send m c 5 0).symm)) $$ [HcD5 HO Ha13]
  · isplitr; · iexact HI
    isplitr; · iexact Hlev
    isplitl [HcD5]; · iexact HcD5
    isplitl [HO]; · iexact HO
    iexact Ha13
  iintro ⟨HO, Ha13, Hp⟩
  ihave Hb5 := (Entails.of_eq (payload_send m c 5 0)) $$ Hp
  iapply (wp_wait_cell m K c (sendS 6) 0 _ (mayWait_zero c _) (src := oS c) (dst := bS 6) ((amount_send m c 6 0).symm)) $$ [HcD6 HO Ha14]
  · isplitr; · iexact HI
    isplitr; · iexact Hlev
    isplitl [HcD6]; · iexact HcD6
    isplitl [HO]; · iexact HO
    iexact Ha14
  iintro ⟨HO, Ha14, Hp⟩
  ihave Hb6 := (Entails.of_eq (payload_send m c 6 0)) $$ Hp
  unfold sendPay
  iapply (wp_wait_cell m K c outS 0 _ (mayWait_zero c _) (src := obM) (dst := oS c) ((amount_out m c 0).symm)) $$ [HcO HO Ha22]
  · isplitr; · iexact HI
    isplitr; · iexact Hlev
    isplitl [HcO]; · iexact HcO
    isplitl [HO]; · iexact HO
    iexact Ha22
  iintro ⟨HO, Ha22, Hp⟩
  ihave Hp' := (Entails.of_eq (payload_out m c 0)) $$ Hp
  unfold outPay
  icases Hp' with ⟨Hoc, Hs3⟩
  iapply (wp_wait_cell m K c (recvS 0) 0 _ (mayWait_zero c _) (src := bS 0) (dst := oS c) ((amount_recv m c 0 0).symm)) $$ [HcR0 HO Ha15]
  · isplitr; · iexact HI
    isplitr; · iexact Hlev
    isplitl [HcR0]; · iexact HcR0
    isplitl [HO]; · iexact HO
    iexact Ha15
  iintro ⟨HO, Ha15, Hp⟩
  ihave Hr0 := (Entails.of_eq (payload_recv m c 0 0)) $$ Hp
  iapply (wp_wait_cell m K c (recvS 1) 0 _ (mayWait_zero c _) (src := bS 1) (dst := oS c) ((amount_recv m c 1 0).symm)) $$ [HcR1 HO Ha16]
  · isplitr; · iexact HI
    isplitr; · iexact Hlev
    isplitl [HcR1]; · iexact HcR1
    isplitl [HO]; · iexact HO
    iexact Ha16
  iintro ⟨HO, Ha16, Hp⟩
  ihave Hr1 := (Entails.of_eq (payload_recv m c 1 0)) $$ Hp
  iapply (wp_wait_cell m K c (recvS 2) 0 _ (mayWait_zero c _) (src := bS 2) (dst := oS c) ((amount_recv m c 2 0).symm)) $$ [HcR2 HO Ha17]
  · isplitr; · iexact HI
    isplitr; · iexact Hlev
    isplitl [HcR2]; · iexact HcR2
    isplitl [HO]; · iexact HO
    iexact Ha17
  iintro ⟨HO, Ha17, Hp⟩
  ihave Hr2 := (Entails.of_eq (payload_recv m c 2 0)) $$ Hp
  iapply (wp_wait_cell m K c (recvS 3) 0 _ (mayWait_zero c _) (src := bS 3) (dst := oS c) ((amount_recv m c 3 0).symm)) $$ [HcR3 HO Ha18]
  · isplitr; · iexact HI
    isplitr; · iexact Hlev
    isplitl [HcR3]; · iexact HcR3
    isplitl [HO]; · iexact HO
    iexact Ha18
  iintro ⟨HO, Ha18, Hp⟩
  ihave Hr3 := (Entails.of_eq (payload_recv m c 3 0)) $$ Hp
  iapply (wp_wait_cell m K c (recvS 4) 0 _ (mayWait_zero c _) (src := bS 4) (dst := oS c) ((amount_recv m c 4 0).symm)) $$ [HcR4 HO Ha19]
  · isplitr; · iexact HI
    isplitr; · iexact Hlev
    isplitl [HcR4]; · iexact HcR4
    isplitl [HO]; · iexact HO
    iexact Ha19
  iintro ⟨HO, Ha19, Hp⟩
  ihave Hr4 := (Entails.of_eq (payload_recv m c 4 0)) $$ Hp
  iapply (wp_wait_cell m K c (recvS 5) 0 _ (mayWait_zero c _) (src := bS 5) (dst := oS c) ((amount_recv m c 5 0).symm)) $$ [HcR5 HO Ha20]
  · isplitr; · iexact HI
    isplitr; · iexact Hlev
    isplitl [HcR5]; · iexact HcR5
    isplitl [HO]; · iexact HO
    iexact Ha20
  iintro ⟨HO, Ha20, Hp⟩
  ihave Hr5 := (Entails.of_eq (payload_recv m c 5 0)) $$ Hp
  iapply (wp_wait_cell m K c (recvS 6) 0 _ (mayWait_zero c _) (src := bS 6) (dst := oS c) ((amount_recv m c 6 0).symm)) $$ [HcR6 HO Ha21]
  · isplitr; · iexact HI
    isplitr; · iexact Hlev
    isplitl [HcR6]; · iexact HcR6
    isplitl [HO]; · iexact HO
    iexact Ha21
  iintro ⟨HO, Ha21, Hp⟩
  ihave Hr6 := (Entails.of_eq (payload_recv m c 6 0)) $$ Hp
  -- the end: every DMA cell closed, every buffer joined again
  rw [wp_ret]
  imod (cells_close m K c) $$ [Ha0 Ha1 Ha2 Ha3 Ha4 Ha5 Ha6 Ha7 Ha8 Ha9 Ha10 Ha11 Ha12 Ha13 Ha14 Ha15 Ha16 Ha17 Ha18 Ha19 Ha20 Ha21 Ha22] with Hz
  · isplitr; · iexact HI
    rw [bigSep_fin23]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    isplitl [Ha12]; · iexact Ha12
    isplitl [Ha13]; · iexact Ha13
    isplitl [Ha14]; · iexact Ha14
    isplitl [Ha15]; · iexact Ha15
    isplitl [Ha16]; · iexact Ha16
    isplitl [Ha17]; · iexact Ha17
    isplitl [Ha18]; · iexact Ha18
    isplitl [Ha19]; · iexact Ha19
    isplitl [Ha20]; · iexact Ha20
    isplitl [Ha21]; · iexact Ha21
    iexact Ha22
  imodintro
  iapply Hk
  unfold bodyPost Φ₁ Dat.owesAt scr
  rw [show (dats m 0 c).owed t0_0.succ = 0 from rfl]
  isplitr [HO]
  · isplitl [Hxr Hxt0 Hxo0 Hxt1 Hxo1 Hxt2 Hxo2 Hxt3 Hxo3 Hxt4 Hxo4 Hxt5 Hxo5 Hxt6 Hxo6 HxtO HxoO]
    · iapply (x_join7 m hG c)
      isplitl [Hxr]; · iexact Hxr
      isplitr [HxtO HxoO]
      · isplitl [Hxt0 Hxo0]; · (isplitl [Hxt0]; · iexact Hxt0
                                iexact Hxo0)
        isplitl [Hxt1 Hxo1]; · (isplitl [Hxt1]; · iexact Hxt1
                                iexact Hxo1)
        isplitl [Hxt2 Hxo2]; · (isplitl [Hxt2]; · iexact Hxt2
                                iexact Hxo2)
        isplitl [Hxt3 Hxo3]; · (isplitl [Hxt3]; · iexact Hxt3
                                iexact Hxo3)
        isplitl [Hxt4 Hxo4]; · (isplitl [Hxt4]; · iexact Hxt4
                                iexact Hxo4)
        isplitl [Hxt5 Hxo5]; · (isplitl [Hxt5]; · iexact Hxt5
                                iexact Hxo5)
        isplitl [Hxt6]; · iexact Hxt6
        iexact Hxo6
      · isplitl [HxtO]; · iexact HxtO
        iexact HxoO
    isplitl [Hoc Hr0 Hr1 Hr2 Hr3 Hr4 Hr5 Hr6]
    · iapply (out_join8 m hG c)
      isplitl [Hoc]; · iexact Hoc
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      iexact Hr6
    isplitr [Hz]
    · isplitl [Hf0 Hf1 Hf2 Hf3 Hf4 Hf5 Hf6]
      · iapply (f_join7 m hG c)
        isplitl [Hf0]; · (iexists _; iexact Hf0)
        isplitl [Hf1]; · (iexists _; iexact Hf1)
        isplitl [Hf2]; · (iexists _; iexact Hf2)
        isplitl [Hf3]; · (iexists _; iexact Hf3)
        isplitl [Hf4]; · (iexists _; iexact Hf4)
        isplitl [Hf5]; · (iexists _; iexact Hf5)
        iexists _; iexact Hf6
      isplitl [Hb0 Hb1 Hb2 Hb3 Hb4 Hb5 Hb6]
      · iapply (b_join7 m hG c)
        isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        iexact Hb6
      isplitl [Hof]
      · iexists _; rw [show (ofM : Memref sig .tc .vmem S2048x512 .f32).view.set = Finset.univ from View.set_whole _]; iexact Hof
      · icases Hs3 with ⟨%g3, Hs3⟩
        iexists _; rw [show (obM : Memref sig .tc .vmem S2048x512 .bf16).view.set = Finset.univ from View.set_whole _]; iexact Hs3
    · iexact Hz
  · iapply (owes_within c _ _ _ (fun _ _ => Or.inl trivial)) $$ HO

/-- The library's body obligation on device `c`: the body's run, with the ghost state's names opened. -/
theorem body_obligation (hG : GeomFacts m) (c : Dev nD) : BodyObligation (dats (F := F) m 0 c) (defs₀ (F := F)) 𝒱₀ () Set.univ := fun t => by
  rw [fin_N0 t]
  simp only [Finset.univ_eq_empty, bigSep_empty]
  show iprop(Φ₀ m c ∗ (dats m 0 c).owesAt () t0_0.castSucc ∗ emp)
    ⊢ wp frame (wpE (defs₀ (F := F)) 𝒱₀ c none) Set.univ (bodyAt0 (F := F) t0_0) (fun _ => iprop(Φ₁ m c ∗ (dats m 0 c).owesAt () t0_0.succ ∗ emp))
  unfold Φ₀ start
  iintro ⟨⟨⟨⟨%K, Hg⟩, HcB, HcR, Hlev⟩, Hx, Hout, Hscr⟩, Ho, -⟩
  iapply (sound_body m hG K c fun _ => iprop(Φ₁ m c ∗ (dats m 0 c).owesAt () t0_0.succ ∗ emp))
  unfold bodyPre bodyPost
  isplitr []
  · isplitl [Hg]; · iexact Hg
    isplitl [HcB]; · iexact HcB
    isplitl [HcR]; · iexact HcR
    isplitl [Hlev]; · iexact Hlev
    isplitl [Hx]; · iexact Hx
    isplitl [Hout]; · iexact Hout
    isplitl [Hscr]; · iexact Hscr
    iexact Ho
  · iintro ⟨H1, H2⟩
    isplitl [H1]; · iexact H1
    isplitl [H2]; · iexact H2
    iempintro

/-- info: 'Cert.Kernel.A2A.Run.body_obligation' depends on axioms: [propext, Classical.choice, Quot.sound] -/
#guard_msgs in #print axioms body_obligation

end Cert.Kernel.A2A.Run

end
-- ==== Proof.KernelA2A.Launch.lean ====
/-
  The launch of the exchange: from a proof of every device's body to the run of @main.

  The launch mints one rounds cell per semaphore of every device (the barrier semaphore and the 23 DMA semaphores) and
  one token per duty, each token minted with the device that pays it: device `c` pays its own duty on the barrier cell
  of each other device, the arrival duty of each of its seven transfers on the receiving device's cell, and the duties
  on its own staging, send and own-copy cells. One global step allocates every cell's invariant for all devices at
  once (the barrier cells are shared), after which each device holds the whole persistent record of invariants and
  round marks together with its own positions and tokens.

  The credit a device's cells are owed at launch is counted from what every device owes: a barrier cell is signalled
  once by each of the seven other devices, and slot `f`'s receive cell of device `c` is the target of exactly one
  transfer, the one device `peer c f` sends on slot `f`.

  The program has no windows: the input rows and the result buffer are whole unscoped buffers the body holds through
  the invariant, the four scratch buffers the scoped rest; at the end both unscoped buffers are read back against the
  machine's memory.
-/
import proofs.«900616_g7700000000000617_dist_a2a_v7x_i8_i_m2048_n512_bf16_1_alg».proof.Proof.KernelA2A.Tables
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The kernel's own semaphores; the cells and the tokens the launch mints -/

/-- The kernel's own (scoped) semaphores: every DMA semaphore. -/
abbrev osem : DmaSem sig → SemLoc sig := SemLoc.dma

theorem ownSemFacts : Pipeline.OwnSemFacts cfg0.spec osem := by decide

theorem share_eq (c : Dev nD) (w : Fin cfg0.W) : (dats m 0 c).share w = fullShare := w.elim0

/-- Every semaphore of every device is a cell of the schedule. -/
abbrev kcell (ck : Dev nD × SemLoc sig) : GSem nD τ sig := cell ck.1 ck.2

theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  subst h1; subst h2; rfl

def allCells : Finset (GSem nD τ sig) := Finset.univ.map ⟨kcell, kcell_injective⟩

/-- The duties a device pays, by kind: an entry signal (to `bdev c k`), the arrival of a transfer (on `peer c f`),
    a staging copy, the departure of a transfer, the own copy. -/
abbrev TokIx : Type := Fin 7 ⊕ Fin 7 ⊕ Fin 8 ⊕ Fin 7 ⊕ Unit

/-- The token of the duty of kind `x` that device `c` pays: minted with its payer. -/
def tokOf (cx : Dev nD × TokIx) : GSem nD τ sig × ℕ × Dev nD := match cx.2 with
  | .inl k => (barCell (bdev cx.1 k), 0, cx.1)
  | .inr (.inl f) => (recvCell (peer cx.1 f) f, 0, 0)
  | .inr (.inr (.inl f)) => (stageCell cx.1 f, 0, 0)
  | .inr (.inr (.inr (.inl f))) => (sendCell cx.1 f, 0, 0)
  | .inr (.inr (.inr (.inr _))) => (outCell cx.1, 0, 0)

theorem dma_val {a b : DmaSem sig} (h : (SemLoc.dma a : SemLoc sig) = .dma b) : a.val = b.val := congrArg Fin.val (SemLoc.dma.inj h)

theorem tokOf_injective : Function.Injective tokOf := by
  rintro ⟨c, x⟩ ⟨c', x'⟩ h
  have hs : (tokOf (c, x)).1.2 = (tokOf (c', x')).1.2 := congrArg (fun t : GSem nD τ sig × ℕ × Dev nD => t.1.2) h
  have hd : (tokOf (c, x)).1.1.1 = (tokOf (c', x')).1.1.1 := congrArg (fun t : GSem nD τ sig × ℕ × Dev nD => t.1.1.1) h
  have hn : (tokOf (c, x)).2.2 = (tokOf (c', x')).2.2 := congrArg (fun t : GSem nD τ sig × ℕ × Dev nD => t.2.2) h
  rcases x with k | f | f | f | u <;> rcases x' with k' | f' | f' | f' | u' <;> dsimp only [tokOf] at hs hd hn
  · subst hn; have := bdev_injective c hd; subst this; rfl
  · cases hs
  · cases hs
  · cases hs
  · cases hs
  · cases hs
  · have hv := dma_val hs; dsimp only [recvS] at hv
    have hf : f = f' := Fin.ext (by omega)
    subst hf
    have hc : c = c' := by rw [← peer_peer c f, hd, peer_peer]
    subst hc; rfl
  · have hv := dma_val hs; dsimp only [recvS, stageS] at hv; have := f'.isLt; omega
  · have hv := dma_val hs; dsimp only [recvS, sendS] at hv; have := f'.isLt; omega
  · have hv := dma_val hs; dsimp only [recvS, outS] at hv; omega
  · cases hs
  · have hv := dma_val hs; dsimp only [recvS, stageS] at hv; have := f.isLt; omega
  · have hv := dma_val hs; dsimp only [stageS] at hv
    have hf : f = f' := Fin.ext hv
    subst hf; subst hd; rfl
  · have hv := dma_val hs; dsimp only [stageS, sendS] at hv; have := f.isLt; omega
  · have hv := dma_val hs; dsimp only [stageS, outS] at hv; have := f.isLt; omega
  · cases hs
  · have hv := dma_val hs; dsimp only [recvS, sendS] at hv; have := f.isLt; omega
  · have hv := dma_val hs; dsimp only [stageS, sendS] at hv; have := f'.isLt; omega
  · have hv := dma_val hs; dsimp only [sendS] at hv
    have hf : f = f' := Fin.ext (by omega)
    subst hf; subst hd; rfl
  · have hv := dma_val hs; dsimp only [sendS, outS] at hv; have := f.isLt; omega
  · cases hs
  · have hv := dma_val hs; dsimp only [recvS, outS] at hv; omega
  · have hv := dma_val hs; dsimp only [stageS, outS] at hv; have := f'.isLt; omega
  · have hv := dma_val hs; dsimp only [sendS, outS] at hv; have := f'.isLt; omega
  · subst hd; rfl

def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- What the launch element deals device `c`: the round state of each of its cells, its position in each and that
    each is at round 0, and the tokens of the duties it pays. -/
def G (c : Dev nD) : sProp 𝕄 :=
  iprop((bigSep Finset.univ fun sm : SemLoc sig => roundState ER (Rd m) (cell c sm) 0)
    ∗ (bigSep Finset.univ fun sm : SemLoc sig => iprop(atPos ER (cell c sm) 0 ∅ 0 ∗ reached ER (cell c sm) 0)) ∗ payToks c)

/-- What the global step makes of it. -/
def G' (c : Dev nD) : sProp 𝕄 := iprop(∃ K, ghost m K c)

omit [FloatOps F] in
/-- The tokens minted with payer `c` are the tokens `c` pays with. -/
theorem toks_at (c : Dev nD) :
    (bigSep Finset.univ fun x : TokIx => (dutyTok ER (tokOf (c, x)).1 (tokOf (c, x)).2.1 (tokOf (c, x)).2.2 : sProp 𝕄)) = payToks c := by
  unfold payToks ownToks
  rw [bigSep_univ_sum, bigSep_univ_sum, bigSep_univ_sum, bigSep_univ_sum, bigSep_univ_of_subsingleton ()]
  rfl

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun sm : SemLoc sig => Φ (cell c sm) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => toks_at c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the ghost state regrouped per device -/

omit [FloatOps F] in
/-- A device's semaphores are its barrier semaphore and its DMA semaphores. -/
theorem bigSep_semLoc (Φ : SemLoc sig → sProp 𝕄) :
    bigSep Finset.univ Φ = iprop(Φ (.reg barS) ∗ bigSep Finset.univ fun j : DmaSem sig => Φ (.dma j)) := by
  haveI : Subsingleton (Sem sig) := ⟨by decide⟩
  rw [bigSep_univ_equiv (SemLoc.equivSum sig).symm Φ, bigSep_univ_sum, bigSep_univ_of_subsingleton barS]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (cell c sm) 0 : sProp 𝕄) := by
  rw [unscopedSems0_eq, bigSep_semLoc]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (cell c sm)))
          ∗ (bigSep Finset.univ fun sm : SemLoc sig => iprop(atPos ER (cell c sm) 0 ∅ 0 ∗ reached ER (cell c sm) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (cell c sm) 0) ∗ bigSep Finset.univ fun sm : SemLoc sig => roundState ER (Rd m) (cell c sm) 0)
      ⊢ (|={Set.univ}=> bigSep Finset.univ fun sm : SemLoc sig => iprop(∃ κ : ℕ, cellInv ER (Rd m) κ (cell c sm)) : sProp 𝕄) from by
        rw [← bigSep_sep']
        exact (bigSep_mono fun sm _ => (Rounds.body_intro ER (Rd m) (cell c sm)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (Rd m) κ (cell c sm)))
          ∗ (bigSep Finset.univ fun sm : SemLoc sig => iprop(atPos ER (cell c sm) 0 ∅ 0 ∗ reached ER (cell c sm) 0)) ∗ payToks c) : sProp 𝕄)
      ⊢ bigSep Finset.univ (G' m) := by
  rw [bigSep_sep', bigSep_sep', ← bigSep_univ_prod (fun ck : Dev nD × SemLoc sig => iprop(∃ κ : ℕ, cellInv ER (Rd m) κ (cell ck.1 ck.2))),
    bigSep_congr (s := Finset.univ) (fun (c : Dev nD) _ => bigSep_sep' Finset.univ (fun sm : SemLoc sig => (atPos ER (cell c sm) 0 ∅ 0 : sProp 𝕄)) (fun sm => reached ER (cell c sm) 0)),
    bigSep_sep', ← bigSep_univ_prod (fun ck : Dev nD × SemLoc sig => (reached ER (cell ck.1 ck.2) 0 : sProp 𝕄))]
  iintro ⟨HI, ⟨Hat, #HR⟩, Htok⟩
  ihave HK := (BI.bigSep_exists_pi Finset.univ (fun (ck : Dev nD × SemLoc sig) (κ : ℕ) => (cellInv ER (Rd m) κ (cell ck.1 ck.2) : sProp 𝕄))) $$ HI
  icases HK with ⟨%K, #HI⟩
  iapply (bigSep_with_persistent (R := records m K) fun c _ => show iprop(records m K ∗ linear c) ⊢ G' m c from by
    unfold G' ghost; iintro H; iexists K; iexact H)
  isplitr
  · unfold records; isplitl; · iexact HI
    iexact HR
  · iapply ((Entails.of_eq (bigSep_sep' Finset.univ (fun c : Dev nD => bigSep Finset.univ fun sm : SemLoc sig => (atPos ER (cell c sm) 0 ∅ 0 : sProp 𝕄)) payToks).symm).trans
      (bigSep_mono fun c _ => show _ ⊢ linear c from Entails.of_eq (by unfold linear; rfl)))
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩

omit [FloatOps F] in
theorem recv_eq_iff {a b : Dev nD} {f g : Fin 7} : Iff (recvCell a f = recvCell b g) (a = b ∧ f = g) :=
  ⟨fun h => ⟨Fin.ext (congrArg (fun g : GSem nD τ sig => g.1.1.val) h), Fin.ext (by
      have hv := dma_val (congrArg Prod.snd h); dsimp only [recvS] at hv; omega)⟩,
    fun h => by rw [h.1, h.2]⟩

omit [FloatOps F] in
theorem dma_ne_bar (a b : Dev nD) (j : DmaSem sig) : cell a (.dma j) ≠ barCell b := fun h => by
  have := congrArg Prod.snd h; cases this

omit [FloatOps F] in
/-- No receive credit is owed to a barrier cell. -/
theorem OR_bar (d : Dev nD) (n : ℕ) (c : Dev nD) : OR d n (barCell c) () = 0 := by
  induction n with
  | zero => rfl
  | succ n ih => rw [OR, Pi.add_apply, Finsupp.add_apply, ih, tallyAt_ne_cell (dma_ne_bar _ _ _).symm, Finsupp.zero_apply, Nat.add_zero]

omit [FloatOps F] in
/-- What device `d` owes device `c`'s barrier cell with `n` signals to come: a unit per signal addressed to `c`. -/
theorem OB_bar (d : Dev nD) (n : ℕ) (c : Dev nD) :
    OB d n (barCell c) () = ∑ i ∈ Finset.range n, if bdev d (slotN i) = c then 1 else 0 := by
  induction n with
  | zero => rw [OB, OR_bar, Finset.range_zero, Finset.sum_empty]
  | succ n ih =>
    rw [OB, Pi.add_apply, Finsupp.add_apply, ih, Finset.sum_range_succ, tallyAt_apply]
    congr 1
    exact if_congr ⟨fun h => (bar_eq_iff.mp h.1).symm, fun h => ⟨h ▸ rfl, rfl⟩⟩ rfl rfl

omit [FloatOps F] in
/-- What device `d` owes slot `f`'s receive cell of device `c` with `n` transfers to come. -/
theorem OR_recv (d : Dev nD) (n : ℕ) (c : Dev nD) (f : Fin 7) :
    OR d n (recvCell c f) () = ∑ i ∈ Finset.range n, if peer d (slotN i) = c ∧ slotN i = f then N16 else 0 := by
  induction n with
  | zero => rw [Finset.range_zero, Finset.sum_empty]; rfl
  | succ n ih =>
    rw [OR, Pi.add_apply, Finsupp.add_apply, ih, Finset.sum_range_succ, tallyAt_apply]
    congr 1
    exact if_congr ⟨fun h => ⟨(recv_eq_iff.mp h.1).1.symm, (recv_eq_iff.mp h.1).2.symm⟩, fun h => ⟨by rw [h.1, h.2], rfl⟩⟩ rfl rfl

omit [FloatOps F] in
theorem OB_recv (d : Dev nD) (n : ℕ) (c : Dev nD) (f : Fin 7) : OB d n (recvCell c f) () = OR d 7 (recvCell c f) () := by
  induction n with
  | zero => rfl
  | succ n ih => rw [OB, Pi.add_apply, Finsupp.add_apply, ih, tallyAt_ne_cell (dma_ne_bar _ _ _), Finsupp.zero_apply, Nat.add_zero]

/-- Each device's barrier cell is signalled once by each of the seven others. -/
theorem bar_count : ∀ c : Dev nD, (∑ d : Dev nD, ∑ i ∈ Finset.range 7, if bdev d (slotN i) = c then 1 else 0) = 7 := by decide +kernel

/-- Slot `f`'s receive cell of a device is the target of exactly one transfer. -/
theorem recv_count : ∀ (c : Dev nD) (f : Fin 7),
    (∑ d : Dev nD, ∑ i ∈ Finset.range 7, if peer d (slotN i) = c ∧ slotN i = f then 1 else 0) = 1 := by decide +kernel

theorem recv_sum (N : ℕ) (c : Dev nD) (f : Fin 7) :
    (∑ d : Dev nD, ∑ i ∈ Finset.range 7, if peer d (slotN i) = c ∧ slotN i = f then N else 0) = N := by
  have h : ∀ (d : Dev nD) (i : ℕ), (if peer d (slotN i) = c ∧ slotN i = f then N else 0)
      = (if peer d (slotN i) = c ∧ slotN i = f then 1 else 0) * N := fun d i => by split <;> simp
  simp only [h, ← Finset.sum_mul, recv_count, Nat.one_mul]

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => (show O₀ d (barCell c) () = _ from OB_bar d 7 c)]
  exact bar_count c

omit [FloatOps F] in
theorem launch_recv (c : Dev nD) (f : Fin 7) :
    tallyOn (recvCell c f) (launchCredit (Pipeline.owing O₀) 0 (recvCell c f)) = (tallyAt (recvCell c f) () N16 : CellTallies nD τ sig Unit) := by
  unfold tallyAt; refine congrArg _ (Finsupp.ext fun u => ?_); cases u
  rw [Pipeline.launchCredit_owing, Finsupp.single_eq_same,
    Finset.sum_congr rfl fun d _ => (show O₀ d (recvCell c f) () = _ from (OB_recv d 7 c f).trans (OR_recv d 7 c f))]
  exact recv_sum N16 c f

omit [FloatOps F] in
theorem recvLoc_injective : Function.Injective (fun f : Fin 7 => (SemLoc.dma (recvS f) : SemLoc sig)) := fun f g h =>
  Fin.ext (by have hv := dma_val h; dsimp only [recvS] at hv; omega)

omit [FloatOps F] in
theorem creds (c : Dev nD) :
    (Pipeline.launchCred O₀ c : sProp 𝕄)
      ⊢ iprop(cred (tallyAt (barCell c) () 7) ∗ bigSep Finset.univ fun f : Fin 7 => cred (tallyAt (recvCell c f) () N16)) := by
  unfold Pipeline.launchCred
  rw [bigSep_univ_at _ (SemLoc.reg barS), launch_bar]
  refine sep_mono_right ?_
  have hsub : Finset.univ.map ⟨fun f : Fin 7 => (SemLoc.dma (recvS f) : SemLoc sig), recvLoc_injective⟩ ⊆ Finset.univ.erase (SemLoc.reg barS) := fun sm h => by
    obtain ⟨f, -, rfl⟩ := Finset.mem_map.mp h
    exact Finset.mem_erase.mpr ⟨(fun h => by cases h), Finset.mem_univ _⟩
  refine (bigSep_subset hsub).trans ?_
  rw [bigSep_map]
  refine bigSep_mono fun f _ => ?_
  have e : (cred (tallyOn (recvCell c f) (launchCredit (Pipeline.owing O₀) 0 (recvCell c f))) : sProp 𝕄) = cred (tallyAt (recvCell c f) () N16) := by
    rw [launch_recv]
  exact Entails.of_eq e

/-! ## The theorem's side conditions -/

/-- What a device enters the kernel with besides its scratch buffers: the start state and its two unscoped buffers, the
    input rows and the result buffer, at their launch contents. -/
def heldIn (c : Dev nD) : sProp 𝕄 :=
  iprop(start m c ∗ (((c : Thread nD τ).loc main_arg0) ↦{fullShare} X m c) ∗ (((c : Thread nD τ).loc main_v1) ↦{fullShare} m ((c : Thread nD τ).loc main_v1)))

/-- What it leaves with: the input rows as launched, the result at its final contents. -/
def heldOut (c : Dev nD) : sProp 𝕄 :=
  iprop((((c : Thread nD τ).loc main_arg0) ↦{fullShare} X m c) ∗ (((c : Thread nD τ).loc main_v1) ↦{fullShare} outFn m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(heldIn m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold heldIn start G'
  isplitl
  · isplitl [HG H1 HN Hlev]
    · isplitl [HG]; · iexact HG
      isplitl [H1]; · iexact H1
      isplitl [HN]; · iexact HN
      iexact Hlev
    isplitl [Hx]; · iexact Hx
    iexact Ho
  · iempintro

theorem phi0_intro (c : Dev nD) :
    iprop(heldIn m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ heldIn scr
  iintro ⟨⟨Hs, Hx, Ho⟩, -, Hr⟩
  isplitl [Hs]; · iexact Hs
  isplitl [Hx]; · iexact Hx
  isplitl [Ho]; · iexact Ho
  iexact Hr

theorem phi1_exit (c : Dev nD) :
    (dats m 0 c).Φ (Fin.last cfg0.N) ⊢ iprop(heldOut m c ∗ Pipeline.ownSems0 osem c ∗ Pipeline.scopedRest cfg0.spec c) := by
  rw [show (dats m 0 c).Φ (Fin.last cfg0.N) = Φ₁ m c from rfl, scopedRest0_eq]
  unfold Φ₁ heldOut scr Pipeline.ownSems0
  iintro ⟨Hx, Ho, Hr, Hz⟩
  isplitl [Hx Ho]
  · isplitl [Hx] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w _ _ => w.elim0

/-! ## The run -/

def QC : PUnit × MemSt nD τ sig (Elt F) → Prop := fun r => ∀ c : Dev nD,
  r.2.mem ((c : Thread nD τ).loc main_arg0) = X m c ∧ r.2.mem ((c : Thread nD τ).loc main_v1) = outFn m c

set_option maxRecDepth 8000 in
/-- At the compiled mesh of eight devices, for any float values, from any memory with zero counters: every weakly fair
    execution of @main — the eight kernels handshaking on the barrier semaphore, then exchanging their column blocks —
    terminates, and every final state has each device's input rows unchanged and its result buffer holding, row block by
    row block, its column block of every device's rows, rounded. -/
theorem run_main (hbody : ∀ c : Dev nD, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := heldIn m) (Y := heldOut m) (Z := fun _ => iprop(emp))
    (hX := start_intro m ρ) (hin := phi0_intro m) (hout := phi1_exit m)
    (QY := fun c s => s.mem ((c : Thread nD τ).loc main_arg0) = X m c ∧ s.mem ((c : Thread nD τ).loc main_v1) = outFn m c)
    (hY := fun c s' => by
      unfold heldOut
      iintro ⟨⟨Hx, Ho⟩, -, HSI⟩
      icombine HSI Hx gives %hx
      icombine HSI Ho gives %ho
      imodintro
      isplitr; · ipureintro; exact ⟨Buf.eq_of_forall_mem_univ hx, Buf.eq_of_forall_mem_univ ho⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.ValueBridge.lean ====
/-
  The value of the exchange.

  Device `c` ends with a result of 16384 × 512 whose row block `s` (rows `[2048 s, 2048 s + 2048)`) holds
  columns `[512 c, 512 c + 512)` of device `s`'s input rows, each element rounded to bf16. When every device's
  input rows are its row block of one whole array `x'` (16384 × 4096), the element at row `2048 s + r`, column `l` of
  that result is the rounding of `x'` at row `2048 s + r`, column `512 c + l`: the element at that row and column `l`
  of column block `c` of the whole array rounded elementwise, which is what the one-device program computes. An
  equation of indices, with no arithmetic on values, so it holds for every float instance.

  From it: the one-device program's frame, and the algebraic conjunct from a run of the eight-device program that
  names each device's result as that fold of writes.
-/
import proofs.«900616_g7700000000000617_dist_a2a_v7x_i8_i_m2048_n512_bf16_1_alg».proof.Defs
import proofs.«900616_g7700000000000617_dist_a2a_v7x_i8_i_m2048_n512_bf16_1_alg».proof.Proof.KernelIdealA2A.Tables
import proofs.«900616_g7700000000000617_dist_a2a_v7x_i8_i_m2048_n512_bf16_1_alg».proof.Proof.Gen.ReferenceIdeal.Run
import proofs.«900616_g7700000000000617_dist_a2a_v7x_i8_i_m2048_n512_bf16_1_alg».proof.Proof.Gen.ReferenceIdeal.Read
import proofs.«900616_g7700000000000617_dist_a2a_v7x_i8_i_m2048_n512_bf16_1_alg».proof.Proof.Gen.Pre_finite_inputs_Kernel
import proofs.«900616_g7700000000000617_dist_a2a_v7x_i8_i_m2048_n512_bf16_1_alg».proof.Proof.Gen.Pre_finite_inputs_ReferenceIdeal
import proofs.«900616_g7700000000000617_dist_a2a_v7x_i8_i_m2048_n512_bf16_1_alg».proof.Proof.Gen.KernelIdeal
import Idealize.ShloMosaic.Lib.Layout
import Idealize.ShloMosaic.Lib.Pipeline.Value

noncomputable section

namespace Cert.Proof.Bridge

open Cert.KernelIdeal Cert.KernelIdeal.Gen Cert.KernelIdeal.A2A

open Idealize.ShloMosaic
open Idealize.ShloMosaic.TcCoe
open Idealize.SL.Sem

variable {F : FTy → Type} [FloatOps F]

/-! ## Where an index of a result lies: its row block, and its place inside the block -/

/-- The row block (of 2048 rows) an index of a 16384 × 512 result lies in. -/
def blk (i : S16384x512.Idx) : Dev nD :=
  ⟨(i 0).val / 2048, by have h : (i 0).val < 16384 := (i 0).isLt; show (i 0).val / 2048 < 8; omega⟩

/-- Its place inside that block: the row modulo 2048, the same column. -/
def inBlk (i : S16384x512.Idx) : S2048x512.Idx :=
  Shape.pair (d := ![2048, 512]) ⟨(i 0).val % 2048, Nat.mod_lt _ (by decide)⟩ ⟨(i 1).val, (i 1).isLt⟩

theorem off3_zero (s : Dev nD) : k0_off3 s 0 = 2048 * s.val := by rw [k0_off3_eq]; rfl
theorem off3_one (s : Dev nD) : k0_off3 s 1 = 0 := by rw [k0_off3_eq]; rfl

/-! ## One write through a row block, and the fold of them, read at an index -/

/-- A write of a whole block through row block `s` changes exactly the indices of row block `s`. -/
theorem write_oS_apply (c s : Dev nD) (g : Buf (Elt F) ((c : Thread nD τ).loc main_v1)) (w : FVec F S2048x512 .bf16)
    (i : S16384x512.Idx) :
    (oS s).view.write (Elt F) g w Finset.univ i = if blk i = s then w (inBlk i) else g i := by
  have h := View.write_whole_slice_unit (Val := Elt F) main_v1 (k0_off3 s) S2048x512.size (k0_off3_inb s) g w
  refine (congrFun h i).trans ?_
  unfold updateSlice
  split
  · next hin =>
    have h0 : 2048 * s.val ≤ (i 0).val ∧ (i 0).val < 2048 * s.val + 2048 := by
      have := hin 0; rw [off3_zero] at this; exact this
    have hs : blk i = s := Fin.ext (by show (i 0).val / 2048 = s.val; omega)
    rw [if_pos hs]
    congr 1
    refine Shape.idx_ext₂ ?_ ?_
    · show (i 0).val - k0_off3 s 0 = (i 0).val % 2048
      rw [off3_zero]; omega
    · show (i 1).val - k0_off3 s 1 = (i 1).val
      rw [off3_one]; omega
  · next hout =>
    rw [if_neg]
    intro hs
    apply hout
    have hi0 : (i 0).val < 16384 := (i 0).isLt
    have hi1 : (i 1).val < 512 := (i 1).isLt
    have hb : (i 0).val / 2048 = s.val := congrArg Fin.val hs
    intro a
    match a with
    | ⟨0, _⟩ =>
      show k0_off3 s 0 ≤ (i 0).val ∧ (i 0).val < k0_off3 s 0 + 2048
      rw [off3_zero]; omega
    | ⟨1, _⟩ =>
      show k0_off3 s 1 ≤ (i 1).val ∧ (i 1).val < k0_off3 s 1 + 512
      rw [off3_one]; omega

/-- A fold of whole-block writes, one through each row block of a list, read at an index: the payload of the index's
    own row block if the list names it (every write of another block leaves the index alone), else the contents the
    fold began with. -/
theorem fold_write_apply (c : Dev nD) (P : Dev nD → FVec F S2048x512 .bf16) (l : List (Dev nD))
    (g : Buf (Elt F) ((c : Thread nD τ).loc main_v1)) (i : S16384x512.Idx) :
    (l.foldl (fun (g : Buf (Elt F) ((c : Thread nD τ).loc main_v1)) (s : Dev nD) =>
        (oS s).view.write (Elt F) g (P s) Finset.univ) g) i
      = if blk i ∈ l then P (blk i) (inBlk i) else g i := by
  induction l generalizing g with
  | nil => exact (if_neg List.not_mem_nil).symm
  | cons a l ih =>
    refine (ih ((oS a).view.write (Elt F) g (P a) Finset.univ)).trans ?_
    by_cases h1 : blk i ∈ l
    · exact (if_pos h1).trans (if_pos (List.mem_cons_of_mem _ h1)).symm
    · refine (if_neg h1).trans ((write_oS_apply c a g (P a) i).trans ?_)
      by_cases h2 : blk i = a
      · rw [if_pos h2, if_pos (h2 ▸ List.mem_cons_self), h2]
      · rw [if_neg h2, if_neg (fun h => (List.mem_cons.mp h).elim h2 h1)]

variable (m : (ℓ : Loc nD τ sig) → Buf (Elt F) ℓ)

/-- Device `c`'s final result at an index: the rounded column block `c` of the rows of the device the index's row
    block belongs to, at the index's place in the block. -/
theorem outFn_apply (c : Dev nD) (i : S16384x512.Idx) :
    outFn m c i = pay (xcol m (blk i) c) (inBlk i) := by
  unfold outFn
  rw [fold_write_apply c (fun s => pay (xcol m s c)), if_pos (List.mem_finRange _)]

/-- The body's arithmetic on a block is elementwise rounding (the cast between equal shapes is the identity). -/
theorem pay_apply (v : Vec F S2048x512 .f32) (y : S2048x512.Idx) :
    pay v y = FloatOps.truncf .bf16 bitsLt_bf16_f32 (v y) := by
  show shapeCast S2048x512 (truncf .bf16 v bitsLt_bf16_f32) shapeCasts_S2048x512_S2048x512 y = _
  rw [shapeCast_self]; rfl

/-- Column block `c'` of device `s`'s rows at `y`: the rows at `y`'s row and column `512 c' + ` `y`'s column. -/
theorem xcol_apply (s c' : Dev nD) (y : S2048x512.Idx) :
    xcol m s c' y = X m s ((xcolM c').view.emb y) := rfl

theorem xcolM_emb_zero (c' : Dev nD) (y : S2048x512.Idx) :
    (((xcolM c').view.emb y) (0 : Fin 2)).val = (y 0).val := by
  have h : (((xcolM c').view.emb y) (0 : Fin 2)).val = 0 + 1 * (y 0).val := rfl
  omega

theorem xcolM_emb_one (c' : Dev nD) (y : S2048x512.Idx) :
    (((xcolM c').view.emb y) (1 : Fin 2)).val = 512 * c'.val + (y 1).val := by
  have h : (((xcolM c').view.emb y) (1 : Fin 2)).val = 512 * c'.val + 1 * (y 1).val := rfl
  omega

/-! ## The value -/

/-- When each device's input rows are its row block of the whole array `x'`, device `c`'s final result is column
    block `c` of `x'` rounded elementwise to bf16. -/
theorem outFn_block {F : FTy → Type} [FloatOps F]
    (m : (ℓ : Loc Cert.KernelIdeal.nD Cert.KernelIdeal.τ Cert.KernelIdeal.sig) → Buf (Elt F) ℓ)
    (x' : Buf (Elt F) (((0 : Dev Cert.ReferenceIdeal.nD).tc : Thread Cert.ReferenceIdeal.nD Cert.ReferenceIdeal.τ).loc Cert.ReferenceIdeal.main_arg0))
    (hx : ∀ c : Dev Cert.KernelIdeal.nD, m ((c.tc : Thread Cert.KernelIdeal.nD Cert.KernelIdeal.τ).loc Cert.KernelIdeal.main_arg0)
      = Layout.block ⟨2, ![2048, 4096]⟩ ⟨2, ![16384, 4096]⟩ 0 8 c x')
    (c : Dev Cert.KernelIdeal.nD) :
    Cert.KernelIdeal.A2A.outFn m c
      = Layout.block ⟨2, ![16384, 512]⟩ ⟨2, ![16384, 4096]⟩ 1 8 c (truncf .bf16 x' Cert.ReferenceIdeal.Gen.bitsLt_bf16_f32) := by
  funext i
  rw [outFn_apply, pay_apply, xcol_apply]
  show FloatOps.truncf .bf16 _ (m (((blk i).tc : Thread nD τ).loc main_arg0) ((xcolM c).view.emb (inBlk i))) = _
  rw [hx (blk i)]
  show FloatOps.truncf .bf16 _ (x' _) = FloatOps.truncf .bf16 _ (x' _)
  congr 2
  refine Shape.idx_ext₂ ?_ ?_
  · show (blk i).val * 2048 + (((xcolM c).view.emb (inBlk i) ) (0 : Fin 2)).val = (i 0).val
    rw [xcolM_emb_zero]
    show (i 0).val / 2048 * 2048 + (i 0).val % 2048 = (i 0).val
    omega
  · show (((xcolM c).view.emb (inBlk i) ) (1 : Fin 2)).val = c.val * 512 + (i 1).val
    rw [xcolM_emb_one]
    show 512 * c.val + (i 1).val = c.val * 512 + (i 1).val
    omega

/-! ## The two conjuncts -/

/-- The one-device program runs and leaves its argument unchanged: its run with the value dropped. -/
theorem frame_ref : Cert.frame_ReferenceIdeal := fun m ρ _ =>
  (θ_run Cert.ReferenceIdeal.defs _ _).mono (fun _ h c => (h c).2) (Cert.ReferenceIdeal.Value.run (F := Ideal) m ρ)

/-- The algebraic conjunct, from a run of the eight-device program that names each device's result: the witness is
    the whole array rounded elementwise, which the one-device program's run ends with and of which each device's
    result is its column block. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_v1) = Cert.KernelIdeal.A2A.outFn m c)) :
    Cert.algebraic_KernelIdeal_ReferenceIdeal := by
  intro m ρ m' ρ' _ hagree
  refine ⟨(truncf .bf16 (m' (((0 : Dev Cert.ReferenceIdeal.nD).tc : Thread Cert.ReferenceIdeal.nD Cert.ReferenceIdeal.τ).loc Cert.ReferenceIdeal.main_arg0))
      Cert.ReferenceIdeal.Gen.bitsLt_bf16_f32 : FVec Ideal Cert.ReferenceIdeal.S16384x4096 .bf16), ?_, ?_⟩
  · exact (θ_run Cert.KernelIdeal.defs _ _).mono
      (fun _ h c => ⟨(h c).2.trans (outFn_block m _ hagree c), (h c).1⟩) (hrun m ρ)
  · exact (θ_run Cert.ReferenceIdeal.defs _ _).mono (fun _ h => ⟨(h 0).1, (h 0).2⟩)
      (Cert.ReferenceIdeal.Value.run (F := Ideal) m' ρ')

/-- info: 'Cert.Proof.Bridge.outFn_block' depends on axioms: [propext, Classical.choice, Quot.sound] -/
#guard_msgs in #print axioms outFn_block
/-- info: 'Cert.Proof.Bridge.frame_ref' depends on axioms: [propext, Classical.choice, Quot.sound] -/
#guard_msgs in #print axioms frame_ref
/-- info: 'Cert.Proof.Bridge.algebraic_of_run' depends on axioms: [propext, Classical.choice, Quot.sound] -/
#guard_msgs in #print axioms algebraic_of_run

end Cert.Proof.Bridge

end
-- ==== Proof.lean ====
/-
  The five conjuncts of the claim, for an all-to-all of eight devices against its one-device reference.

  Device `c` holds rows block `c` (2048 × 4096) of an array of 16384 × 4096 and must end with columns block `c`
  (16384 × 512) of that array rounded elementwise to bf16; the one-device program rounds the whole array.

  * The eight-device program, as printed (word level) and as idealized: each runs (every fair interleaving of the eight
    devices' threads terminates, nothing faults) and ends with every device's argument unchanged and its result the
    fold, over the eight row blocks `s`, of the rounded columns block `c` of device `s`'s rows written through rows
    block `s`. The geometry of the copies (`Geom`, `GeomFacts`), one device's body stepped from the exchange's invariant (`Steps`, `Close`, `Body`)
    and the launch over the eight devices (`Launch`) give that run, once per instance, from the same text. The two
    frames are that run with the result dropped.
  * The one-device program's frame is its run with the value dropped.
  * The idealization rewrote no operation: the fourth conjunct is trivial.
  * The algebraic conjunct: the witness is the whole array rounded elementwise; the idealized run's result on device `c`
    is columns block `c` of it, an equation of indices (`ValueBridge`), and the one-device program's run ends with it.
-/
import proofs.«900616_g7700000000000617_dist_a2a_v7x_i8_i_m2048_n512_bf16_1_alg».proof.Defs
import proofs.«900616_g7700000000000617_dist_a2a_v7x_i8_i_m2048_n512_bf16_1_alg».proof.Proof.Gen.Kernel
import proofs.«900616_g7700000000000617_dist_a2a_v7x_i8_i_m2048_n512_bf16_1_alg».proof.Proof.Gen.Kernel.Skeleton
import proofs.«900616_g7700000000000617_dist_a2a_v7x_i8_i_m2048_n512_bf16_1_alg».proof.Proof.Gen.Kernel.Launch
import proofs.«900616_g7700000000000617_dist_a2a_v7x_i8_i_m2048_n512_bf16_1_alg».proof.Proof.Gen.Kernel.Points
import proofs.«900616_g7700000000000617_dist_a2a_v7x_i8_i_m2048_n512_bf16_1_alg».proof.Proof.Gen.Kernel.Frame
import proofs.«900616_g7700000000000617_dist_a2a_v7x_i8_i_m2048_n512_bf16_1_alg».proof.Proof.Gen.KernelIdeal
import proofs.«900616_g7700000000000617_dist_a2a_v7x_i8_i_m2048_n512_bf16_1_alg».proof.Proof.Gen.KernelIdeal.Skeleton
import proofs.«900616_g7700000000000617_dist_a2a_v7x_i8_i_m2048_n512_bf16_1_alg».proof.Proof.Gen.KernelIdeal.Launch
import proofs.«900616_g7700000000000617_dist_a2a_v7x_i8_i_m2048_n512_bf16_1_alg».proof.Proof.Gen.KernelIdeal.Points
import proofs.«900616_g7700000000000617_dist_a2a_v7x_i8_i_m2048_n512_bf16_1_alg».proof.Proof.Gen.KernelIdeal.Frame
import proofs.«900616_g7700000000000617_dist_a2a_v7x_i8_i_m2048_n512_bf16_1_alg».proof.Proof.Gen.ReferenceIdeal
import proofs.«900616_g7700000000000617_dist_a2a_v7x_i8_i_m2048_n512_bf16_1_alg».proof.Proof.Gen.ReferenceIdeal.Run
import proofs.«900616_g7700000000000617_dist_a2a_v7x_i8_i_m2048_n512_bf16_1_alg».proof.Proof.Gen.ReferenceIdeal.Read
import proofs.«900616_g7700000000000617_dist_a2a_v7x_i8_i_m2048_n512_bf16_1_alg».proof.Proof.Gen.Pre_finite_inputs_Kernel
import proofs.«900616_g7700000000000617_dist_a2a_v7x_i8_i_m2048_n512_bf16_1_alg».proof.Proof.Gen.Pre_finite_inputs_ReferenceIdeal
import Idealize.ShloMosaic.Adequacy
import Idealize.ShloMosaic.Init
import proofs.«900616_g7700000000000617_dist_a2a_v7x_i8_i_m2048_n512_bf16_1_alg».proof.Proof.KernelIdealA2A.Geom
import proofs.«900616_g7700000000000617_dist_a2a_v7x_i8_i_m2048_n512_bf16_1_alg».proof.Proof.KernelIdealA2A.GeomFacts
import proofs.«900616_g7700000000000617_dist_a2a_v7x_i8_i_m2048_n512_bf16_1_alg».proof.Proof.KernelIdealA2A.Steps
import proofs.«900616_g7700000000000617_dist_a2a_v7x_i8_i_m2048_n512_bf16_1_alg».proof.Proof.KernelIdealA2A.Close
import proofs.«900616_g7700000000000617_dist_a2a_v7x_i8_i_m2048_n512_bf16_1_alg».proof.Proof.KernelIdealA2A.Body
import proofs.«900616_g7700000000000617_dist_a2a_v7x_i8_i_m2048_n512_bf16_1_alg».proof.Proof.KernelIdealA2A.Launch
import proofs.«900616_g7700000000000617_dist_a2a_v7x_i8_i_m2048_n512_bf16_1_alg».proof.Proof.KernelA2A.Geom
import proofs.«900616_g7700000000000617_dist_a2a_v7x_i8_i_m2048_n512_bf16_1_alg».proof.Proof.KernelA2A.GeomFacts
import proofs.«900616_g7700000000000617_dist_a2a_v7x_i8_i_m2048_n512_bf16_1_alg».proof.Proof.KernelA2A.Steps
import proofs.«900616_g7700000000000617_dist_a2a_v7x_i8_i_m2048_n512_bf16_1_alg».proof.Proof.KernelA2A.Close
import proofs.«900616_g7700000000000617_dist_a2a_v7x_i8_i_m2048_n512_bf16_1_alg».proof.Proof.KernelA2A.Body
import proofs.«900616_g7700000000000617_dist_a2a_v7x_i8_i_m2048_n512_bf16_1_alg».proof.Proof.KernelA2A.Launch
import proofs.«900616_g7700000000000617_dist_a2a_v7x_i8_i_m2048_n512_bf16_1_alg».proof.Proof.ValueBridge

noncomputable section

namespace Cert.Proof

open Idealize.ShloMosaic Idealize.SL.Sem

/-- The eight-device program as printed runs, each device's argument unchanged and its result the fold of writes. -/
theorem run_Kernel (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_v1) = Cert.Kernel.A2A.outFn m c) :=
  Cert.Kernel.A2A.run_main (F := Bits) m ρ fun c => Cert.Kernel.A2A.Run.body_obligation m (Cert.Kernel.A2A.Run.geomFacts m) c

/-- The same of the idealized program. -/
theorem run_KernelIdeal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_v1) = Cert.KernelIdeal.A2A.outFn m c) :=
  Cert.KernelIdeal.A2A.run_main (F := Ideal) m ρ fun c => Cert.KernelIdeal.A2A.Run.body_obligation m (Cert.KernelIdeal.A2A.Run.geomFacts m) c

/-- The printed program's frame: its run with the result dropped. -/
theorem frame_kernel : Cert.frame_Kernel := fun m ρ _ =>
  (θ_run Cert.Kernel.defs _ _).mono (fun _ h c => (h c).1) (run_Kernel m ρ)

/-- The idealized program's frame: its run with the result dropped. -/
theorem frame_kernelIdeal : Cert.frame_KernelIdeal := fun m ρ _ =>
  (θ_run Cert.KernelIdeal.defs _ _).mono (fun _ h c => (h c).1) (run_KernelIdeal m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, Cert.Proof.Bridge.frame_ref, trivial, Cert.Proof.Bridge.algebraic_of_run run_KernelIdeal⟩

end Cert.Proof

end
